-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S81x10 : Shape := ⟨2, ![81, 10]⟩
abbrev S2x1620 : Shape := ⟨2, ![2, 1620]⟩
abbrev S10x8192 : Shape := ⟨2, ![10, 8192]⟩
abbrev S8192 : Shape := ⟨1, ![8192]⟩
abbrev S8192x8192 : Shape := ⟨2, ![8192, 8192]⟩
abbrev S8192x729 : Shape := ⟨2, ![8192, 729]⟩
abbrev S729 : Shape := ⟨1, ![729]⟩
abbrev S_ : Shape := ⟨0, ![]⟩

class Facts : Prop where
  bcast_S_S81x10 : S_.BroadcastsInDim S81x10 (![] : Fin 0 → Fin S81x10.rank)
  reducesTo_S81x10_S_d0_1 : S81x10.ReducesTo [0, 1] S_
  h_S_ : 0 < S_.numel
  bcast_S_S10x8192 : S_.BroadcastsInDim S10x8192 (![] : Fin 0 → Fin S10x8192.rank)
  reducesTo_S10x8192_S_d0_1 : S10x8192.ReducesTo [0, 1] S_
  bcast_S_S8192 : S_.BroadcastsInDim S8192 (![] : Fin 0 → Fin S8192.rank)
  reducesTo_S8192_S_d0 : S8192.ReducesTo [0] S_
  bcast_S_S8192x8192 : S_.BroadcastsInDim S8192x8192 (![] : Fin 0 → Fin S8192x8192.rank)
  reducesTo_S8192x8192_S_d0_1 : S8192x8192.ReducesTo [0, 1] S_
  bcast_S_S8192x729 : S_.BroadcastsInDim S8192x729 (![] : Fin 0 → Fin S8192x729.rank)
  reducesTo_S8192x729_S_d0_1 : S8192x729.ReducesTo [0, 1] S_
  bcast_S_S729 : S_.BroadcastsInDim S729 (![] : Fin 0 → Fin S729.rank)
  reducesTo_S729_S_d0 : S729.ReducesTo [0] S_
  bcast_S_S2x1620 : S_.BroadcastsInDim S2x1620 (![] : Fin 0 → Fin S2x1620.rank)
  reducesTo_S2x1620_S_d0_1 : S2x1620.ReducesTo [0, 1] S_

variable [Facts]

def fn_part3 {F : FTy → Type} [FloatOps F] (main_v47 : IVec S_ 1) (main_v49 : IVec S2x1620 1) (main_c_19 : IVec S_ 1) : IVec S_ 1 :=
  let main_v50 : IVec S_ 1 := (fun x v => Host.reduce IntOp.andi x v reducesTo_S2x1620_S_d0_1 h_S_) main_v49 main_c_19
  let main_v51 : IVec S_ 1 := andi main_v47 main_v50
  main_v51

def fn_part2 {F : FTy → Type} [FloatOps F] (main_arg1 : IVec S2x1620 32) (main_arg8 : FVec F S8192x729 .f32) (main_arg9 : FVec F S729 .f32) (main_v33 : IVec S_ 1) : IVec S_ 1 :=
  let main_v34 : FVec F S8192x729 .f32 := Host.absf main_arg8
  let main_cst_12 : FVec F S_ .f32 := constant S_ .f32 0x7F800000#32
  let main_v35 : FVec F S8192x729 .f32 := broadcastInDim S8192x729 ![] bcast_S_S8192x729 main_cst_12
  let main_v36 : IVec S8192x729 1 := cmpf .olt main_v34 main_v35
  let main_c_13 : IVec S_ 1 := constantI S_ 1 1#1
  let main_v37 : IVec S_ 1 := (fun x v => Host.reduce IntOp.andi x v reducesTo_S8192x729_S_d0_1 h_S_) main_v36 main_c_13
  let main_v38 : IVec S_ 1 := andi main_v33 main_v37
  let main_v39 : FVec F S729 .f32 := Host.absf main_arg9
  let main_cst_14 : FVec F S_ .f32 := constant S_ .f32 0x7F800000#32
  let main_v40 : FVec F S729 .f32 := broadcastInDim S729 ![] bcast_S_S729 main_cst_14
  let main_v41 : IVec S729 1 := cmpf .olt main_v39 main_v40
  let main_c_15 : IVec S_ 1 := constantI S_ 1 1#1
  let main_v42 : IVec S_ 1 := (fun x v => Host.reduce IntOp.andi x v reducesTo_S729_S_d0 h_S_) main_v41 main_c_15
  let main_v43 : IVec S_ 1 := andi main_v38 main_v42
  let main_c_16 : IVec S_ 32 := constantI S_ 32 0#32
  let main_v44 : IVec S2x1620 32 := broadcastInDim S2x1620 ![] bcast_S_S2x1620 main_c_16
  let main_v45 : IVec S2x1620 1 := cmpi .sge main_arg1 main_v44
  let main_c_17 : IVec S_ 1 := constantI S_ 1 1#1
  let main_v46 : IVec S_ 1 := (fun x v => Host.reduce IntOp.andi x v reducesTo_S2x1620_S_d0_1 h_S_) main_v45 main_c_17
  let main_v47 : IVec S_ 1 := andi main_v43 main_v46
  let main_c_18 : IVec S_ 32 := constantI S_ 32 81#32
  let main_v48 : IVec S2x1620 32 := broadcastInDim S2x1620 ![] bcast_S_S2x1620 main_c_18
  let main_v49 : IVec S2x1620 1 := cmpi .slt main_arg1 main_v48
  let main_c_19 : IVec S_ 1 := constantI S_ 1 1#1
  fn_part3 (F := F) main_v47 main_v49 main_c_19

def fn_part1 {F : FTy → Type} [FloatOps F] (main_arg1 : IVec S2x1620 32) (main_arg5 : FVec F S8192 .f32) (main_arg6 : FVec F S8192x8192 .f32) (main_arg7 : FVec F S8192 .f32) (main_arg8 : FVec F S8192x729 .f32) (main_arg9 : FVec F S729 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S8192 .f32 := Host.absf main_arg5
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192x8192 .f32 := Host.absf main_arg6
  let main_cst_8 : FVec F S_ .f32 := constant S_ .f32 0x7F800000#32
  let main_v25 : FVec F S8192x8192 .f32 := broadcastInDim S8192x8192 ![] bcast_S_S8192x8192 main_cst_8
  let main_v26 : IVec S8192x8192 1 := cmpf .olt main_v24 main_v25
  let main_c_9 : IVec S_ 1 := constantI S_ 1 1#1
  let main_v27 : IVec S_ 1 := (fun x v => Host.reduce IntOp.andi x v reducesTo_S8192x8192_S_d0_1 h_S_) main_v26 main_c_9
  let main_v28 : IVec S_ 1 := andi main_v23 main_v27
  let main_v29 : FVec F S8192 .f32 := Host.absf main_arg7
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  fn_part2 (F := F) main_arg1 main_arg8 main_arg9 main_v33

def fn {F : FTy → Type} [FloatOps F] (main_arg0 : FVec F S81x10 .f32) (main_arg1 : IVec S2x1620 32) (main_arg2 : FVec F S10x8192 .f32) (main_arg3 : FVec F S8192 .f32) (main_arg4 : FVec F S8192 .f32) (main_arg5 : FVec F S8192 .f32) (main_arg6 : FVec F S8192x8192 .f32) (main_arg7 : FVec F S8192 .f32) (main_arg8 : FVec F S8192x729 .f32) (main_arg9 : FVec F S729 .f32) : IVec S_ 1 :=
  let main_v0 : FVec F S81x10 .f32 := Host.absf main_arg0
  let main_cst : FVec F S_ .f32 := constant S_ .f32 0x7F800000#32
  let main_v1 : FVec F S81x10 .f32 := broadcastInDim S81x10 ![] bcast_S_S81x10 main_cst
  let main_v2 : IVec S81x10 1 := cmpf .olt main_v0 main_v1
  let main_c : IVec S_ 1 := constantI S_ 1 1#1
  let main_v3 : IVec S_ 1 := (fun x v => Host.reduce IntOp.andi x v reducesTo_S81x10_S_d0_1 h_S_) main_v2 main_c
  let main_v4 : FVec F S10x8192 .f32 := Host.absf main_arg2
  let main_cst_0 : FVec F S_ .f32 := constant S_ .f32 0x7F800000#32
  let main_v5 : FVec F S10x8192 .f32 := broadcastInDim S10x8192 ![] bcast_S_S10x8192 main_cst_0
  let main_v6 : IVec S10x8192 1 := cmpf .olt main_v4 main_v5
  let main_c_1 : IVec S_ 1 := constantI S_ 1 1#1
  let main_v7 : IVec S_ 1 := (fun x v => Host.reduce IntOp.andi x v reducesTo_S10x8192_S_d0_1 h_S_) main_v6 main_c_1
  let main_v8 : IVec S_ 1 := andi main_v3 main_v7
  let main_v9 : FVec F S8192 .f32 := Host.absf main_arg3
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192 .f32 := Host.absf main_arg4
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg1 main_arg5 main_arg6 main_arg7 main_arg8 main_arg9 main_v13 main_v16
-- ==== Kernel.lean ====
abbrev S81x10 : Shape := ⟨2, ![81, 10]⟩
abbrev S2x1620 : Shape := ⟨2, ![2, 1620]⟩
abbrev S10x8192 : Shape := ⟨2, ![10, 8192]⟩
abbrev S8192 : Shape := ⟨1, ![8192]⟩
abbrev S8192x8192 : Shape := ⟨2, ![8192, 8192]⟩
abbrev S8192x729 : Shape := ⟨2, ![8192, 729]⟩
abbrev S729 : Shape := ⟨1, ![729]⟩
abbrev S81 : Shape := ⟨1, ![81]⟩
abbrev S1x1620 : Shape := ⟨2, ![1, 1620]⟩
abbrev S1620 : Shape := ⟨1, ![1620]⟩
abbrev S1701 : Shape := ⟨1, ![1701]⟩
abbrev S_ : Shape := ⟨0, ![]⟩
abbrev S1701x1 : Shape := ⟨2, ![1701, 1]⟩
abbrev S81x81 : Shape := ⟨2, ![81, 81]⟩
abbrev S1701x2 : Shape := ⟨2, ![1701, 2]⟩
abbrev S1x8192 : Shape := ⟨2, ![1, 8192]⟩
abbrev S81x8192 : Shape := ⟨2, ![81, 8192]⟩
abbrev S81x1 : Shape := ⟨2, ![81, 1]⟩
abbrev S2x1x729 : Shape := ⟨3, ![2, 1, 729]⟩
abbrev S8192x256 : Shape := ⟨2, ![8192, 256]⟩
abbrev S1x256 : Shape := ⟨2, ![1, 256]⟩
abbrev S256x729 : Shape := ⟨2, ![256, 729]⟩
abbrev S1x1x729 : Shape := ⟨3, ![1, 1, 729]⟩
abbrev S1x729 : Shape := ⟨2, ![1, 729]⟩
abbrev S1 : Shape := ⟨1, ![1]⟩
abbrev S1x1 : Shape := ⟨2, ![1, 1]⟩

abbrev nBuf : Space → Nat
  | .hbm => 105
  | .vmem => 17
  | .smem => 0
  | _ => 0

abbrev bufTy : (tb : Table) → Fin (tcTables nBuf tb) → BufTy
  | .hbm, ⟨0, _⟩ => ⟨S81x10, .f32⟩
  | .hbm, ⟨1, _⟩ => ⟨S2x1620, .i32⟩
  | .hbm, ⟨2, _⟩ => ⟨S10x8192, .f32⟩
  | .hbm, ⟨3, _⟩ => ⟨S8192, .f32⟩
  | .hbm, ⟨4, _⟩ => ⟨S8192, .f32⟩
  | .hbm, ⟨5, _⟩ => ⟨S8192, .f32⟩
  | .hbm, ⟨6, _⟩ => ⟨S8192x8192, .f32⟩
  | .hbm, ⟨7, _⟩ => ⟨S8192, .f32⟩
  | .hbm, ⟨8, _⟩ => ⟨S8192x729, .f32⟩
  | .hbm, ⟨9, _⟩ => ⟨S729, .f32⟩
  | .hbm, ⟨10, _⟩ => ⟨S81, .i32⟩
  | .hbm, ⟨11, _⟩ => ⟨S1x1620, .i32⟩
  | .hbm, ⟨12, _⟩ => ⟨S1620, .i32⟩
  | .hbm, ⟨13, _⟩ => ⟨S1701, .i32⟩
  | .hbm, ⟨14, _⟩ => ⟨S1x1620, .i32⟩
  | .hbm, ⟨15, _⟩ => ⟨S1620, .i32⟩
  | .hbm, ⟨16, _⟩ => ⟨S1701, .i32⟩
  | .hbm, ⟨17, _⟩ => ⟨S_, .f32⟩
  | .hbm, ⟨18, _⟩ => ⟨S81, .f32⟩
  | .hbm, ⟨19, _⟩ => ⟨S_, .i32⟩
  | .hbm, ⟨20, _⟩ => ⟨S1701, .i32⟩
  | .hbm, ⟨21, _⟩ => ⟨S1701, .i1⟩
  | .hbm, ⟨22, _⟩ => ⟨S_, .i32⟩
  | .hbm, ⟨23, _⟩ => ⟨S1701, .i32⟩
  | .hbm, ⟨24, _⟩ => ⟨S1701, .i32⟩
  | .hbm, ⟨25, _⟩ => ⟨S1701, .i32⟩
  | .hbm, ⟨26, _⟩ => ⟨S1701x1, .i32⟩
  | .hbm, ⟨27, _⟩ => ⟨S_, .f32⟩
  | .hbm, ⟨28, _⟩ => ⟨S1701, .f32⟩
  | .hbm, ⟨29, _⟩ => ⟨S81, .f32⟩
  | .hbm, ⟨30, _⟩ => ⟨S_, .f32⟩
  | .hbm, ⟨31, _⟩ => ⟨S81, .f32⟩
  | .hbm, ⟨32, _⟩ => ⟨S81, .i1⟩
  | .hbm, ⟨33, _⟩ => ⟨S81, .f32⟩
  | .hbm, ⟨34, _⟩ => ⟨S_, .f32⟩
  | .hbm, ⟨35, _⟩ => ⟨S_, .f32⟩
  | .hbm, ⟨36, _⟩ => ⟨S81, .f32⟩
  | .hbm, ⟨37, _⟩ => ⟨S81, .f32⟩
  | .hbm, ⟨38, _⟩ => ⟨S_, .i32⟩
  | .hbm, ⟨39, _⟩ => ⟨S1701, .i32⟩
  | .hbm, ⟨40, _⟩ => ⟨S1701, .i1⟩
  | .hbm, ⟨41, _⟩ => ⟨S_, .i32⟩
  | .hbm, ⟨42, _⟩ => ⟨S1701, .i32⟩
  | .hbm, ⟨43, _⟩ => ⟨S1701, .i32⟩
  | .hbm, ⟨44, _⟩ => ⟨S1701, .i32⟩
  | .hbm, ⟨45, _⟩ => ⟨S1701x1, .i32⟩
  | .hbm, ⟨46, _⟩ => ⟨S1701, .f32⟩
  | .hbm, ⟨47, _⟩ => ⟨S_, .i32⟩
  | .hbm, ⟨48, _⟩ => ⟨S1701, .i32⟩
  | .hbm, ⟨49, _⟩ => ⟨S1701, .i1⟩
  | .hbm, ⟨50, _⟩ => ⟨S_, .i32⟩
  | .hbm, ⟨51, _⟩ => ⟨S1701, .i32⟩
  | .hbm, ⟨52, _⟩ => ⟨S1701, .i32⟩
  | .hbm, ⟨53, _⟩ => ⟨S1701, .i32⟩
  | .hbm, ⟨54, _⟩ => ⟨S1701x1, .i32⟩
  | .hbm, ⟨55, _⟩ => ⟨S1701, .f32⟩
  | .hbm, ⟨56, _⟩ => ⟨S1701, .f32⟩
  | .hbm, ⟨57, _⟩ => ⟨S_, .f32⟩
  | .hbm, ⟨58, _⟩ => ⟨S81x81, .f32⟩
  | .hbm, ⟨59, _⟩ => ⟨S_, .i32⟩
  | .hbm, ⟨60, _⟩ => ⟨S1701, .i32⟩
  | .hbm, ⟨61, _⟩ => ⟨S1701, .i1⟩
  | .hbm, ⟨62, _⟩ => ⟨S_, .i32⟩
  | .hbm, ⟨63, _⟩ => ⟨S1701, .i32⟩
  | .hbm, ⟨64, _⟩ => ⟨S1701, .i32⟩
  | .hbm, ⟨65, _⟩ => ⟨S1701, .i32⟩
  | .hbm, ⟨66, _⟩ => ⟨S_, .i32⟩
  | .hbm, ⟨67, _⟩ => ⟨S1701, .i32⟩
  | .hbm, ⟨68, _⟩ => ⟨S1701, .i1⟩
  | .hbm, ⟨69, _⟩ => ⟨S_, .i32⟩
  | .hbm, ⟨70, _⟩ => ⟨S1701, .i32⟩
  | .hbm, ⟨71, _⟩ => ⟨S1701, .i32⟩
  | .hbm, ⟨72, _⟩ => ⟨S1701, .i32⟩
  | .hbm, ⟨73, _⟩ => ⟨S1701x1, .i32⟩
  | .hbm, ⟨74, _⟩ => ⟨S1701x1, .i32⟩
  | .hbm, ⟨75, _⟩ => ⟨S1701x2, .i32⟩
  | .hbm, ⟨76, _⟩ => ⟨S81x81, .f32⟩
  | .hbm, ⟨77, _⟩ => ⟨S1x8192, .f32⟩
  | .hbm, ⟨78, _⟩ => ⟨S1x8192, .f32⟩
  | .hbm, ⟨79, _⟩ => ⟨S1x8192, .f32⟩
  | .hbm, ⟨80, _⟩ => ⟨S1x8192, .f32⟩
  | .hbm, ⟨81, _⟩ => ⟨S1x8192, .f32⟩
  | .hbm, ⟨82, _⟩ => ⟨S2x1x729, .f32⟩
  | .hbm, ⟨83, _⟩ => ⟨S1x1x729, .f32⟩
  | .hbm, ⟨84, _⟩ => ⟨S729, .f32⟩
  | .hbm, ⟨85, _⟩ => ⟨S1x1x729, .f32⟩
  | .hbm, ⟨86, _⟩ => ⟨S729, .f32⟩
  | .hbm, ⟨87, _⟩ => ⟨S729, .f32⟩
  | .hbm, ⟨88, _⟩ => ⟨S729, .f32⟩
  | .hbm, ⟨89, _⟩ => ⟨S1x729, .f32⟩
  | .hbm, ⟨90, _⟩ => ⟨S_, .f32⟩
  | .hbm, ⟨91, _⟩ => ⟨S1, .f32⟩
  | .hbm, ⟨92, _⟩ => ⟨S_, .f32⟩
  | .hbm, ⟨93, _⟩ => ⟨S1, .f32⟩
  | .hbm, ⟨94, _⟩ => ⟨S1, .f32⟩
  | .hbm, ⟨95, _⟩ => ⟨S1x1, .f32⟩
  | .hbm, ⟨96, _⟩ => ⟨S1x729, .f32⟩
  | .hbm, ⟨97, _⟩ => ⟨S1x729, .f32⟩
  | .hbm, ⟨98, _⟩ => ⟨S1x729, .f32⟩
  | .hbm, ⟨99, _⟩ => ⟨S_, .f32⟩
  | .hbm, ⟨100, _⟩ => ⟨S1, .f32⟩
  | .hbm, ⟨101, _⟩ => ⟨S1x1, .f32⟩
  | .hbm, ⟨102, _⟩ => ⟨S1x1, .f32⟩
  | .hbm, ⟨103, _⟩ => ⟨S1x729, .f32⟩
  | .hbm, ⟨104, _⟩ => ⟨S1x729, .f32⟩
  | .local _ .vmem, ⟨0, _⟩ => ⟨S81x10, .f32⟩
  | .local _ .vmem, ⟨1, _⟩ => ⟨S81x81, .f32⟩
  | .local _ .vmem, ⟨2, _⟩ => ⟨S10x8192, .f32⟩
  | .local _ .vmem, ⟨3, _⟩ => ⟨S1x8192, .f32⟩
  | .local _ .vmem, ⟨4, _⟩ => ⟨S1x8192, .f32⟩
  | .local _ .vmem, ⟨5, _⟩ => ⟨S1x8192, .f32⟩
  | .local _ .vmem, ⟨6, _⟩ => ⟨S1x8192, .f32⟩
  | .local _ .vmem, ⟨7, _⟩ => ⟨S1x8192, .f32⟩
  | .local _ .vmem, ⟨8, _⟩ => ⟨S8192x256, .f32⟩
  | .local _ .vmem, ⟨9, _⟩ => ⟨S8192x256, .f32⟩
  | .local _ .vmem, ⟨10, _⟩ => ⟨S1x256, .f32⟩
  | .local _ .vmem, ⟨11, _⟩ => ⟨S1x256, .f32⟩
  | .local _ .vmem, ⟨12, _⟩ => ⟨S256x729, .f32⟩
  | .local _ .vmem, ⟨13, _⟩ => ⟨S256x729, .f32⟩
  | .local _ .vmem, ⟨14, _⟩ => ⟨S1x1x729, .f32⟩
  | .local _ .vmem, ⟨15, _⟩ => ⟨S1x1x729, .f32⟩
  | .local _ .vmem, ⟨16, _⟩ => ⟨S1x729, .f32⟩
  | _, _ => ⟨S81x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_c_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_8 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_11 : Ref sig .tc := ⟨.hbm, 66, rfl⟩
abbrev main_v41 : Ref sig .tc := ⟨.hbm, 67, rfl⟩
abbrev main_v42 : Ref sig .tc := ⟨.hbm, 68, rfl⟩
abbrev main_c_12 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_call1_cst : Ref sig .tc := ⟨.hbm, 90, rfl⟩
abbrev main_call1_v0 : Ref sig .tc := ⟨.hbm, 91, rfl⟩
abbrev main_call1_cst_0 : Ref sig .tc := ⟨.hbm, 92, rfl⟩
abbrev main_call1_v1 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_call1_v5 : Ref sig .tc := ⟨.hbm, 97, rfl⟩
abbrev main_call1_v6 : Ref sig .tc := ⟨.hbm, 98, rfl⟩
abbrev main_call1_cst_1 : Ref sig .tc := ⟨.hbm, 99, rfl⟩
abbrev main_call1_v7 : Ref sig .tc := ⟨.hbm, 100, rfl⟩
abbrev main_call1_v8 : Ref sig .tc := ⟨.hbm, 101, rfl⟩
abbrev main_call1_v9 : Ref sig .tc := ⟨.hbm, 102, rfl⟩
abbrev main_call1_v10 : Ref sig .tc := ⟨.hbm, 103, rfl⟩
abbrev main_v63 : Ref sig .tc := ⟨.hbm, 104, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_scratch0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S81x10 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S81x81 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨2, ![2, 16], ![false, false]⟩

def k1_cond2 (i : grid1.Coords) : BitVec 1 :=
  let arg1 : BitVec 32 := BitVec.ofNat 32 (i 1).val
  let c15_i32 : BitVec 32 := 15#32
  let v23 : BitVec 1 := Scalar.cmpi .eq arg1 c15_i32
  let v24 : BitVec 32 := Scalar.extui v23
  let c0_i32_14 : BitVec 32 := 0#32
  let v25 : BitVec 1 := Scalar.cmpi .ne v24 c0_i32_14
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc1_transform_3 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S1x8192 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S8192x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x729 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x729 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  slices_S2x1620_S1x1620_0_0 : S2x1620.Slices ![0, 0] S1x1620
  shapeCasts_S1x1620_S1620 : S1x1620.ShapeCasts S1620
  concatenates_S1620_S81_S1701_d0 : Shape.Concatenates [S1620, S81] S1701 0
  slices_S2x1620_S1x1620_1_0 : S2x1620.Slices ![1, 0] S1x1620
  bcast_S_S81 : S_.BroadcastsInDim S81 (![] : Fin 0 → Fin S81.rank)
  bcast_S_S1701 : S_.BroadcastsInDim S1701 (![] : Fin 0 → Fin S1701.rank)
  bcast_S1701_S1701x1_0 : S1701.BroadcastsInDim S1701x1 (![0] : Fin 1 → Fin S1701x1.rank)
  bcast_S_S81x81 : S_.BroadcastsInDim S81x81 (![] : Fin 0 → Fin S81x81.rank)
  concatenates_S1701x1_S1701x1_S1701x2_d1 : Shape.Concatenates [S1701x1, S1701x1] S1701x2 1
  shapeCasts_S8192_S1x8192 : S8192.ShapeCasts S1x8192
  inb_S81x10_S81x10_0_0 : ∀ a, (![0, 0] : Fin 2 → Nat) a + S81x10.size a ≤ S81x10.size a
  h_S81x10 : 0 < S81x10.numel
  bitsLt_bf16_f32 : FTy.bits .bf16 < FTy.bits .f32
  inb_S10x8192_S10x8192_0_0 : ∀ a, (![0, 0] : Fin 2 → Nat) a + S10x8192.size a ≤ S10x8192.size a
  h_S10x8192 : 0 < S10x8192.numel
  inb_S81x81_S81x81_0_0 : ∀ a, (![0, 0] : Fin 2 → Nat) a + S81x81.size a ≤ S81x81.size a
  h_S81x81 : 0 < S81x81.numel
  shapeCasts_S81x81_S81x81 : S81x81.ShapeCasts S81x81
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S81x8192 : S1x8192.Broadcasts S81x8192
  reduces_S81x8192_S81 : S81x8192.Reduces [1] S81
  shapeCasts_S81_S81x1 : S81.ShapeCasts S81x1
  broadcasts_S81x1_S81x8192 : S81x1.Broadcasts S81x8192
  reduces_S81x8192_S8192 : S81x8192.Reduces [0] S8192
  inb_S1x729_S1x729_0_0 : ∀ a, (![0, 0] : Fin 2 → Nat) a + S1x729.size a ≤ S1x729.size a
  h_S1x729 : 0 < S1x729.numel
  shapeCasts_S1x729_S1x729 : S1x729.ShapeCasts S1x729
  inb_S8192x256_S8192x256_0_0 : ∀ a, (![0, 0] : Fin 2 → Nat) a + S8192x256.size a ≤ S8192x256.size a
  h_S8192x256 : 0 < S8192x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x729_S256x729_0_0 : ∀ a, (![0, 0] : Fin 2 → Nat) a + S256x729.size a ≤ S256x729.size a
  h_S256x729 : 0 < S256x729.numel
  inb_S1x1x729_S1x1x729_0_0_0 : ∀ a, (![0, 0, 0] : Fin 3 → Nat) a + S1x1x729.size a ≤ S1x1x729.size a
  h_S1x1x729 : 0 < S1x1x729.numel
  shapeCasts_S1x1x729_S1x729 : S1x1x729.ShapeCasts S1x729
  shapeCasts_S1x729_S1x1x729 : S1x729.ShapeCasts S1x1x729
  slices_S2x1x729_S1x1x729_0_0_0 : S2x1x729.Slices ![0, 0, 0] S1x1x729
  shapeCasts_S1x1x729_S729 : S1x1x729.ShapeCasts S729
  slices_S2x1x729_S1x1x729_1_0_0 : S2x1x729.Slices ![1, 0, 0] S1x1x729
  shapeCasts_S729_S1x729 : S729.ShapeCasts S1x729
  reducesTo_S1x729_S1_d1 : S1x729.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x729_0_1 : S1x1.BroadcastsInDim S1x729 (![0, 1] : Fin 2 → Fin S1x729.rank)
  scatter_S81_S1701x1_S1701_n_0_0_1_wf : ScatterDims.WF S81 S1701x1 S1701 [] [0] [0] 1
  gather_S81_S1701x1_S1701_n_0_n_n_0_1_1_wf : GatherDims.WF S81 S1701x1 S1701 [] [0] [] [0] [] 1 ![1]
  scatter_S81x81_S1701x2_S1701_n_01_01_1_wf : ScatterDims.WF S81x81 S1701x2 S1701 [] [0, 1] [0, 1] 1
  dot_S81x10_S10x8192_S81x8192_1_0_0_1_n_n_wf : DotDims.WF S81x10 S10x8192 S81x8192 [1] [0] [0] [1] [] []
  dot_S81x81_S81x8192_S81x8192_1_0_0_1_n_n_wf : DotDims.WF S81x81 S81x8192 S81x8192 [1] [0] [0] [1] [] []
  dot_S1x8192_S8192x256_S1x256_1_0_0_1_n_n_wf : DotDims.WF S1x8192 S8192x256 S1x256 [1] [0] [0] [1] [] []
  dot_S1x256_S256x729_S1x729_1_0_0_1_n_n_wf : DotDims.WF S1x256 S256x729 S1x729 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S81x10.size a ≤ S81x10.size a
  hwx0_0 : ∀ i : grid0.Coords, EltTy.bits .f32 = 32 ∨ (Rect.block (s := S81x10) S81x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S81x81.size a ≤ S81x81.size a
  hwx0_1 : ∀ i : grid0.Coords, EltTy.bits .f32 = 32 ∨ (Rect.block (s := S81x81) S81x81.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x8192.size a ≤ S10x8192.size a
  hwx0_2 : ∀ i : grid0.Coords, EltTy.bits .f32 = 32 ∨ (Rect.block (s := S10x8192) S10x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8192.size a ≤ S1x8192.size a
  hwx0_4 : ∀ i : grid0.Coords, EltTy.bits .f32 = 32 ∨ (Rect.block (s := S1x8192) S1x8192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8192.size a ≤ S1x8192.size a
  hwx0_5 : ∀ i : grid0.Coords, EltTy.bits .f32 = 32 ∨ (Rect.block (s := S1x8192) S1x8192.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x8192.size a ≤ S1x8192.size a
  hwx0_6 : ∀ i : grid0.Coords, EltTy.bits .f32 = 32 ∨ (Rect.block (s := S1x8192) S1x8192.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x8192.size a ≤ S1x8192.size a
  hwx1_0 : ∀ i : grid1.Coords, EltTy.bits .f32 = 32 ∨ (Rect.block (s := S1x8192) S1x8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x8192.size a
  hwx1_1 : ∀ i : grid1.Coords, EltTy.bits .f32 = 32 ∨ (Rect.block (s := S8192x8192) S8192x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x8192.size a
  hwx1_2 : ∀ i : grid1.Coords, EltTy.bits .f32 = 32 ∨ (Rect.block (s := S1x8192) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x729.size a ≤ S8192x729.size a
  hwx1_3 : ∀ i : grid1.Coords, EltTy.bits .f32 = 32 ∨ (Rect.block (s := S8192x729) S256x729.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x729.size a ≤ S2x1x729.size a
  hwx1_4 : ∀ i : grid1.Coords, EltTy.bits .f32 = 32 ∨ (Rect.block (s := S2x1x729) S1x1x729.size (cc1_transform_4 i) (hinb1_4 i)).WholeWords (EltTy.packing .f32)

variable [Facts₀]

def scatter_S81_S1701x1_S1701_n_0_0_1 : ScatterDims S81 S1701x1 S1701 where
  updateWindowDims := []
  insertedWindowDims := [0]
  scatterDimsToOperandDims := [0]
  indexVectorDim := 1
  wf := scatter_S81_S1701x1_S1701_n_0_0_1_wf
def gather_S81_S1701x1_S1701_n_0_n_n_0_1_1 : GatherDims S81 S1701x1 S1701 where
  offsetDims := []
  collapsedSliceDims := [0]
  operandBatchingDims := []
  startIndicesBatchingDims := []
  startIndexMap := [0]
  indexVectorDim := 1
  sliceSizes := ![1]
  wf := gather_S81_S1701x1_S1701_n_0_n_n_0_1_1_wf
def scatter_S81x81_S1701x2_S1701_n_01_01_1 : ScatterDims S81x81 S1701x2 S1701 where
  updateWindowDims := []
  insertedWindowDims := [0, 1]
  scatterDimsToOperandDims := [0, 1]
  indexVectorDim := 1
  wf := scatter_S81x81_S1701x2_S1701_n_01_01_1_wf
def dot_S81x10_S10x8192_S81x8192_1_0_0_1_n_n : DotDims S81x10 S10x8192 S81x8192 where
  lhsContracting := [1]
  rhsContracting := [0]
  lhsNonContracting := [0]
  rhsNonContracting := [1]
  lhsBatch := []
  rhsBatch := []
  wf := dot_S81x10_S10x8192_S81x8192_1_0_0_1_n_n_wf
def dot_S81x81_S81x8192_S81x8192_1_0_0_1_n_n : DotDims S81x81 S81x8192 S81x8192 where
  lhsContracting := [1]
  rhsContracting := [0]
  lhsNonContracting := [0]
  rhsNonContracting := [1]
  lhsBatch := []
  rhsBatch := []
  wf := dot_S81x81_S81x8192_S81x8192_1_0_0_1_n_n_wf
def dot_S1x8192_S8192x256_S1x256_1_0_0_1_n_n : DotDims S1x8192 S8192x256 S1x256 where
  lhsContracting := [1]
  rhsContracting := [0]
  lhsNonContracting := [0]
  rhsNonContracting := [1]
  lhsBatch := []
  rhsBatch := []
  wf := dot_S1x8192_S8192x256_S1x256_1_0_0_1_n_n_wf
def dot_S1x256_S256x729_S1x729_1_0_0_1_n_n : DotDims S1x256 S256x729 S1x729 where
  lhsContracting := [1]
  rhsContracting := [0]
  lhsNonContracting := [0]
  rhsNonContracting := [1]
  lhsBatch := []
  rhsBatch := []
  wf := dot_S1x256_S256x729_S1x729_1_0_0_1_n_n_wf

abbrev win0_0 : Pipeline.Window sig grid0 :=
  Pipeline.Window.ofSpec (Memref.whole main_arg0) S81x10.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v49) S81x81.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v50) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v51) S1x8192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v52) S1x8192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v53) S1x8192.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v53) S1x8192.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S8192x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v54) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S256x729.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v55) S1x1x729.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S81x10 : Shape := ⟨2, ![81, 10]⟩
abbrev S2x1620 : Shape := ⟨2, ![2, 1620]⟩
abbrev S10x8192 : Shape := ⟨2, ![10, 8192]⟩
abbrev S8192 : Shape := ⟨1, ![8192]⟩
abbrev S8192x8192 : Shape := ⟨2, ![8192, 8192]⟩
abbrev S8192x729 : Shape := ⟨2, ![8192, 729]⟩
abbrev S729 : Shape := ⟨1, ![729]⟩
abbrev S81 : Shape := ⟨1, ![81]⟩
abbrev S1x1620 : Shape := ⟨2, ![1, 1620]⟩
abbrev S1620 : Shape := ⟨1, ![1620]⟩
abbrev S1701 : Shape := ⟨1, ![1701]⟩
abbrev S81x8192 : Shape := ⟨2, ![81, 8192]⟩
abbrev S_ : Shape := ⟨0, ![]⟩
abbrev S1701x1 : Shape := ⟨2, ![1701, 1]⟩
abbrev S1701x8192 : Shape := ⟨2, ![1701, 8192]⟩
abbrev S1x8192 : Shape := ⟨2, ![1, 8192]⟩
abbrev S81x1 : Shape := ⟨2, ![81, 1]⟩
abbrev S1x729 : Shape := ⟨2, ![1, 729]⟩
abbrev S1 : Shape := ⟨1, ![1]⟩
abbrev S1x1 : Shape := ⟨2, ![1, 1]⟩

abbrev nBuf : Space → Nat
  | .hbm => 143
  | .vmem => 0
  | .smem => 0
  | _ => 0

abbrev hbmTy0_0 (i : Nat) : BufTy := match i % 128 with
  | 0 => ⟨S81x10, .f32⟩
  | 1 => ⟨S2x1620, .i32⟩
  | 2 => ⟨S10x8192, .f32⟩
  | 3 => ⟨S8192, .f32⟩
  | 4 => ⟨S8192, .f32⟩
  | 5 => ⟨S8192, .f32⟩
  | 6 => ⟨S8192x8192, .f32⟩
  | 7 => ⟨S8192, .f32⟩
  | 8 => ⟨S8192x729, .f32⟩
  | 9 => ⟨S729, .f32⟩
  | 10 => ⟨S81, .i32⟩
  | 11 => ⟨S1x1620, .i32⟩
  | 12 => ⟨S1620, .i32⟩
  | 13 => ⟨S1701, .i32⟩
  | 14 => ⟨S1x1620, .i32⟩
  | 15 => ⟨S1620, .i32⟩
  | 16 => ⟨S1701, .i32⟩
  | 17 => ⟨S81x8192, .f32⟩
  | 18 => ⟨S_, .f32⟩
  | 19 => ⟨S81, .f32⟩
  | 20 => ⟨S_, .i32⟩
  | 21 => ⟨S1701, .i32⟩
  | 22 => ⟨S1701, .i1⟩
  | 23 => ⟨S_, .i32⟩
  | 24 => ⟨S1701, .i32⟩
  | 25 => ⟨S1701, .i32⟩
  | 26 => ⟨S1701, .i32⟩
  | 27 => ⟨S1701x1, .i32⟩
  | 28 => ⟨S_, .f32⟩
  | 29 => ⟨S1701, .f32⟩
  | 30 => ⟨S81, .f32⟩
  | 31 => ⟨S_, .f32⟩
  | 32 => ⟨S81, .f32⟩
  | 33 => ⟨S81, .i1⟩
  | 34 => ⟨S81, .f32⟩
  | 35 => ⟨S_, .f32⟩
  | 36 => ⟨S_, .f32⟩
  | 37 => ⟨S81, .f32⟩
  | 38 => ⟨S81, .f32⟩
  | 39 => ⟨S_, .i32⟩
  | 40 => ⟨S1701, .i32⟩
  | 41 => ⟨S1701, .i1⟩
  | 42 => ⟨S_, .i32⟩
  | 43 => ⟨S1701, .i32⟩
  | 44 => ⟨S1701, .i32⟩
  | 45 => ⟨S1701, .i32⟩
  | 46 => ⟨S1701x1, .i32⟩
  | 47 => ⟨S1701, .f32⟩
  | 48 => ⟨S_, .i32⟩
  | 49 => ⟨S1701, .i32⟩
  | 50 => ⟨S1701, .i1⟩
  | 51 => ⟨S_, .i32⟩
  | 52 => ⟨S1701, .i32⟩
  | 53 => ⟨S1701, .i32⟩
  | 54 => ⟨S1701, .i32⟩
  | 55 => ⟨S1701x1, .i32⟩
  | 56 => ⟨S1701, .f32⟩
  | 57 => ⟨S1701, .f32⟩
  | 58 => ⟨S_, .i32⟩
  | 59 => ⟨S1701, .i32⟩
  | 60 => ⟨S1701, .i1⟩
  | 61 => ⟨S_, .i32⟩
  | 62 => ⟨S1701, .i32⟩
  | 63 => ⟨S1701, .i32⟩
  | 64 => ⟨S1701, .i32⟩
  | 65 => ⟨S1701x1, .i32⟩
  | 66 => ⟨S1701x8192, .f32⟩
  | 67 => ⟨S1701x1, .f32⟩
  | 68 => ⟨S1701x8192, .f32⟩
  | 69 => ⟨S1701x8192, .f32⟩
  | 70 => ⟨S_, .f32⟩
  | 71 => ⟨S81x8192, .f32⟩
  | 72 => ⟨S_, .i32⟩
  | 73 => ⟨S1701, .i32⟩
  | 74 => ⟨S1701, .i1⟩
  | 75 => ⟨S_, .i32⟩
  | 76 => ⟨S1701, .i32⟩
  | 77 => ⟨S1701, .i32⟩
  | 78 => ⟨S1701, .i32⟩
  | 79 => ⟨S1701x1, .i32⟩
  | 80 => ⟨S81x8192, .f32⟩
  | 81 => ⟨S1x8192, .f32⟩
  | 82 => ⟨S81x8192, .f32⟩
  | 83 => ⟨S81x8192, .f32⟩
  | 84 => ⟨S_, .f32⟩
  | 85 => ⟨S81x8192, .f32⟩
  | 86 => ⟨S81x8192, .f32⟩
  | 87 => ⟨S_, .f32⟩
  | 88 => ⟨S81, .f32⟩
  | 89 => ⟨S81x1, .f32⟩
  | 90 => ⟨S_, .f32⟩
  | 91 => ⟨S81x1, .f32⟩
  | 92 => ⟨S81x1, .f32⟩
  | 93 => ⟨S81x8192, .f32⟩
  | 94 => ⟨S81x8192, .f32⟩
  | 95 => ⟨S81x8192, .f32⟩
  | 96 => ⟨S_, .f32⟩
  | 97 => ⟨S81, .f32⟩
  | 98 => ⟨S81x1, .f32⟩
  | 99 => ⟨S_, .f32⟩
  | 100 => ⟨S81x1, .f32⟩
  | 101 => ⟨S81x1, .f32⟩
  | 102 => ⟨S81x8192, .f32⟩
  | 103 => ⟨S81x8192, .f32⟩
  | 104 => ⟨S_, .f32⟩
  | 105 => ⟨S81x1, .f32⟩
  | 106 => ⟨S81x1, .f32⟩
  | 107 => ⟨S81x1, .f32⟩
  | 108 => ⟨S81x8192, .f32⟩
  | 109 => ⟨S81x8192, .f32⟩
  | 110 => ⟨S1x8192, .f32⟩
  | 111 => ⟨S81x8192, .f32⟩
  | 112 => ⟨S81x8192, .f32⟩
  | 113 => ⟨S1x8192, .f32⟩
  | 114 => ⟨S81x8192, .f32⟩
  | 115 => ⟨S81x8192, .f32⟩
  | 116 => ⟨S_, .f32⟩
  | 117 => ⟨S8192, .f32⟩
  | 118 => ⟨S1x8192, .f32⟩
  | 119 => ⟨S1x8192, .f32⟩
  | 120 => ⟨S1x8192, .f32⟩
  | 121 => ⟨S1x8192, .f32⟩
  | 122 => ⟨S_, .f32⟩
  | 123 => ⟨S1x8192, .f32⟩
  | 124 => ⟨S1x8192, .f32⟩
  | 125 => ⟨S1x729, .f32⟩
  | 126 => ⟨S1x729, .f32⟩
  | 127 => ⟨S1x729, .f32⟩
  | _ => ⟨S81x10, .f32⟩

abbrev hbmTy0_1 (i : Nat) : BufTy := match i % 128 with
  | 0 => ⟨S_, .f32⟩
  | 1 => ⟨S1, .f32⟩
  | 2 => ⟨S_, .f32⟩
  | 3 => ⟨S1, .f32⟩
  | 4 => ⟨S1, .f32⟩
  | 5 => ⟨S1x1, .f32⟩
  | 6 => ⟨S1x729, .f32⟩
  | 7 => ⟨S1x729, .f32⟩
  | 8 => ⟨S1x729, .f32⟩
  | 9 => ⟨S_, .f32⟩
  | 10 => ⟨S1, .f32⟩
  | 11 => ⟨S1x1, .f32⟩
  | 12 => ⟨S1x1, .f32⟩
  | 13 => ⟨S1x729, .f32⟩
  | 14 => ⟨S1x729, .f32⟩
  | _ => ⟨S81x10, .f32⟩

abbrev hbmTy (i : Nat) : BufTy := match i / 128 with
  | 0 => hbmTy0_0 i
  | 1 => hbmTy0_1 i
  | _ => ⟨S81x10, .f32⟩

abbrev bufTy : (tb : Table) → Fin (tcTables nBuf tb) → BufTy
  | .hbm, ⟨i, _⟩ => hbmTy i
  | _, _ => ⟨S81x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_c_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_c_11 : Ref sig .tc := ⟨.hbm, 72, rfl⟩
abbrev main_v47 : Ref sig .tc := ⟨.hbm, 73, rfl⟩
abbrev main_v48 : Ref sig .tc := ⟨.hbm, 74, rfl⟩
abbrev main_c_12 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_call1_cst : Ref sig .tc := ⟨.hbm, 84, rfl⟩
abbrev main_call1_v0 : Ref sig .tc := ⟨.hbm, 85, rfl⟩
abbrev main_v57 : Ref sig .tc := ⟨.hbm, 86, rfl⟩
abbrev main_cst_13 : Ref sig .tc := ⟨.hbm, 87, rfl⟩
abbrev main_v58 : Ref sig .tc := ⟨.hbm, 88, rfl⟩
abbrev main_v59 : Ref sig .tc := ⟨.hbm, 89, rfl⟩
abbrev main_cst_14 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_15 : Ref sig .tc := ⟨.hbm, 96, rfl⟩
abbrev main_v65 : Ref sig .tc := ⟨.hbm, 97, rfl⟩
abbrev main_v66 : Ref sig .tc := ⟨.hbm, 98, rfl⟩
abbrev main_cst_16 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_17 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_18 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_call2_cst : Ref sig .tc := ⟨.hbm, 122, rfl⟩
abbrev main_call2_v0 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_call3_cst : Ref sig .tc := ⟨.hbm, 128, rfl⟩
abbrev main_call3_v0 : Ref sig .tc := ⟨.hbm, 129, rfl⟩
abbrev main_call3_cst_0 : Ref sig .tc := ⟨.hbm, 130, rfl⟩
abbrev main_call3_v1 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_call3_v5 : Ref sig .tc := ⟨.hbm, 135, rfl⟩
abbrev main_call3_v6 : Ref sig .tc := ⟨.hbm, 136, rfl⟩
abbrev main_call3_cst_1 : Ref sig .tc := ⟨.hbm, 137, rfl⟩
abbrev main_call3_v7 : Ref sig .tc := ⟨.hbm, 138, rfl⟩
abbrev main_call3_v8 : Ref sig .tc := ⟨.hbm, 139, rfl⟩
abbrev main_call3_v9 : Ref sig .tc := ⟨.hbm, 140, rfl⟩
abbrev main_call3_v10 : Ref sig .tc := ⟨.hbm, 141, rfl⟩
abbrev main_v91 : Ref sig .tc := ⟨.hbm, 142, rfl⟩

abbrev nD : Nat := 1
abbrev τ : Topo := Topo.v7x

variable {F : FTy → Type} [FloatOps F]

class Facts₀ : Prop where
  slices_S2x1620_S1x1620_0_0 : S2x1620.Slices ![0, 0] S1x1620
  shapeCasts_S1x1620_S1620 : S1x1620.ShapeCasts S1620
  concatenates_S1620_S81_S1701_d0 : Shape.Concatenates [S1620, S81] S1701 0
  slices_S2x1620_S1x1620_1_0 : S2x1620.Slices ![1, 0] S1x1620
  bcast_S_S81 : S_.BroadcastsInDim S81 (![] : Fin 0 → Fin S81.rank)
  bcast_S_S1701 : S_.BroadcastsInDim S1701 (![] : Fin 0 → Fin S1701.rank)
  bcast_S1701_S1701x1_0 : S1701.BroadcastsInDim S1701x1 (![0] : Fin 1 → Fin S1701x1.rank)
  bcast_S1701x1_S1701x8192_0_1 : S1701x1.BroadcastsInDim S1701x8192 (![0, 1] : Fin 2 → Fin S1701x8192.rank)
  bcast_S_S81x8192 : S_.BroadcastsInDim S81x8192 (![] : Fin 0 → Fin S81x8192.rank)
  bcast_S8192_S1x8192_1 : S8192.BroadcastsInDim S1x8192 (![1] : Fin 1 → Fin S1x8192.rank)
  bcast_S1x8192_S81x8192_0_1 : S1x8192.BroadcastsInDim S81x8192 (![0, 1] : Fin 2 → Fin S81x8192.rank)
  reducesTo_S81x8192_S81_d1 : S81x8192.ReducesTo [1] S81
  h_S_ : 0 < S_.numel
  bcast_S81_S81x1_0 : S81.BroadcastsInDim S81x1 (![0] : Fin 1 → Fin S81x1.rank)
  bcast_S_S81x1 : S_.BroadcastsInDim S81x1 (![] : Fin 0 → Fin S81x1.rank)
  bcast_S81x1_S81x8192_0_1 : S81x1.BroadcastsInDim S81x8192 (![0, 1] : Fin 2 → Fin S81x8192.rank)
  reducesTo_S81x8192_S8192_d0 : S81x8192.ReducesTo [0] S8192
  bcast_S_S1x8192 : S_.BroadcastsInDim S1x8192 (![] : Fin 0 → Fin S1x8192.rank)
  bcast_S729_S1x729_1 : S729.BroadcastsInDim S1x729 (![1] : Fin 1 → Fin S1x729.rank)
  reducesTo_S1x729_S1_d1 : S1x729.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x729_0_1 : S1x1.BroadcastsInDim S1x729 (![0, 1] : Fin 2 → Fin S1x729.rank)
  dot_S81x10_S10x8192_S81x8192_1_0_0_1_n_n_wf : DotDims.WF S81x10 S10x8192 S81x8192 [1] [0] [0] [1] [] []
  scatter_S81_S1701x1_S1701_n_0_0_1_wf : ScatterDims.WF S81 S1701x1 S1701 [] [0] [0] 1
  gather_S81_S1701x1_S1701_n_0_n_n_0_1_1_wf : GatherDims.WF S81 S1701x1 S1701 [] [0] [] [0] [] 1 ![1]
  gather_S81x8192_S1701x1_S1701x8192_1_0_n_n_0_1_18192_wf : GatherDims.WF S81x8192 S1701x1 S1701x8192 [1] [0] [] [0] [] 1 ![1, 8192]
  scatter_S81x8192_S1701x1_S1701x8192_1_0_0_1_wf : ScatterDims.WF S81x8192 S1701x1 S1701x8192 [1] [0] [0] 1
  dot_S1x8192_S8192x8192_S1x8192_1_0_0_1_n_n_wf : DotDims.WF S1x8192 S8192x8192 S1x8192 [1] [0] [0] [1] [] []
  dot_S1x8192_S8192x729_S1x729_1_0_0_1_n_n_wf : DotDims.WF S1x8192 S8192x729 S1x729 [1] [0] [0] [1] [] []

variable [Facts₀]

def dot_S81x10_S10x8192_S81x8192_1_0_0_1_n_n : DotDims S81x10 S10x8192 S81x8192 where
  lhsContracting := [1]
  rhsContracting := [0]
  lhsNonContracting := [0]
  rhsNonContracting := [1]
  lhsBatch := []
  rhsBatch := []
  wf := dot_S81x10_S10x8192_S81x8192_1_0_0_1_n_n_wf
def scatter_S81_S1701x1_S1701_n_0_0_1 : ScatterDims S81 S1701x1 S1701 where
  updateWindowDims := []
  insertedWindowDims := [0]
  scatterDimsToOperandDims := [0]
  indexVectorDim := 1
  wf := scatter_S81_S1701x1_S1701_n_0_0_1_wf
def gather_S81_S1701x1_S1701_n_0_n_n_0_1_1 : GatherDims S81 S1701x1 S1701 where
  offsetDims := []
  collapsedSliceDims := [0]
  operandBatchingDims := []
  startIndicesBatchingDims := []
  startIndexMap := [0]
  indexVectorDim := 1
  sliceSizes := ![1]
  wf := gather_S81_S1701x1_S1701_n_0_n_n_0_1_1_wf
def gather_S81x8192_S1701x1_S1701x8192_1_0_n_n_0_1_18192 : GatherDims S81x8192 S1701x1 S1701x8192 where
  offsetDims := [1]
  collapsedSliceDims := [0]
  operandBatchingDims := []
  startIndicesBatchingDims := []
  startIndexMap := [0]
  indexVectorDim := 1
  sliceSizes := ![1, 8192]
  wf := gather_S81x8192_S1701x1_S1701x8192_1_0_n_n_0_1_18192_wf
def scatter_S81x8192_S1701x1_S1701x8192_1_0_0_1 : ScatterDims S81x8192 S1701x1 S1701x8192 where
  updateWindowDims := [1]
  insertedWindowDims := [0]
  scatterDimsToOperandDims := [0]
  indexVectorDim := 1
  wf := scatter_S81x8192_S1701x1_S1701x8192_1_0_0_1_wf
def dot_S1x8192_S8192x8192_S1x8192_1_0_0_1_n_n : DotDims S1x8192 S8192x8192 S1x8192 where
  lhsContracting := [1]
  rhsContracting := [0]
  lhsNonContracting := [0]
  rhsNonContracting := [1]
  lhsBatch := []
  rhsBatch := []
  wf := dot_S1x8192_S8192x8192_S1x8192_1_0_0_1_n_n_wf
def dot_S1x8192_S8192x729_S1x729_1_0_0_1_n_n : DotDims S1x8192 S8192x729 S1x729 where
  lhsContracting := [1]
  rhsContracting := [0]
  lhsNonContracting := [0]
  rhsNonContracting := [1]
  lhsBatch := []
  rhsBatch := []
  wf := dot_S1x8192_S8192x729_S1x729_1_0_0_1_n_n_wf

class Facts : Prop extends Facts₀ where

variable [Facts]
-- ==== Proof.K.R0Body.lean ====
/- Region 0 (the graph-convolution kernel, one grid point): what the body leaves in each staging buffer, the
   proof data of its pipeline at any entry contents `V`, and the body obligation. -/
import proofs.«416509_j46643344834924_3_alg».proof.Proof.Gen.Kernel.Launch
import proofs.«416509_j46643344834924_3_alg».proof.Proof.Gen.Kernel.Skeleton
import proofs.«416509_j46643344834924_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at the point, for any proof data whose array is the entry
    contents' and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at the point, for any proof data whose array is the entry
    contents' and whose body leaves the block in place: the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at the point, for any proof data whose array is the entry
    contents' and whose body leaves the block in place: the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at the point, for any proof data whose array is the entry
    contents' and whose body leaves the block in place: the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at the point, for any proof data whose array is the entry
    contents' and whose body leaves the block in place: the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at the point, for any proof data whose array is the entry
    contents' and whose body leaves the block in place: the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- What the body stores into the output's staging buffer, from the six input blocks (in window order:
    features, adjacency, weights, bias, scale, shift): the column sums of the normalised, rectified aggregate. -/
def out0_6 (x0 : Vec F S81x10 .f32) (x1 : Vec F S81x81 .f32) (x2 : Vec F S10x8192 .f32) (x3 x4 x5 : Vec F S1x8192 .f32) :
    Vec F S1x8192 .f32 :=
  k0_pay1 (k0_pay2 x0 x2 x1 x3 x4) x5

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by
  dsimp only [dat0]

/-! ## The body's accesses and its triple -/

/-- The rank-two zero offsets, spelt as a literal vector, are the zero function. -/
theorem zero_off2 : (![0, 0] : Fin 2 → Nat) = fun _ => 0 := funext fun a => by fin_cases a <;> rfl

/-- The whole-buffer rectangle of the output's staging buffer: every index lies in it. -/
theorem cover0_6 (p : Vec F S1x8192 .f32) (y : S1x8192.Idx) :
    ∃ pc ∈ ([⟨Rect.unit (s := S1x8192) ![0, 0] S1x8192.size inb_S1x8192_S1x8192_0_0, p⟩] : List (View.Piece (Elt F) S1x8192 .f32)), y ∈ pc.1.set :=
  ⟨_, List.mem_singleton_self _, View.mem_set_unit_zero (S := S1x8192) zero_off2 inb_S1x8192_S1x8192_0_0 y⟩

set_option maxHeartbeats 1000000 in
/-- The kernel body on whole staging memrefs, the six inputs' at read contents `x0 … x5` and the output's at anything,
    runs to the continuation holding the inputs' as they were and the output's at `out0_6` of the inputs'. -/
theorem sound_kernel0 (c : Dev nD) (E : Set ℕ) (i : grid0.Coords)
    (arg1 : Memref sig .tc .vmem S81x10 .f32) (harg1 : arg1.IsWhole) (arg2 : Memref sig .tc .vmem S81x81 .f32) (harg2 : arg2.IsWhole)
    (arg3 : Memref sig .tc .vmem S10x8192 .f32) (harg3 : arg3.IsWhole) (arg4 : Memref sig .tc .vmem S1x8192 .f32) (harg4 : arg4.IsWhole)
    (arg5 : Memref sig .tc .vmem S1x8192 .f32) (harg5 : arg5.IsWhole) (arg6 : Memref sig .tc .vmem S1x8192 .f32) (harg6 : arg6.IsWhole)
    (arg7 : Memref sig .tc .vmem S1x8192 .f32) (harg7 : arg7.IsWhole)
    (x0 : Vec F S81x10 .f32) (x1 : Vec F S81x81 .f32) (x2 : Vec F S10x8192 .f32) (x3 x4 x5 : Vec F S1x8192 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__gcn_kernel i arg1 harg1 arg2 harg2 arg3 harg3 arg4 harg4 arg5 harg5 arg6 harg6 arg7 harg7) K := by
  simp only [cc0__gcn_kernel_eq_skeleton]; unfold cc0__gcn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _ (cover0_6 _)]
  rw [View.canon_unit_zero (S := S1x8192) zero_off2]
  unfold out0_6
  simp only [View.readAt_eq_ld, View.ld_unit_zero (S := S81x10) zero_off2, View.ld_unit_zero (S := S81x81) zero_off2,
    View.ld_unit_zero (S := S10x8192) zero_off2, View.ld_unit_zero (S := S1x8192) zero_off2]

/-! ## The input windows at the point -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]

/-- Each input's current staging buffer holds its block at the point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`: the invariant, what the core owes, and the seven staging buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at the point: the inputs' memrefs hold their blocks, so the kernel's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.R1Body.lean ====
/- Region 1 (the fused two-layer head, a 2 x 16 grid): the accumulator the kernel carries between grid points,
   the proof data of its pipeline at any entry contents `V`, and the body obligation. -/
import proofs.«416509_j46643344834924_3_alg».proof.Proof.Gen.Kernel.Launch
import proofs.«416509_j46643344834924_3_alg».proof.Proof.Gen.Kernel.Skeleton
import proofs.«416509_j46643344834924_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, and where the output window is idle -/

/-- The first conditional of the body: the second grid coordinate is zero. -/
abbrev cond1_0 (i : grid1.Coords) : Prop :=
  (Scalar.cmpi .ne (Scalar.extui (Scalar.cmpi .eq (BitVec.ofNat 32 (i 1).val) 0#32)) 0#32) = 1#1

/-- It holds exactly at the positions that start a core's sixteen tiles. -/
theorem hcond1_0 : ∀ t : Fin cfg1.N, cond1_0 (grid1.coords t) ↔ t.val % 16 = 0 :=
  (by decide +kernel : ∀ t : Fin grid1.N, cond1_0 (grid1.coords t) ↔ t.val % 16 = 0)

/-- The second conditional of the body: the second grid coordinate is the last. -/
abbrev cond1_1 (i : grid1.Coords) : Prop := k1_cond2 i = 1#1

/-- It holds exactly at the positions that end a core's sixteen tiles. -/
theorem hcond1_1 : ∀ t : Fin cfg1.N, cond1_1 (grid1.coords t) ↔ t.val % 16 = 15 :=
  (by decide +kernel : ∀ t : Fin grid1.N, cond1_1 (grid1.coords t) ↔ t.val % 16 = 15)

/-- Where the second conditional fails the output window is idle and its block is not written back; where it holds the window is live. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-- The zero offsets of the whole-buffer rectangles, as constant functions. -/
theorem zeroOff1_2 : (![0, 0] : Fin 2 → ℕ) = fun _ => 0 := by funext a; fin_cases a <;> rfl
theorem zeroOff1_3 : (![0, 0, 0] : Fin 3 → ℕ) = fun _ => 0 := by funext a; fin_cases a <;> rfl

/-! ## The body's triple, case by case -/

/-- A list of writes whose last is a store through the whole-buffer rectangle covers the buffer. -/
theorem cover1_whole_cons {S : Shape} {e : EltTy} {off : Fin S.rank → ℕ} (h : off = fun _ => 0)
    (inb : ∀ a, off a + S.size a ≤ S.size a) (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons_self, View.mem_set_unit_zero h inb y⟩

set_option maxHeartbeats 1000000 in
/-- The body at a position that starts a core's tiles (and does not end them): on whole staging memrefs, the inputs' at read
    contents `x0 … x3`, the output's at `xo`, the scratch at anything, it runs to the continuation holding the inputs' and
    the output's as they were and the scratch at the tile's contribution added to zero. -/
theorem sound_kernel1_A (c : Dev nD) (E : Set ℕ) (i : grid1.Coords)
    (arg2 : Memref sig .tc .vmem S1x8192 .f32) (harg2 : arg2.IsWhole) (arg3 : Memref sig .tc .vmem S8192x256 .f32) (harg3 : arg3.IsWhole)
    (arg4 : Memref sig .tc .vmem S1x256 .f32) (harg4 : arg4.IsWhole) (arg5 : Memref sig .tc .vmem S256x729 .f32) (harg5 : arg5.IsWhole)
    (arg6 : Memref sig .tc .vmem S1x1x729 .f32) (harg6 : arg6.IsWhole) (arg7 : Memref sig .tc .vmem S1x729 .f32) (harg7 : arg7.IsWhole)
    (hc0 : cond1_0 i) (hc1 : ¬cond1_1 i)
    (x0 : Vec F S1x8192 .f32) (x1 : Vec F S8192x256 .f32) (x2 : Vec F S1x256 .f32) (x3 : Vec F S256x729 .f32) (xo : Vec F S1x1x729 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ (∃ d, owns (c : Thread nD τ) arg7 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo
            ∗ owns (c : Thread nD τ) arg7 fullShare (k1_pay2 x0 x1 x2 x3 (k1_pay1 (F := F)))) -∗ K ⟨⟩))
      ⊢ wp frame (wpE (defs₀ (F := F)) Variants.none c none) E
          (cc1__mlp_fused_kernel i arg2 harg2 arg3 harg3 arg4 harg4 arg5 harg5 arg6 harg6 arg7 harg7) K := by
  simp only [cc1__mlp_fused_kernel_eq_skeleton]; unfold cc1__mlp_fused_kernel_skel
  unfold owns
  iintro ⟨⟨%f0, %hf0, H0⟩, ⟨%f1, %hf1, H1⟩, ⟨%f2, %hf2, H2⟩, ⟨%f3, %hf3, H3⟩, ⟨%fo, %hfo, Ho⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hfo
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [Ho]
  · iexists _; isplitr; · ipureintro; exact harg6.read_unread _
    iexact Ho
  iexists _; isplitr
  swap; · iexact HS
  ipureintro
  sl_unfold_words
  refine (View.read_writes_eq_canon _ _ _ (cover1_whole_cons (S := S1x729) zeroOff1_2 _ _ _)).trans ?_
  rw [View.canon_cons_unit_zero (S := S1x729) zeroOff1_2]
  simp only [View.readAt_eq_ld, Memref.IsWhole.read_unread, View.readCov_unit_zero (S := S1x729) _ zeroOff1_2,
    View.ld_unit_zero (S := S1x8192) zeroOff1_2, View.ld_unit_zero (S := S8192x256) zeroOff1_2, View.ld_unit_zero (S := S1x256) zeroOff1_2,
    View.ld_unit_zero (S := S256x729) zeroOff1_2, View.ld_unit_zero (S := S1x729) zeroOff1_2]

set_option maxHeartbeats 1000000 in
/-- The body at a position that neither starts nor ends a core's tiles: the scratch enters at `s`, what the position before
    left, and leaves at the tile's contribution added to `s`; the output's buffer is handed back as it was. -/
theorem sound_kernel1_B (c : Dev nD) (E : Set ℕ) (i : grid1.Coords)
    (arg2 : Memref sig .tc .vmem S1x8192 .f32) (harg2 : arg2.IsWhole) (arg3 : Memref sig .tc .vmem S8192x256 .f32) (harg3 : arg3.IsWhole)
    (arg4 : Memref sig .tc .vmem S1x256 .f32) (harg4 : arg4.IsWhole) (arg5 : Memref sig .tc .vmem S256x729 .f32) (harg5 : arg5.IsWhole)
    (arg6 : Memref sig .tc .vmem S1x1x729 .f32) (harg6 : arg6.IsWhole) (arg7 : Memref sig .tc .vmem S1x729 .f32) (harg7 : arg7.IsWhole)
    (hc0 : ¬cond1_0 i) (hc1 : ¬cond1_1 i)
    (x0 : Vec F S1x8192 .f32) (x1 : Vec F S8192x256 .f32) (x2 : Vec F S1x256 .f32) (x3 : Vec F S256x729 .f32) (xo : Vec F S1x1x729 .f32)
    (s : Vec F S1x729 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ owns (c : Thread nD τ) arg7 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo
            ∗ owns (c : Thread nD τ) arg7 fullShare (k1_pay2 x0 x1 x2 x3 s)) -∗ K ⟨⟩))
      ⊢ wp frame (wpE (defs₀ (F := F)) Variants.none c none) E
          (cc1__mlp_fused_kernel i arg2 harg2 arg3 harg3 arg4 harg4 arg5 harg5 arg6 harg6 arg7 harg7) K := by
  simp only [cc1__mlp_fused_kernel_eq_skeleton]; unfold cc1__mlp_fused_kernel_skel
  unfold owns
  iintro ⟨⟨%f0, %hf0, H0⟩, ⟨%f1, %hf1, H1⟩, ⟨%f2, %hf2, H2⟩, ⟨%f3, %hf3, H3⟩, ⟨%fo, %hfo, Ho⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfo; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [Ho]
  · iexists _; isplitr; · ipureintro; exact harg6.read_unread _
    iexact Ho
  iexists _; isplitr
  swap; · iexact HS
  ipureintro
  sl_unfold_words
  refine (View.read_writes_eq_canon _ _ _ (cover1_whole_cons (S := S1x729) zeroOff1_2 _ _ _)).trans ?_
  rw [View.canon_cons_unit_zero (S := S1x729) zeroOff1_2]
  simp only [View.readAt_eq_ld, Memref.IsWhole.read_unread, View.readCov_unit_zero (S := S1x729) _ zeroOff1_2,
    View.ld_unit_zero (S := S1x8192) zeroOff1_2, View.ld_unit_zero (S := S8192x256) zeroOff1_2, View.ld_unit_zero (S := S1x256) zeroOff1_2,
    View.ld_unit_zero (S := S256x729) zeroOff1_2, View.ld_unit_zero (S := S1x729) zeroOff1_2]

set_option maxHeartbeats 1000000 in
/-- The body at a position that ends a core's tiles: the scratch enters at `s` and leaves at the tile's contribution added
    to `s`, and the output's buffer, entered at anything, leaves at that sum re-laid as the output block. -/
theorem sound_kernel1_C (c : Dev nD) (E : Set ℕ) (i : grid1.Coords)
    (arg2 : Memref sig .tc .vmem S1x8192 .f32) (harg2 : arg2.IsWhole) (arg3 : Memref sig .tc .vmem S8192x256 .f32) (harg3 : arg3.IsWhole)
    (arg4 : Memref sig .tc .vmem S1x256 .f32) (harg4 : arg4.IsWhole) (arg5 : Memref sig .tc .vmem S256x729 .f32) (harg5 : arg5.IsWhole)
    (arg6 : Memref sig .tc .vmem S1x1x729 .f32) (harg6 : arg6.IsWhole) (arg7 : Memref sig .tc .vmem S1x729 .f32) (harg7 : arg7.IsWhole)
    (hc0 : ¬cond1_0 i) (hc1 : cond1_1 i)
    (x0 : Vec F S1x8192 .f32) (x1 : Vec F S8192x256 .f32) (x2 : Vec F S1x256 .f32) (x3 : Vec F S256x729 .f32)
    (s : Vec F S1x729 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare (k1_pay3 (k1_pay2 x0 x1 x2 x3 s))
            ∗ owns (c : Thread nD τ) arg7 fullShare (k1_pay2 x0 x1 x2 x3 s)) -∗ K ⟨⟩))
      ⊢ wp frame (wpE (defs₀ (F := F)) Variants.none c none) E
          (cc1__mlp_fused_kernel i arg2 harg2 arg3 harg3 arg4 harg4 arg5 harg5 arg6 harg6 arg7 harg7) K := by
  simp only [cc1__mlp_fused_kernel_eq_skeleton]; unfold cc1__mlp_fused_kernel_skel
  unfold owns
  iintro ⟨⟨%f0, %hf0, H0⟩, ⟨%f1, %hf1, H1⟩, ⟨%f2, %hf2, H2⟩, ⟨%f3, %hf3, H3⟩, ⟨%d6, %fo, -, Ho⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [Ho]
  · iexists _; isplitr
    swap; · iexact Ho
    ipureintro
    sl_unfold_words
    refine (View.read_writes_eq_canon _ _ _ (cover1_whole_cons (S := S1x1x729) zeroOff1_3 _ _ _)).trans ?_
    rw [View.canon_cons_unit_zero (S := S1x1x729) zeroOff1_3]
    simp only [View.readAt_eq_ld, Memref.IsWhole.read_unread, View.readCov_unit_zero (S := S1x729) _ zeroOff1_2,
    View.ld_unit_zero (S := S1x8192) zeroOff1_2, View.ld_unit_zero (S := S8192x256) zeroOff1_2, View.ld_unit_zero (S := S1x256) zeroOff1_2,
    View.ld_unit_zero (S := S256x729) zeroOff1_2, View.ld_unit_zero (S := S1x729) zeroOff1_2]
  iexists _; isplitr
  swap; · iexact HS
  ipureintro
  sl_unfold_words
  refine (View.read_writes_eq_canon _ _ _ (cover1_whole_cons (S := S1x729) zeroOff1_2 _ _ _)).trans ?_
  rw [View.canon_cons_unit_zero (S := S1x729) zeroOff1_2]
  simp only [View.readAt_eq_ld, Memref.IsWhole.read_unread, View.readCov_unit_zero (S := S1x729) _ zeroOff1_2,
    View.ld_unit_zero (S := S1x8192) zeroOff1_2, View.ld_unit_zero (S := S8192x256) zeroOff1_2, View.ld_unit_zero (S := S1x256) zeroOff1_2,
    View.ld_unit_zero (S := S256x729) zeroOff1_2, View.ld_unit_zero (S := S1x729) zeroOff1_2]

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- THE ACCUMULATOR: what the scratch holds after the body at position `n`. At a position that starts a core's
    sixteen tiles (`n % 16 = 0`) the body first clears it, so the tile's contribution is added to zero; at any
    other position it is added to what the position before left. -/
def accAt1 (c : Dev nD) : (n : ℕ) → n < cfg1.N → Vec F S1x729 .f32
  | 0, hn => k1_pay2 (iblk1 V c 0 ⟨0, hn⟩) (iblk1 V c 1 ⟨0, hn⟩) (iblk1 V c 2 ⟨0, hn⟩) (iblk1 V c 3 ⟨0, hn⟩) (k1_pay1 (F := F))
  | n + 1, hn => k1_pay2 (iblk1 V c 0 ⟨n + 1, hn⟩) (iblk1 V c 1 ⟨n + 1, hn⟩) (iblk1 V c 2 ⟨n + 1, hn⟩) (iblk1 V c 3 ⟨n + 1, hn⟩)
      (if (n + 1) % 16 = 0 then k1_pay1 (F := F) else accAt1 c n (Nat.lt_of_succ_lt hn))

/-- The scratch accumulator, whole. -/
abbrev scM1 : Memref sig .tc .vmem S1x729 .f32 := Memref.whole cc1_scratch0

/-- The core's scoped buffers that are neither a staging buffer of this pipeline nor its scratch (the other
    region's staging buffers), each at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f))

/-- The region invariant before position `n`: before the first point every scoped buffer outside the pipeline at
    anything; afterwards the scratch at what the position before left in it, the others still at anything; the
    generator register at some state throughout. -/
def PhiS1 (c : Dev nD) : (n : ℕ) → n ≤ cfg1.N → sProp 𝕄
  | 0, _ => Pipeline.ΦA spec1 c
  | n + 1, hn => iprop(rest1 (F := F) c ∗ owns (c : Thread nD τ) scM1 fullShare (accAt1 V c n hn) ∗ (∃ r, prngReg c r))

/-- The proof data of pipeline 1 on core `c`. The output window's entry is what the accumulator holds, re-laid
    as the output block; it is consulted only at the positions that write the block back (the last tile of each core). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (accAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_4 (c : Dev nD) (t : Fin cfg1.N) : (dat1 V c).after 4 t = k1_pay3 (accAt1 V c t.val t.isLt) := by
  dsimp only [dat1]

/-! ## The accumulator, position by position -/

/-- At a position that starts a core's tiles the accumulator is the tile's contribution added to zero. -/
theorem accAt1_reset (c : Dev nD) (t : Fin cfg1.N) (h : t.val % 16 = 0) :
    accAt1 V c t.val t.isLt
      = k1_pay2 (iblk1 V c 0 t) (iblk1 V c 1 t) (iblk1 V c 2 t) (iblk1 V c 3 t) (k1_pay1 (F := F)) := by
  obtain ⟨n, hn⟩ := t
  cases n with
  | zero => rfl
  | succ n =>
    have h' : (n + 1) % 16 = 0 := h
    show accAt1 V c (n + 1) hn = _
    rw [accAt1, if_pos h']

/-- At any other position it is the tile's contribution added to what the position before left. -/
theorem accAt1_step (c : Dev nD) (t : Fin cfg1.N) (h : ¬t.val % 16 = 0) :
    accAt1 V c t.val t.isLt
      = k1_pay2 (iblk1 V c 0 t) (iblk1 V c 1 t) (iblk1 V c 2 t) (iblk1 V c 3 t)
          (accAt1 V c (t.val - 1) (Nat.lt_of_le_of_lt (Nat.sub_le _ _) t.isLt)) := by
  obtain ⟨n, hn⟩ := t
  cases n with
  | zero => exact absurd (Nat.zero_mod _) h
  | succ n =>
    have h' : ¬(n + 1) % 16 = 0 := h
    show accAt1 V c (n + 1) hn = _
    rw [accAt1, if_neg h']
    rfl

/-! ## The invariant -/

/-- What the region is entered with, the scratch named apart from the other region's staging buffers. -/
theorem PhiA1_split (c : Dev nD) :
    (Pipeline.ΦA spec1 c : sProp 𝕄)
      ⊢ iprop(rest1 (F := F) c ∗ (∃ d, owns (c : Thread nD τ) scM1 fullShare d) ∗ (∃ r, prngReg c r)) := by
  unfold Pipeline.ΦA rest1; rw [scopedRest1_eq]; simp only [scM1, owns_whole]
  iintro ⟨⟨R0, R1, R2, R3, R4, R5, R6, HS⟩, Hg⟩
  isplitl [R0 R1 R2 R3 R4 R5 R6]
  · isplitl [R0]; · iexact R0
    isplitl [R1]; · iexact R1
    isplitl [R2]; · iexact R2
    isplitl [R3]; · iexact R3
    isplitl [R4]; · iexact R4
    isplitl [R5]; · iexact R5
    iexact R6
  isplitl [HS]; · iexact HS
  iexact Hg

/-- And back: the scratch's contents forgotten. -/
theorem PhiA1_join (c : Dev nD) :
    iprop(rest1 (F := F) c ∗ (∃ d, owns (c : Thread nD τ) scM1 fullShare d) ∗ (∃ r, prngReg c r))
      ⊢ (Pipeline.ΦA spec1 c : sProp 𝕄) := by
  unfold Pipeline.ΦA rest1; rw [scopedRest1_eq]; simp only [scM1, owns_whole]
  iintro ⟨⟨R0, R1, R2, R3, R4, R5, R6⟩, HS, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    iexact HS
  iexact Hg

/-- After position `n` (before position `n + 1`): the scratch at that position's accumulator. -/
theorem PhiS1_succ (c : Dev nD) (n : ℕ) (hn : n < cfg1.N) :
    PhiS1 V c (n + 1) hn
      = iprop(rest1 (F := F) c ∗ owns (c : Thread nD τ) scM1 fullShare (accAt1 V c n hn) ∗ (∃ r, prngReg c r)) := rfl

/-- Before a position that is not the first: the scratch at what the position before left. -/
theorem PhiS1_pos (c : Dev nD) (n : ℕ) (h : n ≤ cfg1.N) (hz : n ≠ 0) :
    PhiS1 V c n h
      = iprop(rest1 (F := F) c ∗ owns (c : Thread nD τ) scM1 fullShare (accAt1 V c (n - 1) (by omega)) ∗ (∃ r, prngReg c r)) := by
  cases n with
  | zero => exact absurd rfl hz
  | succ n => rfl

/-- Before any position the invariant holds the scratch at some contents. -/
theorem PhiS1_any (c : Dev nD) (n : ℕ) (h : n ≤ cfg1.N) :
    PhiS1 V c n h ⊢ iprop(rest1 (F := F) c ∗ (∃ d, owns (c : Thread nD τ) scM1 fullShare d) ∗ (∃ r, prngReg c r)) := by
  cases n with
  | zero => exact PhiA1_split c
  | succ n =>
    rw [PhiS1_succ]
    iintro ⟨HR, HS, Hg⟩
    isplitl [HR]; · iexact HR
    isplitl [HS]; · iexists _; iexact HS
    iexact Hg

/-- The invariant at a position's start, restated at the position's number. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## What the windows' buffers hold when the body runs, and what it leaves -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]

/-- Input window 0 (fetched at the first position only, its block index constant): its buffer holds its block at every
    position — unfetched, the index has not moved. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- Input windows 1, 2, 3 (fetched at every position): each buffer holds its block. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-- The inputs are never idle: the body leaves each buffer at its block. -/
theorem leaves1_0 (c : Dev nD) (t : Fin cfg1.N) :
    (dat1 V c).leavesExact 0 t = owns (c : Thread nD τ) (win1_0.stage (cfg1.slots t 0)) fullShare (iblk1 V c 0 t) := by
  rw [← after1_0]
theorem leaves1_1 (c : Dev nD) (t : Fin cfg1.N) :
    (dat1 V c).leavesExact 1 t = owns (c : Thread nD τ) (win1_1.stage (cfg1.slots t 1)) fullShare (iblk1 V c 1 t) := by
  rw [← after1_1]
theorem leaves1_2 (c : Dev nD) (t : Fin cfg1.N) :
    (dat1 V c).leavesExact 2 t = owns (c : Thread nD τ) (win1_2.stage (cfg1.slots t 2)) fullShare (iblk1 V c 2 t) := by
  rw [← after1_2]
theorem leaves1_3 (c : Dev nD) (t : Fin cfg1.N) :
    (dat1 V c).leavesExact 3 t = owns (c : Thread nD τ) (win1_3.stage (cfg1.slots t 3)) fullShare (iblk1 V c 3 t) := by
  rw [← after1_3]

/-! ## The body obligation, at a generic position -/

/-- What the body is called with at position `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 4000000 in
/-- The body at any position. The inputs' memrefs hold their blocks; the position's residue modulo sixteen says which
    of the three cases it is in. At a position that starts a core's tiles the invariant hands over the scratch at
    anything, elsewhere at what the position before left; the body hands it back at this position's accumulator. The
    output's buffer comes back untouched except at a position that ends a core's tiles, where it holds the accumulator
    re-laid as the output block. The other region's buffers, the generator register and what the core owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ, PhiS1_castSucc]
  rw [leaves1_0, leaves1_1, leaves1_2, leaves1_3]
  have hN : t.val < 32 := lt_of_lt_of_eq t.isLt (show cfg1.N = 32 from N_1)
  by_cases h0 : t.val % 16 = 0
  · have h1 : ¬t.val % 16 = 15 := by omega
    have hc0 : cond1_0 (grid1.coords t) := (hcond1_0 t).mpr h0
    have hc1 : ¬cond1_1 (grid1.coords t) := fun h => h1 ((hcond1_1 t).mp h)
    rw [Dat.leavesExact_idle (dat1 V c) 4 t (idleAt1_4 t hc1) (noFlush1_4 t hc1)]
    rw [accAt1_reset V c t h0]
    iintro ⟨HΦ, Ho, ⟨%d0, H0⟩, ⟨%d1, H1⟩, ⟨%d2, H2⟩, ⟨%d3, H3⟩, ⟨%d4, H4⟩⟩
    ihave ⟨HR, HS, Hg⟩ := (PhiS1_any V c t.val (Nat.le_of_lt t.isLt)) $$ HΦ
    iapply (sound_kernel1_A c Set.univ (grid1.coords t) _ _ _ _ _ _ _ _ _ _ _ _ hc0 hc1
      (iblk1 V c 0 t) (iblk1 V c 1 t) (iblk1 V c 2 t) (iblk1 V c 3 t) ((dat1 V c).before 4 t d4) _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HR HS Hg]
    · isplitl [HR]; · iexact HR
      isplitl [HS]; · iexact HS
      iexact Hg
    isplitl [Ho]; · iexact Ho
    isplitl [H0]; · iexact H0
    isplitl [H1]; · iexact H1
    isplitl [H2]; · iexact H2
    isplitl [H3]; · iexact H3
    iexists d4; iexact H4
  · have hz : t.val ≠ 0 := fun e => h0 (by rw [e])
    have hc0 : ¬cond1_0 (grid1.coords t) := fun h => h0 ((hcond1_0 t).mp h)
    rw [PhiS1_pos V c _ _ hz, accAt1_step V c t h0]
    by_cases h1 : t.val % 16 = 15
    · have hc1 : cond1_1 (grid1.coords t) := (hcond1_1 t).mpr h1
      rw [show (dat1 V c).leavesExact 4 t
          = owns (c : Thread nD τ) (win1_4.stage (cfg1.slots t 4)) fullShare ((dat1 V c).after 4 t) from by
        unfold Dat.leavesExact; rw [liveAt1_4 t hc1], after1_4, accAt1_step V c t h0]
      iintro ⟨⟨HR, HS, Hg⟩, Ho, ⟨%d0, H0⟩, ⟨%d1, H1⟩, ⟨%d2, H2⟩, ⟨%d3, H3⟩, ⟨%d4, H4⟩⟩
      iapply (sound_kernel1_C c Set.univ (grid1.coords t) _ _ _ _ _ _ _ _ _ _ _ _ hc0 hc1
        (iblk1 V c 0 t) (iblk1 V c 1 t) (iblk1 V c 2 t) (iblk1 V c 3 t)
        (accAt1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexact H3
      iexact H4
    · have hc1 : ¬cond1_1 (grid1.coords t) := fun h => h1 ((hcond1_1 t).mp h)
      rw [Dat.leavesExact_idle (dat1 V c) 4 t (idleAt1_4 t hc1) (noFlush1_4 t hc1)]
      iintro ⟨⟨HR, HS, Hg⟩, Ho, ⟨%d0, H0⟩, ⟨%d1, H1⟩, ⟨%d2, H2⟩, ⟨%d3, H3⟩, ⟨%d4, H4⟩⟩
      iapply (sound_kernel1_B c Set.univ (grid1.coords t) _ _ _ _ _ _ _ _ _ _ _ _ hc0 hc1
        (iblk1 V c 0 t) (iblk1 V c 1 t) (iblk1 V c 2 t) (iblk1 V c 3 t) ((dat1 V c).before 4 t d4)
        (accAt1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexact H3
      iexists d4; iexact H4

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 :=
  Idealize.SL.BI.Entails.refl _

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N)
      = PhiS1 V c (Fin.last cfg1.N).val (Nat.le_of_lt_succ (Fin.last cfg1.N).isLt) from rfl]
  exact Idealize.SL.BI.Entails.trans (PhiS1_any V c _ _) (PhiA1_join c)

end Region1

end Cert.Kernel.Hand

end
-- ==== Proof.K.Chain.lean ====
/- The contents of the core's unscoped buffers at each boundary of the program's items: the launch memory, then each
   stretch of host operations applied, and after each kernel region its arrays at what the pipeline's write-backs leave. -/
import proofs.«416509_j46643344834924_3_alg».proof.Proof.K.R0Body
import proofs.«416509_j46643344834924_3_alg».proof.Proof.K.R1Body
import proofs.«416509_j46643344834924_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the first stretch of host operations (indices, degrees). -/
abbrev W1 : Dev nD → Valuation τ sig (Elt F) := fun c => StableHlo.after hostOps0 (W0 m c)
/-- After the second (the guarded inverse square root of the degrees). -/
abbrev W2 : Dev nD → Valuation τ sig (Elt F) := fun c => StableHlo.after hostOps0_1 (W1 m c)
/-- After the third (edge weights, the dense adjacency, the re-laid parameters): region 0's entry. -/
abbrev W3 : Dev nD → Valuation τ sig (Elt F) := fun c => StableHlo.after hostOps0_2 (W2 m c)
/-- The same read at the TensorCore's references: what region 0's proof data take. -/
abbrev E0 : (c : Dev nD) → (b : Ref sig .tc) → Buf (Elt F) ((c : Thread nD τ).loc b) := fun c b => W3 m c b
/-- At region 0's exit: its arrays at what the pipeline leaves, every other buffer as entered. -/
def W4 (c : Dev nD) : Valuation τ sig (Elt F) :=
  Pipeline.withArrays spec0 c (W3 m c) fun w => (dat0 (E0 m) c).arrAt w cfg0.N
/-- After the host operation between the regions (the re-laid first-layer bias): region 1's entry. -/
abbrev W5 : Dev nD → Valuation τ sig (Elt F) := fun c => StableHlo.after hostOps1 (W4 m c)
abbrev E1 : (c : Dev nD) → (b : Ref sig .tc) → Buf (Elt F) ((c : Thread nD τ).loc b) := fun c b => W5 m c b
/-- At region 1's exit. -/
def W6 (c : Dev nD) : Valuation τ sig (Elt F) :=
  Pipeline.withArrays spec1 c (W5 m c) fun w => (dat1 (E1 m) c).arrAt w cfg1.N
/-- After the host operations that add the two cores' partial results and the bias. -/
abbrev W7 : Dev nD → Valuation τ sig (Elt F) := fun c => StableHlo.after hostOps2 (W6 m c)
/-- After the log-softmax: the end. -/
abbrev W8 : Dev nD → Valuation τ sig (Elt F) := fun c => StableHlo.after hostOps2_1 (W7 m c)

theorem W4_arr (c : Dev nD) (w : Fin cfg0.W) :
    W4 m c (Proc.devRef .tc (Pipeline.arrRef spec0 w)) = (dat0 (E0 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem W6_arr (c : Dev nD) (w : Fin cfg1.W) :
    W6 m c (Proc.devRef .tc (Pipeline.arrRef spec1 w)) = (dat1 (E1 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb

end Cert.Kernel.Hand

end
-- ==== Proof.K.Run.lean ====
/- The run of the whole program: its items as segments (host stretches and the two kernel regions), the launch, and what
   every unscoped buffer holds at the end; the frame claim read off it. -/
import proofs.«416509_j46643344834924_3_alg».proof.Proof.K.Chain
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each item leaves unchanged -/

theorem W1_of (c : Dev nD) (r : Ref sig .tc) (h : r ∉ hostOps0_W) :
    W1 m c (Proc.devRef .tc r) = W0 m c (Proc.devRef .tc r) :=
  StableHlo.after_of_writes_sub hostOps0 _ hostOps0_writes h
theorem W2_of (c : Dev nD) (r : Ref sig .tc) (h : r ∉ hostOps0_1_W) :
    W2 m c (Proc.devRef .tc r) = W1 m c (Proc.devRef .tc r) :=
  StableHlo.after_of_writes_sub hostOps0_1 _ hostOps0_1_writes h
theorem W3_of (c : Dev nD) (r : Ref sig .tc) (h : r ∉ hostOps0_2_W) :
    W3 m c (Proc.devRef .tc r) = W2 m c (Proc.devRef .tc r) :=
  StableHlo.after_of_writes_sub hostOps0_2 _ hostOps0_2_writes h
theorem W5_of (c : Dev nD) (r : Ref sig .tc) (h : r ∉ hostOps1_W) :
    W5 m c (Proc.devRef .tc r) = W4 m c (Proc.devRef .tc r) :=
  StableHlo.after_of_writes_sub hostOps1 _ hostOps1_writes h
theorem W7_of (c : Dev nD) (r : Ref sig .tc) (h : r ∉ hostOps2_W) :
    W7 m c (Proc.devRef .tc r) = W6 m c (Proc.devRef .tc r) :=
  StableHlo.after_of_writes_sub hostOps2 _ hostOps2_writes h
theorem W8_of (c : Dev nD) (r : Ref sig .tc) (h : r ∉ hostOps2_1_W) :
    W8 m c (Proc.devRef .tc r) = W7 m c (Proc.devRef .tc r) :=
  StableHlo.after_of_writes_sub hostOps2_1 _ hostOps2_1_writes h

/-- Region 0 only reads an input window's array: it leaves the region as it entered. -/
theorem W4_in (c : Dev nD) (w : Fin cfg0.W) (hin : (cfg0.win w).isOut = false) :
    W4 m c (Proc.devRef .tc (Pipeline.arrRef spec0 w)) = W3 m c (Proc.devRef .tc (Pipeline.arrRef spec0 w)) :=
  (W4_arr m c w).trans (((dat0 (E0 m) c).arrAt_in w hin _).trans (A_eq0 (E0 m) c w))
/-- The same for region 1. -/
theorem W6_in (c : Dev nD) (w : Fin cfg1.W) (hin : (cfg1.win w).isOut = false) :
    W6 m c (Proc.devRef .tc (Pipeline.arrRef spec1 w)) = W5 m c (Proc.devRef .tc (Pipeline.arrRef spec1 w)) :=
  (W6_arr m c w).trans (((dat1 (E1 m) c).arrAt_in w hin _).trans (A_eq1 (E1 m) c w))

/-- A reference no host operation writes and no window of either region has as its array keeps its launch contents. -/
theorem W8_bypass (c : Dev nD) (r : Ref sig .tc) (h0 : r ∉ hostOps0_W) (h1 : r ∉ hostOps0_1_W) (h2 : r ∉ hostOps0_2_W)
    (h3 : ∀ w, Pipeline.arrRef spec0 w ≠ r) (h4 : r ∉ hostOps1_W) (h5 : ∀ w, Pipeline.arrRef spec1 w ≠ r)
    (h6 : r ∉ hostOps2_W) (h7 : r ∉ hostOps2_1_W) :
    W8 m c (Proc.devRef .tc r) = m ((c : Thread nD τ).loc r) :=
  (W8_of m c r h7).trans <| (W7_of m c r h6).trans <| (W6_of_ne m c r h5).trans <| (W5_of m c r h4).trans <|
    (W4_of_ne m c r h3).trans <| (W3_of m c r h2).trans <| (W2_of m c r h1).trans <| (W1_of m c r h0).trans rfl

/-- An input array of region 0 that nothing else touches. -/
theorem W8_in0 (c : Dev nD) (w : Fin cfg0.W) (hin : (cfg0.win w).isOut = false)
    (h0 : Pipeline.arrRef spec0 w ∉ hostOps0_W) (h1 : Pipeline.arrRef spec0 w ∉ hostOps0_1_W) (h2 : Pipeline.arrRef spec0 w ∉ hostOps0_2_W)
    (h4 : Pipeline.arrRef spec0 w ∉ hostOps1_W) (h5 : ∀ w', Pipeline.arrRef spec1 w' ≠ Pipeline.arrRef spec0 w)
    (h6 : Pipeline.arrRef spec0 w ∉ hostOps2_W) (h7 : Pipeline.arrRef spec0 w ∉ hostOps2_1_W) :
    W8 m c (Proc.devRef .tc (Pipeline.arrRef spec0 w)) = m ((c : Thread nD τ).loc (Pipeline.arrRef spec0 w)) :=
  (W8_of m c _ h7).trans <| (W7_of m c _ h6).trans <| (W6_of_ne m c _ h5).trans <| (W5_of m c _ h4).trans <|
    (W4_in m c w hin).trans <| (W3_of m c _ h2).trans <| (W2_of m c _ h1).trans <| (W1_of m c _ h0).trans rfl

/-- An input array of region 1 that nothing else touches. -/
theorem W8_in1 (c : Dev nD) (w : Fin cfg1.W) (hin : (cfg1.win w).isOut = false)
    (h0 : Pipeline.arrRef spec1 w ∉ hostOps0_W) (h1 : Pipeline.arrRef spec1 w ∉ hostOps0_1_W) (h2 : Pipeline.arrRef spec1 w ∉ hostOps0_2_W)
    (h3 : ∀ w', Pipeline.arrRef spec0 w' ≠ Pipeline.arrRef spec1 w) (h4 : Pipeline.arrRef spec1 w ∉ hostOps1_W)
    (h6 : Pipeline.arrRef spec1 w ∉ hostOps2_W) (h7 : Pipeline.arrRef spec1 w ∉ hostOps2_1_W) :
    W8 m c (Proc.devRef .tc (Pipeline.arrRef spec1 w)) = m ((c : Thread nD τ).loc (Pipeline.arrRef spec1 w)) :=
  (W8_of m c _ h7).trans <| (W7_of m c _ h6).trans <| (W6_in m c w hin).trans <| (W5_of m c _ h4).trans <|
    (W4_of_ne m c _ h3).trans <| (W3_of m c _ h2).trans <| (W2_of m c _ h1).trans <| (W1_of m c _ h0).trans rfl

/-- No item writes an argument array: each reaches the end as launched. -/
theorem W8_arg (c : Dev nD) (b : Ref sig .tc)
    (hb : b ∈ ([main_arg0, main_arg1, main_arg2, main_arg3, main_arg4, main_arg5, main_arg6, main_arg7, main_arg8, main_arg9] : List (Ref sig .tc))) :
    W8 m c (Proc.devRef .tc b) = m ((c : Thread nD τ).loc b) := by
  simp only [List.mem_cons, List.not_mem_nil, or_false] at hb
  rcases hb with rfl | rfl | rfl | rfl | rfl | rfl | rfl | rfl | rfl | rfl
  · exact W8_in0 m c 0 rfl (by decide) (by decide) (by decide) (by decide) (by decide) (by decide) (by decide)
  · exact W8_bypass m c main_arg1 (by decide) (by decide) (by decide) (by decide) (by decide) (by decide) (by decide) (by decide)
  · exact W8_in0 m c 2 rfl (by decide) (by decide) (by decide) (by decide) (by decide) (by decide) (by decide)
  · exact W8_bypass m c main_arg3 (by decide) (by decide) (by decide) (by decide) (by decide) (by decide) (by decide) (by decide)
  · exact W8_bypass m c main_arg4 (by decide) (by decide) (by decide) (by decide) (by decide) (by decide) (by decide) (by decide)
  · exact W8_bypass m c main_arg5 (by decide) (by decide) (by decide) (by decide) (by decide) (by decide) (by decide) (by decide)
  · exact W8_in1 m c 1 rfl (by decide) (by decide) (by decide) (by decide) (by decide) (by decide) (by decide)
  · exact W8_bypass m c main_arg7 (by decide) (by decide) (by decide) (by decide) (by decide) (by decide) (by decide) (by decide)
  · exact W8_in1 m c 3 rfl (by decide) (by decide) (by decide) (by decide) (by decide) (by decide) (by decide)
  · exact W8_bypass m c main_arg9 (by decide) (by decide) (by decide) (by decide) (by decide) (by decide) (by decide) (by decide)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the core's generator register at some state and its dues, at nothing. -/
abbrev R (c : Dev nD) : sProp 𝕄 := iprop((∃ r, prngReg c r) ∗ ∃ W, owes (c : Thread nD τ) (0 : CellTallies nD τ sig Unit) W)

/-- A stretch of host operations as a segment over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the dues: every unscoped buffer at the last boundary's contents, the generator
    register at some state. -/
abbrev Tₙ (c : Dev nD) : sProp 𝕄 := iprop(StableHlo.held (c : Thread nD τ) (Pipeline.ucRefs τ sig) (W8 m c) ∗ ∃ r, prngReg c r)

/-- Region 0's exit contents read at the TensorCore's references, and region 1's. -/
abbrev X0 : (c : Dev nD) → (b : Ref sig .tc) → Buf (Elt F) ((c : Thread nD τ).loc b) := fun c b => W4 m c b
abbrev X1 : (c : Dev nD) → (b : Ref sig .tc) → Buf (Elt F) ((c : Thread nD τ).loc b) := fun c b => W6 m c b

theorem hF0 (c : Dev nD) (w : Fin cfg0.W) : (dat0 (E0 m) c).arrAt w cfg0.N = X0 m c (Pipeline.arrRef spec0 w) :=
  (W4_arr m c w).symm
theorem hrest0 (c : Dev nD) : ∀ b, b ∉ Finset.univ.image (Pipeline.arrRef spec0) → X0 m c b = E0 m c b :=
  fun b hb => W4_of_ne m c b fun w e => hb (Finset.mem_image.mpr ⟨w, Finset.mem_univ _, e⟩)
theorem hF1 (c : Dev nD) (w : Fin cfg1.W) : (dat1 (E1 m) c).arrAt w cfg1.N = X1 m c (Pipeline.arrRef spec1 w) :=
  (W6_arr m c w).symm
theorem hrest1 (c : Dev nD) : ∀ b, b ∉ Finset.univ.image (Pipeline.arrRef spec1) → X1 m c b = E1 m c b :=
  fun b hb => W6_of_ne m c b fun w e => hb (Finset.mem_image.mpr ⟨w, Finset.mem_univ _, e⟩)

/-! ## The regions as segments -/

set_option backward.isDefEq.respectTransparency.types false in
/-- REGION 0 over the thread state: entered from every unscoped buffer at `W3`, left at `W4`. Its arrays are split
    out of the unscoped buffers and put back at the exit contents; the generator register goes into the invariant and
    comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W5`, left at `W6`. As region 0, but its
    invariant names the accumulator between points: what the region is entered with gives the invariant before the
    first point, and after the last point the invariant gives it back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E1 m) c)
    unfold Pipeline.ΦA
    iintro ⟨Hp, -, Hr⟩
    isplitl [Hr]; · iexact Hr
    iexact Hp
  hout c := by
    refine BIBase.Entails.trans (hout1 (E1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's eight items in order: a host segment per stretch from its boundary's contents, a region per kernel. -/
abbrev items : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .host (hseg hostOps2_1 hostOps2_1_sub hostOps2_1_fresh (W7 m)) ]

/-- The program IS the run of the items: both are the chain of the same eight fragments. -/
theorem main_run (c : Dev nD) : main (F := F) c = Pipeline.Seg.run (items m) := by
  rw [main_chain c, Pipeline.Seg.run_eq_chain]; rfl

/-- After the last item the buffers, the generator register and the dues regroup as the launch reads them. -/
theorem last_step (c : Dev nD) :
    (iprop(StableHlo.held (c : Thread nD τ) (Pipeline.ucRefs τ sig) (W8 m c) ∗ R c) : sProp 𝕄)
      ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- THE RUN. From any memory with zero counters every weakly fair execution of the program terminates, nothing
    faulting, and every unscoped buffer of every core ends at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W8 m c b) := by
  refine Pipeline.θ_run_regions_kit_dev (pcfgs (F := F)) adm (pdats m) () cellOf_inj emb₁ defs₀ 𝒱₀ L lv m ρ main (fun _ => items m)
    (fun c Q => by rw [main_run m c])
    (fun c => by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, .rfl, .rfl, last_step m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun _ h => h)

/-- An unscoped TensorCore reference is among those the run accounts for. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the program runs and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W8_arg m c main_arg0 (by decide)),
     (h c _ (mem_uc main_arg1 (by decide))).trans (W8_arg m c main_arg1 (by decide)),
     (h c _ (mem_uc main_arg2 (by decide))).trans (W8_arg m c main_arg2 (by decide)),
     (h c _ (mem_uc main_arg3 (by decide))).trans (W8_arg m c main_arg3 (by decide)),
     (h c _ (mem_uc main_arg4 (by decide))).trans (W8_arg m c main_arg4 (by decide)),
     (h c _ (mem_uc main_arg5 (by decide))).trans (W8_arg m c main_arg5 (by decide)),
     (h c _ (mem_uc main_arg6 (by decide))).trans (W8_arg m c main_arg6 (by decide)),
     (h c _ (mem_uc main_arg7 (by decide))).trans (W8_arg m c main_arg7 (by decide)),
     (h c _ (mem_uc main_arg8 (by decide))).trans (W8_arg m c main_arg8 (by decide)),
     (h c _ (mem_uc main_arg9 (by decide))).trans (W8_arg m c main_arg9 (by decide))⟩) (run_all m ρ)

end Cert.Kernel.Hand

end
-- ==== Proof.KI.R0Body.lean ====
/- Region 0 (the graph-convolution kernel, one grid point): what the body leaves in each staging buffer, the
   proof data of its pipeline at any entry contents `V`, and the body obligation. -/
import proofs.«416509_j46643344834924_3_alg».proof.Proof.Gen.KernelIdeal.Launch
import proofs.«416509_j46643344834924_3_alg».proof.Proof.Gen.KernelIdeal.Skeleton
import proofs.«416509_j46643344834924_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at the point, for any proof data whose array is the entry
    contents' and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at the point, for any proof data whose array is the entry
    contents' and whose body leaves the block in place: the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at the point, for any proof data whose array is the entry
    contents' and whose body leaves the block in place: the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at the point, for any proof data whose array is the entry
    contents' and whose body leaves the block in place: the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at the point, for any proof data whose array is the entry
    contents' and whose body leaves the block in place: the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at the point, for any proof data whose array is the entry
    contents' and whose body leaves the block in place: the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- What the body stores into the output's staging buffer, from the six input blocks (in window order:
    features, adjacency, weights, bias, scale, shift): the column sums of the normalised, rectified aggregate. -/
def out0_6 (x0 : Vec F S81x10 .f32) (x1 : Vec F S81x81 .f32) (x2 : Vec F S10x8192 .f32) (x3 x4 x5 : Vec F S1x8192 .f32) :
    Vec F S1x8192 .f32 :=
  k0_pay1 (k0_pay2 x0 x2 x1 x3 x4) x5

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by
  dsimp only [dat0]

/-! ## The body's accesses and its triple -/

/-- The rank-two zero offsets, spelt as a literal vector, are the zero function. -/
theorem zero_off2 : (![0, 0] : Fin 2 → Nat) = fun _ => 0 := funext fun a => by fin_cases a <;> rfl

/-- The whole-buffer rectangle of the output's staging buffer: every index lies in it. -/
theorem cover0_6 (p : Vec F S1x8192 .f32) (y : S1x8192.Idx) :
    ∃ pc ∈ ([⟨Rect.unit (s := S1x8192) ![0, 0] S1x8192.size inb_S1x8192_S1x8192_0_0, p⟩] : List (View.Piece (Elt F) S1x8192 .f32)), y ∈ pc.1.set :=
  ⟨_, List.mem_singleton_self _, View.mem_set_unit_zero (S := S1x8192) zero_off2 inb_S1x8192_S1x8192_0_0 y⟩

set_option maxHeartbeats 1000000 in
/-- The kernel body on whole staging memrefs, the six inputs' at read contents `x0 … x5` and the output's at anything,
    runs to the continuation holding the inputs' as they were and the output's at `out0_6` of the inputs'. -/
theorem sound_kernel0 (c : Dev nD) (E : Set ℕ) (i : grid0.Coords)
    (arg1 : Memref sig .tc .vmem S81x10 .f32) (harg1 : arg1.IsWhole) (arg2 : Memref sig .tc .vmem S81x81 .f32) (harg2 : arg2.IsWhole)
    (arg3 : Memref sig .tc .vmem S10x8192 .f32) (harg3 : arg3.IsWhole) (arg4 : Memref sig .tc .vmem S1x8192 .f32) (harg4 : arg4.IsWhole)
    (arg5 : Memref sig .tc .vmem S1x8192 .f32) (harg5 : arg5.IsWhole) (arg6 : Memref sig .tc .vmem S1x8192 .f32) (harg6 : arg6.IsWhole)
    (arg7 : Memref sig .tc .vmem S1x8192 .f32) (harg7 : arg7.IsWhole)
    (x0 : Vec F S81x10 .f32) (x1 : Vec F S81x81 .f32) (x2 : Vec F S10x8192 .f32) (x3 x4 x5 : Vec F S1x8192 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__gcn_kernel i arg1 harg1 arg2 harg2 arg3 harg3 arg4 harg4 arg5 harg5 arg6 harg6 arg7 harg7) K := by
  simp only [cc0__gcn_kernel_eq_skeleton]; unfold cc0__gcn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _ (cover0_6 _)]
  rw [View.canon_unit_zero (S := S1x8192) zero_off2]
  unfold out0_6
  simp only [View.readAt_eq_ld, View.ld_unit_zero (S := S81x10) zero_off2, View.ld_unit_zero (S := S81x81) zero_off2,
    View.ld_unit_zero (S := S10x8192) zero_off2, View.ld_unit_zero (S := S1x8192) zero_off2]

/-! ## The input windows at the point -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]

/-- Each input's current staging buffer holds its block at the point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`: the invariant, what the core owes, and the seven staging buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at the point: the inputs' memrefs hold their blocks, so the kernel's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.R1Body.lean ====
/- Region 1 (the fused two-layer head, a 2 x 16 grid): the accumulator the kernel carries between grid points,
   the proof data of its pipeline at any entry contents `V`, and the body obligation. -/
import proofs.«416509_j46643344834924_3_alg».proof.Proof.Gen.KernelIdeal.Launch
import proofs.«416509_j46643344834924_3_alg».proof.Proof.Gen.KernelIdeal.Skeleton
import proofs.«416509_j46643344834924_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, and where the output window is idle -/

/-- The first conditional of the body: the second grid coordinate is zero. -/
abbrev cond1_0 (i : grid1.Coords) : Prop :=
  (Scalar.cmpi .ne (Scalar.extui (Scalar.cmpi .eq (BitVec.ofNat 32 (i 1).val) 0#32)) 0#32) = 1#1

/-- It holds exactly at the positions that start a core's sixteen tiles. -/
theorem hcond1_0 : ∀ t : Fin cfg1.N, cond1_0 (grid1.coords t) ↔ t.val % 16 = 0 :=
  (by decide +kernel : ∀ t : Fin grid1.N, cond1_0 (grid1.coords t) ↔ t.val % 16 = 0)

/-- The second conditional of the body: the second grid coordinate is the last. -/
abbrev cond1_1 (i : grid1.Coords) : Prop := k1_cond2 i = 1#1

/-- It holds exactly at the positions that end a core's sixteen tiles. -/
theorem hcond1_1 : ∀ t : Fin cfg1.N, cond1_1 (grid1.coords t) ↔ t.val % 16 = 15 :=
  (by decide +kernel : ∀ t : Fin grid1.N, cond1_1 (grid1.coords t) ↔ t.val % 16 = 15)

/-- Where the second conditional fails the output window is idle and its block is not written back; where it holds the window is live. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-- The zero offsets of the whole-buffer rectangles, as constant functions. -/
theorem zeroOff1_2 : (![0, 0] : Fin 2 → ℕ) = fun _ => 0 := by funext a; fin_cases a <;> rfl
theorem zeroOff1_3 : (![0, 0, 0] : Fin 3 → ℕ) = fun _ => 0 := by funext a; fin_cases a <;> rfl

/-! ## The body's triple, case by case -/

/-- A list of writes whose last is a store through the whole-buffer rectangle covers the buffer. -/
theorem cover1_whole_cons {S : Shape} {e : EltTy} {off : Fin S.rank → ℕ} (h : off = fun _ => 0)
    (inb : ∀ a, off a + S.size a ≤ S.size a) (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons_self, View.mem_set_unit_zero h inb y⟩

set_option maxHeartbeats 1000000 in
/-- The body at a position that starts a core's tiles (and does not end them): on whole staging memrefs, the inputs' at read
    contents `x0 … x3`, the output's at `xo`, the scratch at anything, it runs to the continuation holding the inputs' and
    the output's as they were and the scratch at the tile's contribution added to zero. -/
theorem sound_kernel1_A (c : Dev nD) (E : Set ℕ) (i : grid1.Coords)
    (arg2 : Memref sig .tc .vmem S1x8192 .f32) (harg2 : arg2.IsWhole) (arg3 : Memref sig .tc .vmem S8192x256 .f32) (harg3 : arg3.IsWhole)
    (arg4 : Memref sig .tc .vmem S1x256 .f32) (harg4 : arg4.IsWhole) (arg5 : Memref sig .tc .vmem S256x729 .f32) (harg5 : arg5.IsWhole)
    (arg6 : Memref sig .tc .vmem S1x1x729 .f32) (harg6 : arg6.IsWhole) (arg7 : Memref sig .tc .vmem S1x729 .f32) (harg7 : arg7.IsWhole)
    (hc0 : cond1_0 i) (hc1 : ¬cond1_1 i)
    (x0 : Vec F S1x8192 .f32) (x1 : Vec F S8192x256 .f32) (x2 : Vec F S1x256 .f32) (x3 : Vec F S256x729 .f32) (xo : Vec F S1x1x729 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ (∃ d, owns (c : Thread nD τ) arg7 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo
            ∗ owns (c : Thread nD τ) arg7 fullShare (k1_pay2 x0 x1 x2 x3 (k1_pay1 (F := F)))) -∗ K ⟨⟩))
      ⊢ wp frame (wpE (defs₀ (F := F)) Variants.none c none) E
          (cc1__mlp_fused_kernel i arg2 harg2 arg3 harg3 arg4 harg4 arg5 harg5 arg6 harg6 arg7 harg7) K := by
  simp only [cc1__mlp_fused_kernel_eq_skeleton]; unfold cc1__mlp_fused_kernel_skel
  unfold owns
  iintro ⟨⟨%f0, %hf0, H0⟩, ⟨%f1, %hf1, H1⟩, ⟨%f2, %hf2, H2⟩, ⟨%f3, %hf3, H3⟩, ⟨%fo, %hfo, Ho⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hfo
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [Ho]
  · iexists _; isplitr; · ipureintro; exact harg6.read_unread _
    iexact Ho
  iexists _; isplitr
  swap; · iexact HS
  ipureintro
  sl_unfold_words
  refine (View.read_writes_eq_canon _ _ _ (cover1_whole_cons (S := S1x729) zeroOff1_2 _ _ _)).trans ?_
  rw [View.canon_cons_unit_zero (S := S1x729) zeroOff1_2]
  simp only [View.readAt_eq_ld, Memref.IsWhole.read_unread, View.readCov_unit_zero (S := S1x729) _ zeroOff1_2,
    View.ld_unit_zero (S := S1x8192) zeroOff1_2, View.ld_unit_zero (S := S8192x256) zeroOff1_2, View.ld_unit_zero (S := S1x256) zeroOff1_2,
    View.ld_unit_zero (S := S256x729) zeroOff1_2, View.ld_unit_zero (S := S1x729) zeroOff1_2]

set_option maxHeartbeats 1000000 in
/-- The body at a position that neither starts nor ends a core's tiles: the scratch enters at `s`, what the position before
    left, and leaves at the tile's contribution added to `s`; the output's buffer is handed back as it was. -/
theorem sound_kernel1_B (c : Dev nD) (E : Set ℕ) (i : grid1.Coords)
    (arg2 : Memref sig .tc .vmem S1x8192 .f32) (harg2 : arg2.IsWhole) (arg3 : Memref sig .tc .vmem S8192x256 .f32) (harg3 : arg3.IsWhole)
    (arg4 : Memref sig .tc .vmem S1x256 .f32) (harg4 : arg4.IsWhole) (arg5 : Memref sig .tc .vmem S256x729 .f32) (harg5 : arg5.IsWhole)
    (arg6 : Memref sig .tc .vmem S1x1x729 .f32) (harg6 : arg6.IsWhole) (arg7 : Memref sig .tc .vmem S1x729 .f32) (harg7 : arg7.IsWhole)
    (hc0 : ¬cond1_0 i) (hc1 : ¬cond1_1 i)
    (x0 : Vec F S1x8192 .f32) (x1 : Vec F S8192x256 .f32) (x2 : Vec F S1x256 .f32) (x3 : Vec F S256x729 .f32) (xo : Vec F S1x1x729 .f32)
    (s : Vec F S1x729 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ owns (c : Thread nD τ) arg7 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo
            ∗ owns (c : Thread nD τ) arg7 fullShare (k1_pay2 x0 x1 x2 x3 s)) -∗ K ⟨⟩))
      ⊢ wp frame (wpE (defs₀ (F := F)) Variants.none c none) E
          (cc1__mlp_fused_kernel i arg2 harg2 arg3 harg3 arg4 harg4 arg5 harg5 arg6 harg6 arg7 harg7) K := by
  simp only [cc1__mlp_fused_kernel_eq_skeleton]; unfold cc1__mlp_fused_kernel_skel
  unfold owns
  iintro ⟨⟨%f0, %hf0, H0⟩, ⟨%f1, %hf1, H1⟩, ⟨%f2, %hf2, H2⟩, ⟨%f3, %hf3, H3⟩, ⟨%fo, %hfo, Ho⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfo; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [Ho]
  · iexists _; isplitr; · ipureintro; exact harg6.read_unread _
    iexact Ho
  iexists _; isplitr
  swap; · iexact HS
  ipureintro
  sl_unfold_words
  refine (View.read_writes_eq_canon _ _ _ (cover1_whole_cons (S := S1x729) zeroOff1_2 _ _ _)).trans ?_
  rw [View.canon_cons_unit_zero (S := S1x729) zeroOff1_2]
  simp only [View.readAt_eq_ld, Memref.IsWhole.read_unread, View.readCov_unit_zero (S := S1x729) _ zeroOff1_2,
    View.ld_unit_zero (S := S1x8192) zeroOff1_2, View.ld_unit_zero (S := S8192x256) zeroOff1_2, View.ld_unit_zero (S := S1x256) zeroOff1_2,
    View.ld_unit_zero (S := S256x729) zeroOff1_2, View.ld_unit_zero (S := S1x729) zeroOff1_2]

set_option maxHeartbeats 1000000 in
/-- The body at a position that ends a core's tiles: the scratch enters at `s` and leaves at the tile's contribution added
    to `s`, and the output's buffer, entered at anything, leaves at that sum re-laid as the output block. -/
theorem sound_kernel1_C (c : Dev nD) (E : Set ℕ) (i : grid1.Coords)
    (arg2 : Memref sig .tc .vmem S1x8192 .f32) (harg2 : arg2.IsWhole) (arg3 : Memref sig .tc .vmem S8192x256 .f32) (harg3 : arg3.IsWhole)
    (arg4 : Memref sig .tc .vmem S1x256 .f32) (harg4 : arg4.IsWhole) (arg5 : Memref sig .tc .vmem S256x729 .f32) (harg5 : arg5.IsWhole)
    (arg6 : Memref sig .tc .vmem S1x1x729 .f32) (harg6 : arg6.IsWhole) (arg7 : Memref sig .tc .vmem S1x729 .f32) (harg7 : arg7.IsWhole)
    (hc0 : ¬cond1_0 i) (hc1 : cond1_1 i)
    (x0 : Vec F S1x8192 .f32) (x1 : Vec F S8192x256 .f32) (x2 : Vec F S1x256 .f32) (x3 : Vec F S256x729 .f32)
    (s : Vec F S1x729 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare (k1_pay3 (k1_pay2 x0 x1 x2 x3 s))
            ∗ owns (c : Thread nD τ) arg7 fullShare (k1_pay2 x0 x1 x2 x3 s)) -∗ K ⟨⟩))
      ⊢ wp frame (wpE (defs₀ (F := F)) Variants.none c none) E
          (cc1__mlp_fused_kernel i arg2 harg2 arg3 harg3 arg4 harg4 arg5 harg5 arg6 harg6 arg7 harg7) K := by
  simp only [cc1__mlp_fused_kernel_eq_skeleton]; unfold cc1__mlp_fused_kernel_skel
  unfold owns
  iintro ⟨⟨%f0, %hf0, H0⟩, ⟨%f1, %hf1, H1⟩, ⟨%f2, %hf2, H2⟩, ⟨%f3, %hf3, H3⟩, ⟨%d6, %fo, -, Ho⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [Ho]
  · iexists _; isplitr
    swap; · iexact Ho
    ipureintro
    sl_unfold_words
    refine (View.read_writes_eq_canon _ _ _ (cover1_whole_cons (S := S1x1x729) zeroOff1_3 _ _ _)).trans ?_
    rw [View.canon_cons_unit_zero (S := S1x1x729) zeroOff1_3]
    simp only [View.readAt_eq_ld, Memref.IsWhole.read_unread, View.readCov_unit_zero (S := S1x729) _ zeroOff1_2,
    View.ld_unit_zero (S := S1x8192) zeroOff1_2, View.ld_unit_zero (S := S8192x256) zeroOff1_2, View.ld_unit_zero (S := S1x256) zeroOff1_2,
    View.ld_unit_zero (S := S256x729) zeroOff1_2, View.ld_unit_zero (S := S1x729) zeroOff1_2]
  iexists _; isplitr
  swap; · iexact HS
  ipureintro
  sl_unfold_words
  refine (View.read_writes_eq_canon _ _ _ (cover1_whole_cons (S := S1x729) zeroOff1_2 _ _ _)).trans ?_
  rw [View.canon_cons_unit_zero (S := S1x729) zeroOff1_2]
  simp only [View.readAt_eq_ld, Memref.IsWhole.read_unread, View.readCov_unit_zero (S := S1x729) _ zeroOff1_2,
    View.ld_unit_zero (S := S1x8192) zeroOff1_2, View.ld_unit_zero (S := S8192x256) zeroOff1_2, View.ld_unit_zero (S := S1x256) zeroOff1_2,
    View.ld_unit_zero (S := S256x729) zeroOff1_2, View.ld_unit_zero (S := S1x729) zeroOff1_2]

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- THE ACCUMULATOR: what the scratch holds after the body at position `n`. At a position that starts a core's
    sixteen tiles (`n % 16 = 0`) the body first clears it, so the tile's contribution is added to zero; at any
    other position it is added to what the position before left. -/
def accAt1 (c : Dev nD) : (n : ℕ) → n < cfg1.N → Vec F S1x729 .f32
  | 0, hn => k1_pay2 (iblk1 V c 0 ⟨0, hn⟩) (iblk1 V c 1 ⟨0, hn⟩) (iblk1 V c 2 ⟨0, hn⟩) (iblk1 V c 3 ⟨0, hn⟩) (k1_pay1 (F := F))
  | n + 1, hn => k1_pay2 (iblk1 V c 0 ⟨n + 1, hn⟩) (iblk1 V c 1 ⟨n + 1, hn⟩) (iblk1 V c 2 ⟨n + 1, hn⟩) (iblk1 V c 3 ⟨n + 1, hn⟩)
      (if (n + 1) % 16 = 0 then k1_pay1 (F := F) else accAt1 c n (Nat.lt_of_succ_lt hn))

/-- The scratch accumulator, whole. -/
abbrev scM1 : Memref sig .tc .vmem S1x729 .f32 := Memref.whole cc1_scratch0

/-- The core's scoped buffers that are neither a staging buffer of this pipeline nor its scratch (the other
    region's staging buffers), each at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f))

/-- The region invariant before position `n`: before the first point every scoped buffer outside the pipeline at
    anything; afterwards the scratch at what the position before left in it, the others still at anything; the
    generator register at some state throughout. -/
def PhiS1 (c : Dev nD) : (n : ℕ) → n ≤ cfg1.N → sProp 𝕄
  | 0, _ => Pipeline.ΦA spec1 c
  | n + 1, hn => iprop(rest1 (F := F) c ∗ owns (c : Thread nD τ) scM1 fullShare (accAt1 V c n hn) ∗ (∃ r, prngReg c r))

/-- The proof data of pipeline 1 on core `c`. The output window's entry is what the accumulator holds, re-laid
    as the output block; it is consulted only at the positions that write the block back (the last tile of each core). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (accAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_4 (c : Dev nD) (t : Fin cfg1.N) : (dat1 V c).after 4 t = k1_pay3 (accAt1 V c t.val t.isLt) := by
  dsimp only [dat1]

/-! ## The accumulator, position by position -/

/-- At a position that starts a core's tiles the accumulator is the tile's contribution added to zero. -/
theorem accAt1_reset (c : Dev nD) (t : Fin cfg1.N) (h : t.val % 16 = 0) :
    accAt1 V c t.val t.isLt
      = k1_pay2 (iblk1 V c 0 t) (iblk1 V c 1 t) (iblk1 V c 2 t) (iblk1 V c 3 t) (k1_pay1 (F := F)) := by
  obtain ⟨n, hn⟩ := t
  cases n with
  | zero => rfl
  | succ n =>
    have h' : (n + 1) % 16 = 0 := h
    show accAt1 V c (n + 1) hn = _
    rw [accAt1, if_pos h']

/-- At any other position it is the tile's contribution added to what the position before left. -/
theorem accAt1_step (c : Dev nD) (t : Fin cfg1.N) (h : ¬t.val % 16 = 0) :
    accAt1 V c t.val t.isLt
      = k1_pay2 (iblk1 V c 0 t) (iblk1 V c 1 t) (iblk1 V c 2 t) (iblk1 V c 3 t)
          (accAt1 V c (t.val - 1) (Nat.lt_of_le_of_lt (Nat.sub_le _ _) t.isLt)) := by
  obtain ⟨n, hn⟩ := t
  cases n with
  | zero => exact absurd (Nat.zero_mod _) h
  | succ n =>
    have h' : ¬(n + 1) % 16 = 0 := h
    show accAt1 V c (n + 1) hn = _
    rw [accAt1, if_neg h']
    rfl

/-! ## The invariant -/

/-- What the region is entered with, the scratch named apart from the other region's staging buffers. -/
theorem PhiA1_split (c : Dev nD) :
    (Pipeline.ΦA spec1 c : sProp 𝕄)
      ⊢ iprop(rest1 (F := F) c ∗ (∃ d, owns (c : Thread nD τ) scM1 fullShare d) ∗ (∃ r, prngReg c r)) := by
  unfold Pipeline.ΦA rest1; rw [scopedRest1_eq]; simp only [scM1, owns_whole]
  iintro ⟨⟨R0, R1, R2, R3, R4, R5, R6, HS⟩, Hg⟩
  isplitl [R0 R1 R2 R3 R4 R5 R6]
  · isplitl [R0]; · iexact R0
    isplitl [R1]; · iexact R1
    isplitl [R2]; · iexact R2
    isplitl [R3]; · iexact R3
    isplitl [R4]; · iexact R4
    isplitl [R5]; · iexact R5
    iexact R6
  isplitl [HS]; · iexact HS
  iexact Hg

/-- And back: the scratch's contents forgotten. -/
theorem PhiA1_join (c : Dev nD) :
    iprop(rest1 (F := F) c ∗ (∃ d, owns (c : Thread nD τ) scM1 fullShare d) ∗ (∃ r, prngReg c r))
      ⊢ (Pipeline.ΦA spec1 c : sProp 𝕄) := by
  unfold Pipeline.ΦA rest1; rw [scopedRest1_eq]; simp only [scM1, owns_whole]
  iintro ⟨⟨R0, R1, R2, R3, R4, R5, R6⟩, HS, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    iexact HS
  iexact Hg

/-- After position `n` (before position `n + 1`): the scratch at that position's accumulator. -/
theorem PhiS1_succ (c : Dev nD) (n : ℕ) (hn : n < cfg1.N) :
    PhiS1 V c (n + 1) hn
      = iprop(rest1 (F := F) c ∗ owns (c : Thread nD τ) scM1 fullShare (accAt1 V c n hn) ∗ (∃ r, prngReg c r)) := rfl

/-- Before a position that is not the first: the scratch at what the position before left. -/
theorem PhiS1_pos (c : Dev nD) (n : ℕ) (h : n ≤ cfg1.N) (hz : n ≠ 0) :
    PhiS1 V c n h
      = iprop(rest1 (F := F) c ∗ owns (c : Thread nD τ) scM1 fullShare (accAt1 V c (n - 1) (by omega)) ∗ (∃ r, prngReg c r)) := by
  cases n with
  | zero => exact absurd rfl hz
  | succ n => rfl

/-- Before any position the invariant holds the scratch at some contents. -/
theorem PhiS1_any (c : Dev nD) (n : ℕ) (h : n ≤ cfg1.N) :
    PhiS1 V c n h ⊢ iprop(rest1 (F := F) c ∗ (∃ d, owns (c : Thread nD τ) scM1 fullShare d) ∗ (∃ r, prngReg c r)) := by
  cases n with
  | zero => exact PhiA1_split c
  | succ n =>
    rw [PhiS1_succ]
    iintro ⟨HR, HS, Hg⟩
    isplitl [HR]; · iexact HR
    isplitl [HS]; · iexists _; iexact HS
    iexact Hg

/-- The invariant at a position's start, restated at the position's number. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## What the windows' buffers hold when the body runs, and what it leaves -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]

/-- Input window 0 (fetched at the first position only, its block index constant): its buffer holds its block at every
    position — unfetched, the index has not moved. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- Input windows 1, 2, 3 (fetched at every position): each buffer holds its block. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-- The inputs are never idle: the body leaves each buffer at its block. -/
theorem leaves1_0 (c : Dev nD) (t : Fin cfg1.N) :
    (dat1 V c).leavesExact 0 t = owns (c : Thread nD τ) (win1_0.stage (cfg1.slots t 0)) fullShare (iblk1 V c 0 t) := by
  rw [← after1_0]
theorem leaves1_1 (c : Dev nD) (t : Fin cfg1.N) :
    (dat1 V c).leavesExact 1 t = owns (c : Thread nD τ) (win1_1.stage (cfg1.slots t 1)) fullShare (iblk1 V c 1 t) := by
  rw [← after1_1]
theorem leaves1_2 (c : Dev nD) (t : Fin cfg1.N) :
    (dat1 V c).leavesExact 2 t = owns (c : Thread nD τ) (win1_2.stage (cfg1.slots t 2)) fullShare (iblk1 V c 2 t) := by
  rw [← after1_2]
theorem leaves1_3 (c : Dev nD) (t : Fin cfg1.N) :
    (dat1 V c).leavesExact 3 t = owns (c : Thread nD τ) (win1_3.stage (cfg1.slots t 3)) fullShare (iblk1 V c 3 t) := by
  rw [← after1_3]

/-! ## The body obligation, at a generic position -/

/-- What the body is called with at position `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 4000000 in
/-- The body at any position. The inputs' memrefs hold their blocks; the position's residue modulo sixteen says which
    of the three cases it is in. At a position that starts a core's tiles the invariant hands over the scratch at
    anything, elsewhere at what the position before left; the body hands it back at this position's accumulator. The
    output's buffer comes back untouched except at a position that ends a core's tiles, where it holds the accumulator
    re-laid as the output block. The other region's buffers, the generator register and what the core owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ, PhiS1_castSucc]
  rw [leaves1_0, leaves1_1, leaves1_2, leaves1_3]
  have hN : t.val < 32 := lt_of_lt_of_eq t.isLt (show cfg1.N = 32 from N_1)
  by_cases h0 : t.val % 16 = 0
  · have h1 : ¬t.val % 16 = 15 := by omega
    have hc0 : cond1_0 (grid1.coords t) := (hcond1_0 t).mpr h0
    have hc1 : ¬cond1_1 (grid1.coords t) := fun h => h1 ((hcond1_1 t).mp h)
    rw [Dat.leavesExact_idle (dat1 V c) 4 t (idleAt1_4 t hc1) (noFlush1_4 t hc1)]
    rw [accAt1_reset V c t h0]
    iintro ⟨HΦ, Ho, ⟨%d0, H0⟩, ⟨%d1, H1⟩, ⟨%d2, H2⟩, ⟨%d3, H3⟩, ⟨%d4, H4⟩⟩
    ihave ⟨HR, HS, Hg⟩ := (PhiS1_any V c t.val (Nat.le_of_lt t.isLt)) $$ HΦ
    iapply (sound_kernel1_A c Set.univ (grid1.coords t) _ _ _ _ _ _ _ _ _ _ _ _ hc0 hc1
      (iblk1 V c 0 t) (iblk1 V c 1 t) (iblk1 V c 2 t) (iblk1 V c 3 t) ((dat1 V c).before 4 t d4) _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HR HS Hg]
    · isplitl [HR]; · iexact HR
      isplitl [HS]; · iexact HS
      iexact Hg
    isplitl [Ho]; · iexact Ho
    isplitl [H0]; · iexact H0
    isplitl [H1]; · iexact H1
    isplitl [H2]; · iexact H2
    isplitl [H3]; · iexact H3
    iexists d4; iexact H4
  · have hz : t.val ≠ 0 := fun e => h0 (by rw [e])
    have hc0 : ¬cond1_0 (grid1.coords t) := fun h => h0 ((hcond1_0 t).mp h)
    rw [PhiS1_pos V c _ _ hz, accAt1_step V c t h0]
    by_cases h1 : t.val % 16 = 15
    · have hc1 : cond1_1 (grid1.coords t) := (hcond1_1 t).mpr h1
      rw [show (dat1 V c).leavesExact 4 t
          = owns (c : Thread nD τ) (win1_4.stage (cfg1.slots t 4)) fullShare ((dat1 V c).after 4 t) from by
        unfold Dat.leavesExact; rw [liveAt1_4 t hc1], after1_4, accAt1_step V c t h0]
      iintro ⟨⟨HR, HS, Hg⟩, Ho, ⟨%d0, H0⟩, ⟨%d1, H1⟩, ⟨%d2, H2⟩, ⟨%d3, H3⟩, ⟨%d4, H4⟩⟩
      iapply (sound_kernel1_C c Set.univ (grid1.coords t) _ _ _ _ _ _ _ _ _ _ _ _ hc0 hc1
        (iblk1 V c 0 t) (iblk1 V c 1 t) (iblk1 V c 2 t) (iblk1 V c 3 t)
        (accAt1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexact H3
      iexact H4
    · have hc1 : ¬cond1_1 (grid1.coords t) := fun h => h1 ((hcond1_1 t).mp h)
      rw [Dat.leavesExact_idle (dat1 V c) 4 t (idleAt1_4 t hc1) (noFlush1_4 t hc1)]
      iintro ⟨⟨HR, HS, Hg⟩, Ho, ⟨%d0, H0⟩, ⟨%d1, H1⟩, ⟨%d2, H2⟩, ⟨%d3, H3⟩, ⟨%d4, H4⟩⟩
      iapply (sound_kernel1_B c Set.univ (grid1.coords t) _ _ _ _ _ _ _ _ _ _ _ _ hc0 hc1
        (iblk1 V c 0 t) (iblk1 V c 1 t) (iblk1 V c 2 t) (iblk1 V c 3 t) ((dat1 V c).before 4 t d4)
        (accAt1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexact H3
      iexists d4; iexact H4

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 :=
  Idealize.SL.BI.Entails.refl _

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N)
      = PhiS1 V c (Fin.last cfg1.N).val (Nat.le_of_lt_succ (Fin.last cfg1.N).isLt) from rfl]
  exact Idealize.SL.BI.Entails.trans (PhiS1_any V c _ _) (PhiA1_join c)

end Region1

end Cert.KernelIdeal.Hand

end
-- ==== Proof.KI.Chain.lean ====
/- The contents of the core's unscoped buffers at each boundary of the program's items: the launch memory, then each
   stretch of host operations applied, and after each kernel region its arrays at what the pipeline's write-backs leave. -/
import proofs.«416509_j46643344834924_3_alg».proof.Proof.KI.R0Body
import proofs.«416509_j46643344834924_3_alg».proof.Proof.KI.R1Body
import proofs.«416509_j46643344834924_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the first stretch of host operations (indices, degrees). -/
abbrev W1 : Dev nD → Valuation τ sig (Elt F) := fun c => StableHlo.after hostOps0 (W0 m c)
/-- After the second (the guarded inverse square root of the degrees). -/
abbrev W2 : Dev nD → Valuation τ sig (Elt F) := fun c => StableHlo.after hostOps0_1 (W1 m c)
/-- After the third (edge weights, the dense adjacency, the re-laid parameters): region 0's entry. -/
abbrev W3 : Dev nD → Valuation τ sig (Elt F) := fun c => StableHlo.after hostOps0_2 (W2 m c)
/-- The same read at the TensorCore's references: what region 0's proof data take. -/
abbrev E0 : (c : Dev nD) → (b : Ref sig .tc) → Buf (Elt F) ((c : Thread nD τ).loc b) := fun c b => W3 m c b
/-- At region 0's exit: its arrays at what the pipeline leaves, every other buffer as entered. -/
def W4 (c : Dev nD) : Valuation τ sig (Elt F) :=
  Pipeline.withArrays spec0 c (W3 m c) fun w => (dat0 (E0 m) c).arrAt w cfg0.N
/-- After the host operation between the regions (the re-laid first-layer bias): region 1's entry. -/
abbrev W5 : Dev nD → Valuation τ sig (Elt F) := fun c => StableHlo.after hostOps1 (W4 m c)
abbrev E1 : (c : Dev nD) → (b : Ref sig .tc) → Buf (Elt F) ((c : Thread nD τ).loc b) := fun c b => W5 m c b
/-- At region 1's exit. -/
def W6 (c : Dev nD) : Valuation τ sig (Elt F) :=
  Pipeline.withArrays spec1 c (W5 m c) fun w => (dat1 (E1 m) c).arrAt w cfg1.N
/-- After the host operations that add the two cores' partial results and the bias. -/
abbrev W7 : Dev nD → Valuation τ sig (Elt F) := fun c => StableHlo.after hostOps2 (W6 m c)
/-- After the log-softmax: the end. -/
abbrev W8 : Dev nD → Valuation τ sig (Elt F) := fun c => StableHlo.after hostOps2_1 (W7 m c)

theorem W4_arr (c : Dev nD) (w : Fin cfg0.W) :
    W4 m c (Proc.devRef .tc (Pipeline.arrRef spec0 w)) = (dat0 (E0 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem W6_arr (c : Dev nD) (w : Fin cfg1.W) :
    W6 m c (Proc.devRef .tc (Pipeline.arrRef spec1 w)) = (dat1 (E1 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb

end Cert.KernelIdeal.Hand

end
-- ==== Proof.KI.Run.lean ====
/- The run of the whole program: its items as segments (host stretches and the two kernel regions), the launch, and what
   every unscoped buffer holds at the end; the frame claim read off it. -/
import proofs.«416509_j46643344834924_3_alg».proof.Proof.KI.Chain
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each item leaves unchanged -/

theorem W1_of (c : Dev nD) (r : Ref sig .tc) (h : r ∉ hostOps0_W) :
    W1 m c (Proc.devRef .tc r) = W0 m c (Proc.devRef .tc r) :=
  StableHlo.after_of_writes_sub hostOps0 _ hostOps0_writes h
theorem W2_of (c : Dev nD) (r : Ref sig .tc) (h : r ∉ hostOps0_1_W) :
    W2 m c (Proc.devRef .tc r) = W1 m c (Proc.devRef .tc r) :=
  StableHlo.after_of_writes_sub hostOps0_1 _ hostOps0_1_writes h
theorem W3_of (c : Dev nD) (r : Ref sig .tc) (h : r ∉ hostOps0_2_W) :
    W3 m c (Proc.devRef .tc r) = W2 m c (Proc.devRef .tc r) :=
  StableHlo.after_of_writes_sub hostOps0_2 _ hostOps0_2_writes h
theorem W5_of (c : Dev nD) (r : Ref sig .tc) (h : r ∉ hostOps1_W) :
    W5 m c (Proc.devRef .tc r) = W4 m c (Proc.devRef .tc r) :=
  StableHlo.after_of_writes_sub hostOps1 _ hostOps1_writes h
theorem W7_of (c : Dev nD) (r : Ref sig .tc) (h : r ∉ hostOps2_W) :
    W7 m c (Proc.devRef .tc r) = W6 m c (Proc.devRef .tc r) :=
  StableHlo.after_of_writes_sub hostOps2 _ hostOps2_writes h
theorem W8_of (c : Dev nD) (r : Ref sig .tc) (h : r ∉ hostOps2_1_W) :
    W8 m c (Proc.devRef .tc r) = W7 m c (Proc.devRef .tc r) :=
  StableHlo.after_of_writes_sub hostOps2_1 _ hostOps2_1_writes h

/-- Region 0 only reads an input window's array: it leaves the region as it entered. -/
theorem W4_in (c : Dev nD) (w : Fin cfg0.W) (hin : (cfg0.win w).isOut = false) :
    W4 m c (Proc.devRef .tc (Pipeline.arrRef spec0 w)) = W3 m c (Proc.devRef .tc (Pipeline.arrRef spec0 w)) :=
  (W4_arr m c w).trans (((dat0 (E0 m) c).arrAt_in w hin _).trans (A_eq0 (E0 m) c w))
/-- The same for region 1. -/
theorem W6_in (c : Dev nD) (w : Fin cfg1.W) (hin : (cfg1.win w).isOut = false) :
    W6 m c (Proc.devRef .tc (Pipeline.arrRef spec1 w)) = W5 m c (Proc.devRef .tc (Pipeline.arrRef spec1 w)) :=
  (W6_arr m c w).trans (((dat1 (E1 m) c).arrAt_in w hin _).trans (A_eq1 (E1 m) c w))

/-- A reference no host operation writes and no window of either region has as its array keeps its launch contents. -/
theorem W8_bypass (c : Dev nD) (r : Ref sig .tc) (h0 : r ∉ hostOps0_W) (h1 : r ∉ hostOps0_1_W) (h2 : r ∉ hostOps0_2_W)
    (h3 : ∀ w, Pipeline.arrRef spec0 w ≠ r) (h4 : r ∉ hostOps1_W) (h5 : ∀ w, Pipeline.arrRef spec1 w ≠ r)
    (h6 : r ∉ hostOps2_W) (h7 : r ∉ hostOps2_1_W) :
    W8 m c (Proc.devRef .tc r) = m ((c : Thread nD τ).loc r) :=
  (W8_of m c r h7).trans <| (W7_of m c r h6).trans <| (W6_of_ne m c r h5).trans <| (W5_of m c r h4).trans <|
    (W4_of_ne m c r h3).trans <| (W3_of m c r h2).trans <| (W2_of m c r h1).trans <| (W1_of m c r h0).trans rfl

/-- An input array of region 0 that nothing else touches. -/
theorem W8_in0 (c : Dev nD) (w : Fin cfg0.W) (hin : (cfg0.win w).isOut = false)
    (h0 : Pipeline.arrRef spec0 w ∉ hostOps0_W) (h1 : Pipeline.arrRef spec0 w ∉ hostOps0_1_W) (h2 : Pipeline.arrRef spec0 w ∉ hostOps0_2_W)
    (h4 : Pipeline.arrRef spec0 w ∉ hostOps1_W) (h5 : ∀ w', Pipeline.arrRef spec1 w' ≠ Pipeline.arrRef spec0 w)
    (h6 : Pipeline.arrRef spec0 w ∉ hostOps2_W) (h7 : Pipeline.arrRef spec0 w ∉ hostOps2_1_W) :
    W8 m c (Proc.devRef .tc (Pipeline.arrRef spec0 w)) = m ((c : Thread nD τ).loc (Pipeline.arrRef spec0 w)) :=
  (W8_of m c _ h7).trans <| (W7_of m c _ h6).trans <| (W6_of_ne m c _ h5).trans <| (W5_of m c _ h4).trans <|
    (W4_in m c w hin).trans <| (W3_of m c _ h2).trans <| (W2_of m c _ h1).trans <| (W1_of m c _ h0).trans rfl

/-- An input array of region 1 that nothing else touches. -/
theorem W8_in1 (c : Dev nD) (w : Fin cfg1.W) (hin : (cfg1.win w).isOut = false)
    (h0 : Pipeline.arrRef spec1 w ∉ hostOps0_W) (h1 : Pipeline.arrRef spec1 w ∉ hostOps0_1_W) (h2 : Pipeline.arrRef spec1 w ∉ hostOps0_2_W)
    (h3 : ∀ w', Pipeline.arrRef spec0 w' ≠ Pipeline.arrRef spec1 w) (h4 : Pipeline.arrRef spec1 w ∉ hostOps1_W)
    (h6 : Pipeline.arrRef spec1 w ∉ hostOps2_W) (h7 : Pipeline.arrRef spec1 w ∉ hostOps2_1_W) :
    W8 m c (Proc.devRef .tc (Pipeline.arrRef spec1 w)) = m ((c : Thread nD τ).loc (Pipeline.arrRef spec1 w)) :=
  (W8_of m c _ h7).trans <| (W7_of m c _ h6).trans <| (W6_in m c w hin).trans <| (W5_of m c _ h4).trans <|
    (W4_of_ne m c _ h3).trans <| (W3_of m c _ h2).trans <| (W2_of m c _ h1).trans <| (W1_of m c _ h0).trans rfl

/-- No item writes an argument array: each reaches the end as launched. -/
theorem W8_arg (c : Dev nD) (b : Ref sig .tc)
    (hb : b ∈ ([main_arg0, main_arg1, main_arg2, main_arg3, main_arg4, main_arg5, main_arg6, main_arg7, main_arg8, main_arg9] : List (Ref sig .tc))) :
    W8 m c (Proc.devRef .tc b) = m ((c : Thread nD τ).loc b) := by
  simp only [List.mem_cons, List.not_mem_nil, or_false] at hb
  rcases hb with rfl | rfl | rfl | rfl | rfl | rfl | rfl | rfl | rfl | rfl
  · exact W8_in0 m c 0 rfl (by decide) (by decide) (by decide) (by decide) (by decide) (by decide) (by decide)
  · exact W8_bypass m c main_arg1 (by decide) (by decide) (by decide) (by decide) (by decide) (by decide) (by decide) (by decide)
  · exact W8_in0 m c 2 rfl (by decide) (by decide) (by decide) (by decide) (by decide) (by decide) (by decide)
  · exact W8_bypass m c main_arg3 (by decide) (by decide) (by decide) (by decide) (by decide) (by decide) (by decide) (by decide)
  · exact W8_bypass m c main_arg4 (by decide) (by decide) (by decide) (by decide) (by decide) (by decide) (by decide) (by decide)
  · exact W8_bypass m c main_arg5 (by decide) (by decide) (by decide) (by decide) (by decide) (by decide) (by decide) (by decide)
  · exact W8_in1 m c 1 rfl (by decide) (by decide) (by decide) (by decide) (by decide) (by decide) (by decide)
  · exact W8_bypass m c main_arg7 (by decide) (by decide) (by decide) (by decide) (by decide) (by decide) (by decide) (by decide)
  · exact W8_in1 m c 3 rfl (by decide) (by decide) (by decide) (by decide) (by decide) (by decide) (by decide)
  · exact W8_bypass m c main_arg9 (by decide) (by decide) (by decide) (by decide) (by decide) (by decide) (by decide) (by decide)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the core's generator register at some state and its dues, at nothing. -/
abbrev R (c : Dev nD) : sProp 𝕄 := iprop((∃ r, prngReg c r) ∗ ∃ W, owes (c : Thread nD τ) (0 : CellTallies nD τ sig Unit) W)

/-- A stretch of host operations as a segment over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the dues: every unscoped buffer at the last boundary's contents, the generator
    register at some state. -/
abbrev Tₙ (c : Dev nD) : sProp 𝕄 := iprop(StableHlo.held (c : Thread nD τ) (Pipeline.ucRefs τ sig) (W8 m c) ∗ ∃ r, prngReg c r)

/-- Region 0's exit contents read at the TensorCore's references, and region 1's. -/
abbrev X0 : (c : Dev nD) → (b : Ref sig .tc) → Buf (Elt F) ((c : Thread nD τ).loc b) := fun c b => W4 m c b
abbrev X1 : (c : Dev nD) → (b : Ref sig .tc) → Buf (Elt F) ((c : Thread nD τ).loc b) := fun c b => W6 m c b

theorem hF0 (c : Dev nD) (w : Fin cfg0.W) : (dat0 (E0 m) c).arrAt w cfg0.N = X0 m c (Pipeline.arrRef spec0 w) :=
  (W4_arr m c w).symm
theorem hrest0 (c : Dev nD) : ∀ b, b ∉ Finset.univ.image (Pipeline.arrRef spec0) → X0 m c b = E0 m c b :=
  fun b hb => W4_of_ne m c b fun w e => hb (Finset.mem_image.mpr ⟨w, Finset.mem_univ _, e⟩)
theorem hF1 (c : Dev nD) (w : Fin cfg1.W) : (dat1 (E1 m) c).arrAt w cfg1.N = X1 m c (Pipeline.arrRef spec1 w) :=
  (W6_arr m c w).symm
theorem hrest1 (c : Dev nD) : ∀ b, b ∉ Finset.univ.image (Pipeline.arrRef spec1) → X1 m c b = E1 m c b :=
  fun b hb => W6_of_ne m c b fun w e => hb (Finset.mem_image.mpr ⟨w, Finset.mem_univ _, e⟩)

/-! ## The regions as segments -/

set_option backward.isDefEq.respectTransparency.types false in
/-- REGION 0 over the thread state: entered from every unscoped buffer at `W3`, left at `W4`. Its arrays are split
    out of the unscoped buffers and put back at the exit contents; the generator register goes into the invariant and
    comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W5`, left at `W6`. As region 0, but its
    invariant names the accumulator between points: what the region is entered with gives the invariant before the
    first point, and after the last point the invariant gives it back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E1 m) c)
    unfold Pipeline.ΦA
    iintro ⟨Hp, -, Hr⟩
    isplitl [Hr]; · iexact Hr
    iexact Hp
  hout c := by
    refine BIBase.Entails.trans (hout1 (E1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's eight items in order: a host segment per stretch from its boundary's contents, a region per kernel. -/
abbrev items : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .host (hseg hostOps2_1 hostOps2_1_sub hostOps2_1_fresh (W7 m)) ]

/-- The program IS the run of the items: both are the chain of the same eight fragments. -/
theorem main_run (c : Dev nD) : main (F := F) c = Pipeline.Seg.run (items m) := by
  rw [main_chain c, Pipeline.Seg.run_eq_chain]; rfl

/-- After the last item the buffers, the generator register and the dues regroup as the launch reads them. -/
theorem last_step (c : Dev nD) :
    (iprop(StableHlo.held (c : Thread nD τ) (Pipeline.ucRefs τ sig) (W8 m c) ∗ R c) : sProp 𝕄)
      ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- THE RUN. From any memory with zero counters every weakly fair execution of the program terminates, nothing
    faulting, and every unscoped buffer of every core ends at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W8 m c b) := by
  refine Pipeline.θ_run_regions_kit_dev (pcfgs (F := F)) adm (pdats m) () cellOf_inj emb₁ defs₀ 𝒱₀ L lv m ρ main (fun _ => items m)
    (fun c Q => by rw [main_run m c])
    (fun c => by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, .rfl, .rfl, last_step m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun _ h => h)

/-- An unscoped TensorCore reference is among those the run accounts for. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the program runs and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W8_arg m c main_arg0 (by decide)),
     (h c _ (mem_uc main_arg1 (by decide))).trans (W8_arg m c main_arg1 (by decide)),
     (h c _ (mem_uc main_arg2 (by decide))).trans (W8_arg m c main_arg2 (by decide)),
     (h c _ (mem_uc main_arg3 (by decide))).trans (W8_arg m c main_arg3 (by decide)),
     (h c _ (mem_uc main_arg4 (by decide))).trans (W8_arg m c main_arg4 (by decide)),
     (h c _ (mem_uc main_arg5 (by decide))).trans (W8_arg m c main_arg5 (by decide)),
     (h c _ (mem_uc main_arg6 (by decide))).trans (W8_arg m c main_arg6 (by decide)),
     (h c _ (mem_uc main_arg7 (by decide))).trans (W8_arg m c main_arg7 (by decide)),
     (h c _ (mem_uc main_arg8 (by decide))).trans (W8_arg m c main_arg8 (by decide)),
     (h c _ (mem_uc main_arg9 (by decide))).trans (W8_arg m c main_arg9 (by decide))⟩) (run_all m ρ)

end Cert.KernelIdeal.Hand

end
-- ==== Proof.Val.DefsK.lean ====
/- Kernel-side notions at the exact instance that mention no other program: arrays, the row reading of a vector, each
   core's partial logits, the logits. -/
import proofs.«416509_j46643344834924_3_alg».proof.Proof.KI.Chain
import Idealize.ShloMosaic.Lib.ValueIdx
import Idealize.ShloMosaic.Lib.Pipeline.Value
import Idealize.ShloMosaic.PureOps.Ideal.Laws
import Idealize.ShloMosaic.Lib.StableHlo.Run

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL.Sem

/-- A float array of shape `s` and format `φ` at the exact instance: its entries are extended reals. -/
abbrev Arr (s : Shape) (φ : FTy) := FVec Ideal s φ
/-- An integer array of shape `s` and width `w`. -/
abbrev IArr (s : Shape) (w : Nat) := IVec s w

/-- A vector of 8192 entries read as one row. -/
def rs1 (x : Arr S8192 .f32) : Arr S1x8192 .f32 := shapeCast _ x shapeCasts_S8192_S1x8192

/-- EACH CORE'S PARTIAL LOGITS the second kernel writes: core `cc`'s row is what the accumulator holds after the
    last of its sixteen tiles. -/
def outK (V : (c : Dev nD) → (b : Ref sig .tc) → Buf (Elt Ideal) ((c : Thread nD τ).loc b)) (c : Dev nD) : Arr S2x1x729 .f32 :=
  fun i => accAt1 (F := Ideal) V c (16 * (i 0).val + 15)
    (by have h : (i 0).val < 2 := (i 0).isLt; have hN : cfg1.N = 32 := N_1; omega) (ix2 0 (i 2))

/-- THE LOGITS: the two cores' rows added, then the output bias, as one row. -/
def logitsK (o : Arr S2x1x729 .f32) (x9 : Arr S729 .f32) : Arr S1x729 .f32 :=
  shapeCast _ (addf (addf
      (shapeCast _ (extractStridedSlice S1x1x729 ![0, 0, 0] o slices_S2x1x729_S1x1x729_0_0_0) shapeCasts_S1x1x729_S729 : Arr S729 .f32)
      (shapeCast _ (extractStridedSlice S1x1x729 ![1, 0, 0] o slices_S2x1x729_S1x1x729_1_0_0) shapeCasts_S1x1x729_S729 : Arr S729 .f32))
    x9) shapeCasts_S729_S1x729

end Cert.KernelIdeal.HandV

end
-- ==== Proof.Val.Pre.lean ====
/- What the precondition says of the arguments: the feature and weight arrays hold real numbers, and every entry of the
   edge list is a node index. -/
import proofs.«416509_j46643344834924_3_alg».proof.Proof.Val.DefsK
import proofs.«416509_j46643344834924_3_alg».proof.Defs
import proofs.«416509_j46643344834924_3_alg».proof.Proof.Gen.Pre_finite_inputs
import Idealize.ShloMosaic.Lib.ReduceAll
import Idealize.ShloMosaic.Lib.StableHlo.Predicate

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL.Sem

variable [hPre : Cert.Pre_finite_inputs.Facts]
variable (m : (ℓ : Loc nD τ sig) → Buf (Elt Ideal) ℓ) (hp : Cert.Pre_KernelIdeal m) (c : Dev nD)

/-- The result of a reduction over every axis has one index. -/
instance pre_idx_subsingleton : Subsingleton Cert.Pre_finite_inputs.S_.Idx := ⟨fun a b => funext fun d => d.elim0⟩

/-- The word 0x7F800000 denotes +∞. -/
theorem pre_inf_word : Ideal.ofBits .f32 0x7F800000#32 = (⊤ : EReal) := by simp [Ideal.ofBits, Ideal.ieee]

/-- An extended real whose absolute value max(x, −x) is strictly below +∞ is a real number: at −∞ and at +∞ the
    absolute value is +∞ itself. -/
theorem pre_real_of_abs_lt (x : EReal) (h : Ideal.cmp .olt (max x (-x)) (Ideal.ofBits .f32 0x7F800000#32) = 1#1) :
    ∃ r : ℝ, x = (r : EReal) := by
  rw [pre_inf_word] at h
  induction x using EReal.rec with
  | bot => simp [Ideal.cmp] at h
  | coe r => exact ⟨r, rfl⟩
  | top => simp [Ideal.cmp] at h

/-- If "all |x| < +∞" over a float array is true, every entry of the array is a real number. -/
theorem pre_real_of_all {s : Shape} {axes : List (Fin s.rank)} (x : FVec Ideal s .f32)
    (hb : Cert.Pre_finite_inputs.S_.BroadcastsInDim s ![]) (hr : s.ReducesTo axes Cert.Pre_finite_inputs.S_)
    (h0 : 0 < Cert.Pre_finite_inputs.S_.numel) (init : IVec Cert.Pre_finite_inputs.S_ 1)
    (e : Host.reduce IntOp.andi (cmpf .olt (Host.absf x)
        (broadcastInDim s ![] hb (constant (F := Ideal) Cert.Pre_finite_inputs.S_ .f32 0x7F800000#32))) init hr h0 ix0 = 1#1)
    (i : s.Idx) : ∃ r : ℝ, x i = (r : EReal) :=
  pre_real_of_abs_lt _ (Host.reduce_andi_all _ _ _ _ _ e i)

/-- If "all x ≥ k" (signed) over an integer array is true, every entry read signed is at least k. -/
theorem pre_ge_of_all {s : Shape} {axes : List (Fin s.rank)} (x : IVec s 32) (k : BitVec 32)
    (hb : Cert.Pre_finite_inputs.S_.BroadcastsInDim s ![]) (hr : s.ReducesTo axes Cert.Pre_finite_inputs.S_)
    (h0 : 0 < Cert.Pre_finite_inputs.S_.numel) (init : IVec Cert.Pre_finite_inputs.S_ 1)
    (e : Host.reduce IntOp.andi (cmpi .sge x (broadcastInDim s ![] hb (constantI Cert.Pre_finite_inputs.S_ 32 k))) init hr h0 ix0 = 1#1)
    (i : s.Idx) : k.toInt ≤ (x i).toInt :=
  IntOp.cmpi_sge.1 (Host.reduce_andi_all _ _ _ _ _ e i)

/-- If "all x < k" (signed) over an integer array is true, every entry read signed is below k. -/
theorem pre_lt_of_all {s : Shape} {axes : List (Fin s.rank)} (x : IVec s 32) (k : BitVec 32)
    (hb : Cert.Pre_finite_inputs.S_.BroadcastsInDim s ![]) (hr : s.ReducesTo axes Cert.Pre_finite_inputs.S_)
    (h0 : 0 < Cert.Pre_finite_inputs.S_.numel) (init : IVec Cert.Pre_finite_inputs.S_ 1)
    (e : Host.reduce IntOp.andi (cmpi .slt x (broadcastInDim s ![] hb (constantI Cert.Pre_finite_inputs.S_ 32 k))) init hr h0 ix0 = 1#1)
    (i : s.Idx) : (x i).toInt < k.toInt :=
  IntOp.cmpi_slt.1 (Host.reduce_andi_all _ _ _ _ _ e i)

include hp

/-- The precondition is a conjunction of eleven "all" tests, one per float argument and two on the edge list; taken
    apart, the tests on the node features, on the convolution's weights and the two on the edge list say: -/
theorem pre_split :
    ((∀ i, ∃ r : ℝ, (m ((c.tc : Thread nD τ).loc main_arg0) : Arr S81x10 .f32) i = (r : EReal))
      ∧ (∀ i, ∃ r : ℝ, (m ((c.tc : Thread nD τ).loc main_arg2) : Arr S10x8192 .f32) i = (r : EReal)))
    ∧ (∀ i, (0#32 : BitVec 32).toInt ≤ ((m ((c.tc : Thread nD τ).loc main_arg1) : IArr S2x1620 32) i).toInt)
    ∧ (∀ i, ((m ((c.tc : Thread nD τ).loc main_arg1) : IArr S2x1620 32) i).toInt < (81#32 : BitVec 32).toInt) := by
  have e := congrFun (hp c) ix0
  dsimp only [Cert.Pre_finite_inputs.fn, Cert.Pre_finite_inputs.fn_part1, Cert.Pre_finite_inputs.fn_part2,
    Cert.Pre_finite_inputs.fn_part3] at e
  simp only [andi, IntOp.andi_eq_one] at e
  obtain ⟨⟨⟨⟨⟨⟨⟨⟨⟨⟨h0, h2⟩, -⟩, -⟩, -⟩, -⟩, -⟩, -⟩, -⟩, hge⟩, hlt⟩ := e
  exact ⟨⟨pre_real_of_all _ _ _ _ _ h0, pre_real_of_all _ _ _ _ _ h2⟩, pre_ge_of_all _ _ _ _ _ _ hge, pre_lt_of_all _ _ _ _ _ _ hlt⟩

/-- Every entry of the node features is a real number. -/
theorem pre_x0 : ∀ i, ∃ r : ℝ, (m ((c.tc : Thread nD τ).loc main_arg0) : Arr S81x10 .f32) i = (r : EReal) :=
  (pre_split m hp c).1.1

/-- Every entry of the convolution's weights is a real number. -/
theorem pre_x2 : ∀ i, ∃ r : ℝ, (m ((c.tc : Thread nD τ).loc main_arg2) : Arr S10x8192 .f32) i = (r : EReal) :=
  (pre_split m hp c).1.2

/-- Every entry of the edge list, read as a signed integer, is a node index: at least 0 and below 81. -/
theorem pre_x1 : ∀ i, 0 ≤ ((m ((c.tc : Thread nD τ).loc main_arg1) : IArr S2x1620 32) i).toInt
    ∧ ((m ((c.tc : Thread nD τ).loc main_arg1) : IArr S2x1620 32) i).toInt < 81 :=
  fun i => ⟨(pre_split m hp c).2.1 i, (pre_split m hp c).2.2 i⟩

end Cert.KernelIdeal.HandV

end
-- ==== Proof.Ref.Imports.lean ====
/- The reference's stages, read at an index. -/
import proofs.«416509_j46643344834924_3_alg».proof.Proof.Ref.ReadP
-- ==== Proof.Val.Defs.lean ====
/- The stages of the kernel's computation that are stated over the reference's own stages: the dense normalised
   adjacency, the aggregate, the pooled features. -/
import proofs.«416509_j46643344834924_3_alg».proof.Proof.Val.DefsK
import proofs.«416509_j46643344834924_3_alg».proof.Proof.Ref.Imports

set_option maxRecDepth 16384

noncomputable section

namespace Cert.KernelIdeal.HandV

open Cert.KernelIdeal Cert.KernelIdeal.Gen Cert.KernelIdeal.Hand
open Cert.ReferenceIdeal.ReadP
open Idealize.ShloMosaic Idealize.ShloMosaic.TcCoe Idealize.ShloMosaic.ValueIdx
open Idealize.SL.Sem

/-- THE DENSE ADJACENCY the kernel's program builds before its first kernel: into an 81 x 81 array of zeros, the
    weight of each of the 1701 edges (the 1620 given ones and the 81 self-loops) added at (target, source). The
    wrapped target and source vectors and the weights are the very operations the reference applies to the edge list. -/
def adjK (x1 : IArr S2x1620 32) : Arr S81x81 .f32 :=
  Host.scatterAdd scatter_S81x81_S1701x2_S1701_n_01_01_1
    (broadcastInDim S81x81 ![] bcast_S_S81x81 (constant (F := Ideal) S_ .f32 0x00000000#32))
    (concatenate S1701x2 1
      [⟨S1701x1, broadcastInDim S1701x1 ![0] bcast_S1701_S1701x1_0 (val_main_v51 (F := Ideal) x1)⟩,
       ⟨S1701x1, broadcastInDim S1701x1 ![0] bcast_S1701_S1701x1_0 (val_main_v40 (F := Ideal) x1)⟩]
      concatenates_S1701x1_S1701x1_S1701x2_d1)
    (val_main_v35 (F := Ideal) x1)

/-- THE AGGREGATE inside the first kernel: adjacency times (features times weights), both products into zero. -/
def aggK (x0 : Arr S81x10 .f32) (x1 : IArr S2x1620 32) (x2 : Arr S10x8192 .f32) : FVec Ideal S81x8192 .f32 :=
  matmul dot_S81x81_S81x8192_S81x8192_1_0_0_1_n_n none
    (truncf .bf16 (shapeCast S81x81 (adjK x1) shapeCasts_S81x81_S81x81) bitsLt_bf16_f32)
    (truncf .bf16 (matmul dot_S81x10_S10x8192_S81x8192_1_0_0_1_n_n none (truncf .bf16 x0 bitsLt_bf16_f32) (truncf .bf16 x2 bitsLt_bf16_f32)
      (constant S81x8192 .f32 0x00000000#32)) bitsLt_bf16_f32)
    (constant S81x8192 .f32 0x00000000#32)

/-- THE POOLED FEATURES the first kernel writes: bias, rectifier, row normalisation, scale and shift, column sums. -/
def gK (x0 : Arr S81x10 .f32) (x1 : IArr S2x1620 32) (x2 : Arr S10x8192 .f32) (x3 x4 x5 : Arr S8192 .f32) : Arr S1x8192 .f32 :=
  out0_6 (F := Ideal) x0 (adjK x1) x2 (rs1 x3) (rs1 x4) (rs1 x5)

end Cert.KernelIdeal.HandV

end
-- ==== Proof.Val.Host.lean ====
/- What the host operations around the two kernels compute: the arrays each kernel is entered with, and the tail that
   turns the second kernel's output into the result. -/
import proofs.«416509_j46643344834924_3_alg».proof.Proof.Val.Defs

set_option maxRecDepth 16384

noncomputable section

namespace Cert.KernelIdeal.HandV

open Cert.KernelIdeal Cert.KernelIdeal.Gen Cert.KernelIdeal.Hand
open Cert.ReferenceIdeal.ReadP
open Idealize.ShloMosaic Idealize.ShloMosaic.TcCoe Idealize.ShloMosaic.ValueIdx
open Idealize.SL.Sem

variable (m : (ℓ : Loc nD τ sig) → Buf (Elt Ideal) ℓ) (c : Dev nD)

/-- The row's entries less their maximum (the maximum taken against minus infinity, as the programs do). -/
def lsmShift (z : Arr S1x729 .f32) : Arr S1x729 .f32 :=
  subf z (broadcastInDim S1x729 ![0, 1] bcast_S1x1_S1x729_0_1 (broadcastInDim S1x1 ![0] bcast_S1_S1x1_0
    (maximumf (broadcastInDim S1 ![] bcast_S_S1 (constant (F := Ideal) S_ .f32 0xFF800000#32))
      (Host.reduce (FloatOps.maximumf (F := Ideal)) z (constant (F := Ideal) S_ .f32 0xFF800000#32) reducesTo_S1x729_S1_d1 h_S_))))

/-- The log-softmax both programs end with, as one function of the logits (the same operations in both). -/
def lsm (z : Arr S1x729 .f32) : Arr S1x729 .f32 :=
  subf (lsmShift z) (broadcastInDim S1x729 ![0, 1] bcast_S1x1_S1x729_0_1 (Host.log (F := Ideal) (broadcastInDim S1x1 ![0] bcast_S1_S1x1_0
    (Host.reduceAdd (F := Ideal) (Host.exp (F := Ideal) (lsmShift z)) (constant (F := Ideal) S_ .f32 0x00000000#32) reducesTo_S1x729_S1_d1 h_S_))))

/-! ### The host stretches, each read at the references the next item takes

Each stretch is read from an arbitrary valuation `V` of the buffers it starts from: what it leaves at a reference is the
operations' term over `V` at the references it reads. A stretch is cut where a joined list is made: the operations up
to the join, then the rest from what those leave. -/
section Stretches

variable {F : FTy → Type} [FloatOps F] (V : Valuation τ sig (Elt F))

/-- Running a list of operations is running its first `n`, then the others from what those leave. -/
theorem after_cut (n : Nat) (l : List (HloOp τ sig (Elt F))) : StableHlo.after l V = StableHlo.after (l.drop n) (StableHlo.after (l.take n) V) := by
  have happ : ∀ (l₁ l₂ : List (HloOp τ sig (Elt F))) (U : Valuation τ sig (Elt F)),
      StableHlo.after (l₁ ++ l₂) U = StableHlo.after l₂ (StableHlo.after l₁ U) := by
    intro l₁
    induction l₁ with
    | nil => intro l₂ U; rfl
    | cons op l₁ ih => intro l₂ U; exact ih l₂ _
  rw [← happ, List.take_append_drop]

/-- The first stretch leaves the source list (the given sources, then each node once) … -/
theorem s0_src : StableHlo.after hostOps0 V (Proc.devRef .tc main_v3) = val_main_v3 (F := F) (V (Proc.devRef .tc main_arg1)) := by
  after_results; rfl
/-- … the target list … -/
theorem s0_dst : StableHlo.after hostOps0 V (Proc.devRef .tc main_v6) = val_main_v6 (F := F) (V (Proc.devRef .tc main_arg1)) := by
  after_results; rfl
/-- … and a zero. -/
theorem s0_zero : StableHlo.after hostOps0 V (Proc.devRef .tc main_cst_3) = val_main_cst_3 (F := F) := by
  after_results; rfl

variable (x1 : (⟨S2x1620, .i32⟩ : BufTy).Contents (Elt F))

/-- The target list as the first seven operations leave it. -/
theorem s0a_dst : StableHlo.after (hostOps0.take 7) V (Proc.devRef .tc main_v6) = val_main_v6 (F := F) (V (Proc.devRef .tc main_arg1)) := by
  simp only [hostOps0, List.take_succ_cons, List.take_zero]
  after_results; rfl
/-- From the target list, the operations after the seventh make: where the degree (counted over targets) is positive … -/
theorem s0b_pos (hd : V (Proc.devRef .tc main_v6) = val_main_v6 (F := F) x1) :
    StableHlo.after (hostOps0.drop 7) V (Proc.devRef .tc main_v17) = val_main_v18 (F := F) x1 := by
  simp only [hostOps0, List.drop_succ_cons, List.drop_zero]
  after_results_simp; rw [hd]; rfl
/-- … and the inverse square root of the degree. -/
theorem s0b_rsqrt (hd : V (Proc.devRef .tc main_v6) = val_main_v6 (F := F) x1) :
    StableHlo.after (hostOps0.drop 7) V (Proc.devRef .tc main_v18) = val_main_v19 (F := F) x1 := by
  simp only [hostOps0, List.drop_succ_cons, List.drop_zero]
  after_results_simp; rw [hd]; rfl
theorem s0_pos : StableHlo.after hostOps0 V (Proc.devRef .tc main_v17) = val_main_v18 (F := F) (V (Proc.devRef .tc main_arg1)) := by
  rw [after_cut V 7 hostOps0]; exact s0b_pos _ _ (s0a_dst V)
theorem s0_rsqrt : StableHlo.after hostOps0 V (Proc.devRef .tc main_v18) = val_main_v19 (F := F) (V (Proc.devRef .tc main_arg1)) := by
  rw [after_cut V 7 hostOps0]; exact s0b_rsqrt _ _ (s0a_dst V)

/-- The second stretch: the inverse square root where the degree is positive, zero elsewhere. -/
theorem s1_dinv (hp : V (Proc.devRef .tc main_v17) = val_main_v18 (F := F) x1) (hr : V (Proc.devRef .tc main_v18) = val_main_v19 (F := F) x1)
    (hz : V (Proc.devRef .tc main_cst_3) = val_main_cst_3 (F := F)) :
    StableHlo.after hostOps0_1 V (Proc.devRef .tc main_v19) = val_main_v20 (F := F) x1 := by
  after_results; rw [hp, hr, hz]; rfl

section Third
variable (hs : V (Proc.devRef .tc main_v3) = val_main_v3 (F := F) x1) (hd : V (Proc.devRef .tc main_v6) = val_main_v6 (F := F) x1)
  (hv : V (Proc.devRef .tc main_v19) = val_main_v20 (F := F) x1)
include hs hd hv

/-- The third stretch up to its joined index list leaves: the edge weights (the product of the two ends' inverse square roots) … -/
theorem s2a_w : StableHlo.after (hostOps0_2.take 37) V (Proc.devRef .tc main_v34) = val_main_v35 (F := F) x1 := by
  simp only [hostOps0_2, List.take_succ_cons, List.take_zero]
  after_results_simp; rw [hs, hd, hv]; rfl
/-- … the wrapped targets as a column … -/
theorem s2a_dst : StableHlo.after (hostOps0_2.take 37) V (Proc.devRef .tc main_v46)
    = broadcastInDim S1701x1 ![0] bcast_S1701_S1701x1_0 (val_main_v51 (F := F) x1) := by
  simp only [hostOps0_2, List.take_succ_cons, List.take_zero]
  after_results_simp; rw [hd]; rfl
/-- … the wrapped sources as a column … -/
theorem s2a_src : StableHlo.after (hostOps0_2.take 37) V (Proc.devRef .tc main_v47)
    = broadcastInDim S1701x1 ![0] bcast_S1701_S1701x1_0 (val_main_v40 (F := F) x1) := by
  simp only [hostOps0_2, List.take_succ_cons, List.take_zero]
  after_results_simp; rw [hs]; rfl
omit hs hd hv in
/-- … and an 81 x 81 array of zeros. -/
theorem s2a_zero : StableHlo.after (hostOps0_2.take 37) V (Proc.devRef .tc main_v35)
    = broadcastInDim S81x81 ![] bcast_S_S81x81 (constant (F := F) S_ .f32 0x00000000#32) := by
  simp only [hostOps0_2, List.take_succ_cons, List.take_zero]
  after_results_simp

omit hs hd hv in
/-- The rest of the third stretch joins the two columns and scatter-adds the weights into the zeros. -/
theorem s2b_adj : StableHlo.after (hostOps0_2.drop 37) V (Proc.devRef .tc main_v49)
    = Host.scatterAdd scatter_S81x81_S1701x2_S1701_n_01_01_1 (V (Proc.devRef .tc main_v35))
        (concatenate S1701x2 1 [⟨S1701x1, V (Proc.devRef .tc main_v46)⟩, ⟨S1701x1, V (Proc.devRef .tc main_v47)⟩] concatenates_S1701x1_S1701x1_S1701x2_d1)
        (V (Proc.devRef .tc main_v34)) := by
  simp only [hostOps0_2, List.drop_succ_cons, List.drop_zero]
  after_results

/-- The third stretch's scatter-add: into zeros, at (wrapped target, wrapped source), the product of the two ends'
    inverse square roots. -/
theorem s2_adj :
    StableHlo.after hostOps0_2 V (Proc.devRef .tc main_v49)
      = Host.scatterAdd scatter_S81x81_S1701x2_S1701_n_01_01_1
          (broadcastInDim S81x81 ![] bcast_S_S81x81 (constant (F := F) S_ .f32 0x00000000#32))
          (concatenate S1701x2 1
            [⟨S1701x1, broadcastInDim S1701x1 ![0] bcast_S1701_S1701x1_0 (val_main_v51 (F := F) x1)⟩,
             ⟨S1701x1, broadcastInDim S1701x1 ![0] bcast_S1701_S1701x1_0 (val_main_v40 (F := F) x1)⟩]
            concatenates_S1701x1_S1701x1_S1701x2_d1)
          (val_main_v35 (F := F) x1) := by
  rw [after_cut V 37 hostOps0_2, s2b_adj, s2a_zero, s2a_dst V x1 hs hd hv, s2a_src V x1 hs hd hv, s2a_w V x1 hs hd hv]

end Third

end Stretches

/-! ### The first kernel's entry contents -/
theorem E0_arg0 : (E0 m c main_arg0 : Arr S81x10 .f32) = m ((c.tc : Thread nD τ).loc main_arg0) :=
  (V3_of m c main_arg0 (by decide)).trans <| (V2_of m c main_arg0 (by decide)).trans <| (V1_of m c main_arg0 (by decide)).trans rfl
theorem E0_arg2 : (E0 m c main_arg2 : Arr S10x8192 .f32) = m ((c.tc : Thread nD τ).loc main_arg2) :=
  (V3_of m c main_arg2 (by decide)).trans <| (V2_of m c main_arg2 (by decide)).trans <| (V1_of m c main_arg2 (by decide)).trans rfl
theorem E0_adj : (E0 m c main_v49 : Arr S81x81 .f32) = adjK (m ((c.tc : Thread nD τ).loc main_arg1)) := by
  have hs : W2 m c (Proc.devRef .tc main_v3) = val_main_v3 (F := Ideal) (m ((c.tc : Thread nD τ).loc main_arg1)) :=
    (V2_of m c main_v3 (by decide)).trans (s0_src (W0 m c))
  have hd : W2 m c (Proc.devRef .tc main_v6) = val_main_v6 (F := Ideal) (m ((c.tc : Thread nD τ).loc main_arg1)) :=
    (V2_of m c main_v6 (by decide)).trans (s0_dst (W0 m c))
  have hv : W2 m c (Proc.devRef .tc main_v19) = val_main_v20 (F := Ideal) (m ((c.tc : Thread nD τ).loc main_arg1)) :=
    s1_dinv (W1 m c) _ (s0_pos (W0 m c)) (s0_rsqrt (W0 m c)) (s0_zero (W0 m c))
  unfold adjK
  exact s2_adj (W2 m c) _ hs hd hv
theorem E0_bg : (E0 m c main_v50 : Arr S1x8192 .f32) = rs1 (m ((c.tc : Thread nD τ).loc main_arg3)) := by
  show StableHlo.after hostOps0_2 (W2 m c) (Proc.devRef .tc main_v50) = _
  after_results_simp; rfl
theorem E0_lg : (E0 m c main_v51 : Arr S1x8192 .f32) = rs1 (m ((c.tc : Thread nD τ).loc main_arg4)) := by
  show StableHlo.after hostOps0_2 (W2 m c) (Proc.devRef .tc main_v51) = _
  after_results_simp; rfl
theorem E0_lb : (E0 m c main_v52 : Arr S1x8192 .f32) = rs1 (m ((c.tc : Thread nD τ).loc main_arg5)) := by
  show StableHlo.after hostOps0_2 (W2 m c) (Proc.devRef .tc main_v52) = _
  after_results_simp; rfl

/-- An argument no stretch writes and no kernel owns is, at the second kernel's entry, as launched. -/
theorem W5_arg (r : Ref sig .tc) (h0 : r ∉ hostOps0_W) (h1 : r ∉ hostOps0_1_W) (h2 : r ∉ hostOps0_2_W)
    (h3 : ∀ w, Pipeline.arrRef spec0 w ≠ r) (h4 : r ∉ hostOps1_W) :
    W5 m c (Proc.devRef .tc r) = m ((c.tc : Thread nD τ).loc r) :=
  (StableHlo.after_of_writes_sub hostOps1 _ hostOps1_writes h4).trans <| (W4_of_ne m c r h3).trans <|
    (V3_of m c r h2).trans <| (V2_of m c r h1).trans <| (V1_of m c r h0).trans rfl

/-! ### The second kernel's entry contents -/
theorem E1_g : E1 m c main_v53 = (dat0 (E0 m) c).arrAt 6 cfg0.N :=
  (StableHlo.after_of_writes_sub hostOps1 _ hostOps1_writes (by decide : main_v53 ∉ hostOps1_W)).trans (W4_arr m c 6)
theorem E1_W1 : (E1 m c main_arg6 : Arr S8192x8192 .f32) = m ((c.tc : Thread nD τ).loc main_arg6) :=
  W5_arg m c main_arg6 (by decide) (by decide) (by decide) (by decide) (by decide)
theorem E1_b1 : (E1 m c main_v54 : Arr S1x8192 .f32) = rs1 (m ((c.tc : Thread nD τ).loc main_arg7)) := by
  have h : W4 m c (Proc.devRef .tc main_arg7) = m ((c.tc : Thread nD τ).loc main_arg7) :=
    (W4_of_ne m c main_arg7 (by decide)).trans <| (V3_of m c main_arg7 (by decide)).trans <|
      (V2_of m c main_arg7 (by decide)).trans <| (V1_of m c main_arg7 (by decide)).trans rfl
  show StableHlo.after hostOps1 (W4 m c) (Proc.devRef .tc main_v54) = _
  after_results; rw [h]; rfl
theorem E1_W2 : (E1 m c main_arg8 : Arr S8192x729 .f32) = m ((c.tc : Thread nD τ).loc main_arg8) :=
  W5_arg m c main_arg8 (by decide) (by decide) (by decide) (by decide) (by decide)

/-! ### The tail -/
/-- The stretch after the second kernel makes the logits of its output array and the output bias. -/
theorem s3_logits (V : Valuation τ sig (Elt Ideal)) :
    StableHlo.after hostOps2 V (Proc.devRef .tc main_v62) = logitsK (V (Proc.devRef .tc main_v55)) (V (Proc.devRef .tc main_arg9)) := by
  after_results; rfl
/-- The last stretch is the log-softmax of the row it finds. -/
theorem s4_lsm (V : Valuation τ sig (Elt Ideal)) :
    StableHlo.after hostOps2_1 V (Proc.devRef .tc main_v63) = lsm (V (Proc.devRef .tc main_v62)) := by
  after_results
  simp only [StableHlo.TRef.ofBuf, StableHlo.TRef.toBuf, cast_eq]
  rfl

/-- The program's result: the log-softmax of the logits made of the second kernel's output array. -/
theorem tailK : (W8 m c main_v63 : Arr S1x729 .f32)
    = lsm (logitsK ((dat1 (E1 m) c).arrAt 4 cfg1.N) (m ((c.tc : Thread nD τ).loc main_arg9))) := by
  have hA : W6 m c (Proc.devRef .tc main_v55) = (dat1 (E1 m) c).arrAt 4 cfg1.N := W6_arr m c 4
  have hb : W6 m c (Proc.devRef .tc main_arg9) = m ((c.tc : Thread nD τ).loc main_arg9) :=
    (W6_of_ne m c main_arg9 (by decide)).trans (W5_arg m c main_arg9 (by decide) (by decide) (by decide) (by decide) (by decide))
  refine (s4_lsm (W7 m c)).trans (congrArg lsm ?_)
  refine (s3_logits (W6 m c)).trans ?_
  rw [hA, hb]

/-- The reference's result is the same log-softmax of its logits. -/
theorem tailR (x0 : Arr S81x10 .f32) (x1 : IArr S2x1620 32) (x2 : Arr S10x8192 .f32) (x3 x4 x5 : Arr S8192 .f32) (x6 : Arr S8192x8192 .f32) (x7 : Arr S8192 .f32) (x8 : Arr S8192x729 .f32) (x9 : Arr S729 .f32) :
    val_main_v91 (F := Ideal) x0 x1 x2 x3 x4 x5 x6 x7 x8 x9 = lsm (val_main_v90 (F := Ideal) x0 x1 x2 x3 x4 x5 x6 x7 x8 x9) := by
  unfold val_main_v91 val_main_call3_v10 val_main_call3_v9 val_main_call3_v8 val_main_call3_v7 val_main_call3_cst_1 val_main_call3_v6
    val_main_call3_v5 val_main_call3_v4 val_main_call3_v3 val_main_call3_v2 val_main_call3_v1 val_main_call3_cst_0 val_main_call3_v0
    val_main_call3_cst
  generalize val_main_v90 (F := Ideal) x0 x1 x2 x3 x4 x5 x6 x7 x8 x9 = z
  rfl

end Cert.KernelIdeal.HandV

end
-- ==== Proof.Val.Arrays.lean ====
/- What each kernel's output array holds after its run, from the blocks its grid points write back. -/
import proofs.«416509_j46643344834924_3_alg».proof.Proof.Val.DefsK

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL.Sem

variable (V : (c : Dev nD) → (b : Ref sig .tc) → Buf (Elt Ideal) ((c : Thread nD τ).loc b)) (c : Dev nD)

/-! ## The first kernel: one grid point, every block its whole array -/

/-- Every window of the first kernel sits at block index zero on both axes, whatever the point: its offsets in the
    array vanish. -/
theorem off0_0 (t : Fin cfg0.N) : (fun a => win0_0.index t a * main_arg0.ty.shape.size a) = fun _ => 0 := by
  have h : win0_0.index t = fun _ => 0 := funext fun a => by fin_cases a <;> rfl
  rw [h]; exact funext fun a => Nat.zero_mul _
theorem off0_1 (t : Fin cfg0.N) : (fun a => win0_1.index t a * main_v49.ty.shape.size a) = fun _ => 0 := by
  have h : win0_1.index t = fun _ => 0 := funext fun a => by fin_cases a <;> rfl
  rw [h]; exact funext fun a => Nat.zero_mul _
theorem off0_2 (t : Fin cfg0.N) : (fun a => win0_2.index t a * main_arg2.ty.shape.size a) = fun _ => 0 := by
  have h : win0_2.index t = fun _ => 0 := funext fun a => by fin_cases a <;> rfl
  rw [h]; exact funext fun a => Nat.zero_mul _
theorem off0_3 (t : Fin cfg0.N) : (fun a => win0_3.index t a * main_v50.ty.shape.size a) = fun _ => 0 := by
  have h : win0_3.index t = fun _ => 0 := funext fun a => by fin_cases a <;> rfl
  rw [h]; exact funext fun a => Nat.zero_mul _
theorem off0_4 (t : Fin cfg0.N) : (fun a => win0_4.index t a * main_v51.ty.shape.size a) = fun _ => 0 := by
  have h : win0_4.index t = fun _ => 0 := funext fun a => by fin_cases a <;> rfl
  rw [h]; exact funext fun a => Nat.zero_mul _
theorem off0_5 (t : Fin cfg0.N) : (fun a => win0_5.index t a * main_v52.ty.shape.size a) = fun _ => 0 := by
  have h : win0_5.index t = fun _ => 0 := funext fun a => by fin_cases a <;> rfl
  rw [h]; exact funext fun a => Nat.zero_mul _
theorem off0_6 (t : Fin cfg0.N) : (fun a => win0_6.index t a * main_v53.ty.shape.size a) = fun _ => 0 := by
  have h : win0_6.index t = fun _ => 0 := funext fun a => by fin_cases a <;> rfl
  rw [h]; exact funext fun a => Nat.zero_mul _

/-- So each input's block at the point is the whole array the kernel is entered with. -/
theorem iblk0_0_eq (t : Fin cfg0.N) : iblk0 V c 0 t = V c main_arg0 := by
  unfold iblk0
  exact Memref.read_access_unit_zero (Elt Ideal) main_arg0 (off0_0 t) (fun a => by rw [congrFun (off0_0 t) a]; simp) (V c main_arg0)
theorem iblk0_1_eq (t : Fin cfg0.N) : iblk0 V c 1 t = V c main_v49 := by
  unfold iblk0
  exact Memref.read_access_unit_zero (Elt Ideal) main_v49 (off0_1 t) (fun a => by rw [congrFun (off0_1 t) a]; simp) (V c main_v49)
theorem iblk0_2_eq (t : Fin cfg0.N) : iblk0 V c 2 t = V c main_arg2 := by
  unfold iblk0
  exact Memref.read_access_unit_zero (Elt Ideal) main_arg2 (off0_2 t) (fun a => by rw [congrFun (off0_2 t) a]; simp) (V c main_arg2)
theorem iblk0_3_eq (t : Fin cfg0.N) : iblk0 V c 3 t = V c main_v50 := by
  unfold iblk0
  exact Memref.read_access_unit_zero (Elt Ideal) main_v50 (off0_3 t) (fun a => by rw [congrFun (off0_3 t) a]; simp) (V c main_v50)
theorem iblk0_4_eq (t : Fin cfg0.N) : iblk0 V c 4 t = V c main_v51 := by
  unfold iblk0
  exact Memref.read_access_unit_zero (Elt Ideal) main_v51 (off0_4 t) (fun a => by rw [congrFun (off0_4 t) a]; simp) (V c main_v51)
theorem iblk0_5_eq (t : Fin cfg0.N) : iblk0 V c 5 t = V c main_v52 := by
  unfold iblk0
  exact Memref.read_access_unit_zero (Elt Ideal) main_v52 (off0_5 t) (fun a => by rw [congrFun (off0_5 t) a]; simp) (V c main_v52)

/-- What the point writes back is the block, that is the whole, of the body's result of the six whole input arrays. -/
theorem flushed0_6_eq (t : Fin cfg0.N) :
    (dat0 V c).flushed 6 t = ((cfg0.win 6).blk t).view.read (Elt Ideal)
      (out0_6 (F := Ideal) (V c main_arg0) (V c main_v49) (V c main_arg2) (V c main_v50) (V c main_v51) (V c main_v52)) := by
  show (cfg0.win 6).cut (grid0.coords t) ((dat0 V c).after 6 t) = _
  rw [after0_6, iblk0_0_eq, iblk0_1_eq, iblk0_2_eq, iblk0_3_eq, iblk0_4_eq, iblk0_5_eq]
  exact (Memref.read_access_unit_zero (Elt Ideal) main_v53 (off0_6 t) (fun a => by rw [congrFun (off0_6 t) a]; simp) _).symm

/-- The first kernel's one grid point writes the whole output array: the body's result of the six whole input arrays. -/
theorem r0_arr : ((dat0 V c).arrAt 6 cfg0.N : Arr S1x8192 .f32)
    = out0_6 (F := Ideal) (V c main_arg0) (V c main_v49) (V c main_arg2) (V c main_v50) (V c main_v51) (V c main_v52) :=
  (dat0 V c).arrAt_eq_of_cover 6 _ (fun t _ => flushed0_6_eq V c t) fun i =>
    ⟨t0_0, flush0_6 t0_0, by
      show i ∈ ((View.whole main_v53).slice (win0_6.rect t0_0)).set
      rw [View.set_slice_whole]
      exact View.mem_set_unit_zero (S := S1x8192) (off0_6 t0_0) _ i⟩

/-! ## The second kernel: row `cc` of the output written at the last of core `cc`'s sixteen positions -/

/-- The output block's index at each position, decided once over the grid: the core's number on the leading axis,
    zero on the other two. -/
theorem out_index1 : ∀ t : Fin cfg1.N,
    win1_4.index t (0 : Fin 3) = t.val / 16 ∧ win1_4.index t (1 : Fin 3) = 0 ∧ win1_4.index t (2 : Fin 3) = 0 :=
  (by decide +kernel : ∀ t : Fin grid1.N,
    win1_4.index t (0 : Fin 3) = t.val / 16 ∧ win1_4.index t (1 : Fin 3) = 0 ∧ win1_4.index t (2 : Fin 3) = 0)

/-- The accumulator read at equal positions and equal indices is the same entry, whatever the bounds' proofs. -/
theorem accAt1_at {n n' : ℕ} (hn : n < cfg1.N) (hn' : n' < cfg1.N) (h : n = n') (j j' : S1x729.Idx) (hj : j = j') :
    accAt1 (F := Ideal) V c n hn j = accAt1 (F := Ideal) V c n' hn' j' := by
  subst h hj; rfl

/-- What a writing position `t` (the last of its core's sixteen) writes back is its block of the rows of accumulators:
    the block is row `t / 16`, and `16·(t / 16) + 15 = t`. -/
theorem flushed1_4_eq (t : Fin cfg1.N) (hf : (cfg1.win 4).flush t = true) :
    (dat1 V c).flushed 4 t = ((cfg1.win 4).blk t).view.read (Elt Ideal) (outK V c) := by
  have h15 : t.val % 16 = 15 := (flush1_4 t).mp hf
  obtain ⟨e0, e1, e2⟩ := out_index1 t
  show (cfg1.win 4).cut (grid1.coords t) ((dat1 V c).after 4 t) = _
  rw [after1_4]
  funext y
  have hy0 : (y 0).val < 1 := (y 0).isLt
  have hy1 : (y 1).val < 1 := (y 1).isLt
  have hy2 : (y 2).val < 729 := (y 2).isLt
  show k1_pay3 (accAt1 (F := Ideal) V c t.val t.isLt) y = outK V c (((cfg1.win 4).blk t).view.emb y)
  have i0 : ((((cfg1.win 4).blk t).view.emb y) 0).val = t.val / 16 := by
    show win1_4.index t (0 : Fin 3) * 1 + 1 * (y 0).val = t.val / 16
    omega
  have i2 : ((((cfg1.win 4).blk t).view.emb y) 2).val = (y 2).val := by
    show win1_4.index t (2 : Fin 3) * 729 + 1 * (y 2).val = (y 2).val
    omega
  unfold k1_pay3
  refine (shapeCast_addUnit_apply (n := 2) ![1, 729] (accAt1 (F := Ideal) V c t.val t.isLt) shapeCasts_S1x729_S1x1x729 y).trans ?_
  unfold outK
  refine accAt1_at V c _ _ (by omega) _ _ (funext fun a => Fin.ext ?_)
  match a with
  | ⟨0, _⟩ => show (y 1).val = 0; omega
  | ⟨1, _⟩ => show (y 2).val = ((((cfg1.win 4).blk t).view.emb y) 2).val; omega

/-- Every entry of the output lies in the block of the position that ends its row's core. -/
theorem cover1_4 (i : S2x1x729.Idx) :
    ∃ t : Fin cfg1.N, (cfg1.win 4).flush t = true ∧ i ∈ ((cfg1.win 4).blk t).view.set := by
  have hi0 : (i 0).val < 2 := (i 0).isLt
  have hi1 : (i 1).val < 1 := (i 1).isLt
  have hi2 : (i 2).val < 729 := (i 2).isLt
  have hN : cfg1.N = 32 := N_1
  obtain ⟨t, ht⟩ : ∃ t : Fin cfg1.N, t.val = 16 * (i 0).val + 15 := ⟨⟨16 * (i 0).val + 15, by omega⟩, rfl⟩
  obtain ⟨e0, e1, e2⟩ := out_index1 t
  refine ⟨t, (flush1_4 t).mpr (by omega), ?_⟩
  show i ∈ ((View.whole main_v55).slice (win1_4.rect t)).set
  rw [View.set_slice_whole, Rect.mem_set_unit]
  intro a
  match a with
  | ⟨0, _⟩ =>
    show win1_4.index t (0 : Fin 3) * 1 ≤ (i 0).val ∧ (i 0).val < win1_4.index t (0 : Fin 3) * 1 + 1
    omega
  | ⟨1, _⟩ =>
    show win1_4.index t (1 : Fin 3) * 1 ≤ (i 1).val ∧ (i 1).val < win1_4.index t (1 : Fin 3) * 1 + 1
    omega
  | ⟨2, _⟩ =>
    show win1_4.index t (2 : Fin 3) * 729 ≤ (i 2).val ∧ (i 2).val < win1_4.index t (2 : Fin 3) * 729 + 729
    omega

/-- The second kernel writes row `cc` of its output at the last of core `cc`'s sixteen positions, and never again:
    the array ends at the accumulator's contents after those positions. -/
theorem r1_arr : ((dat1 V c).arrAt 4 cfg1.N : Arr S2x1x729 .f32) = outK V c :=
  (dat1 V c).arrAt_eq_of_cover 4 (outK V c) (flushed1_4_eq V c) (cover1_4)

end Cert.KernelIdeal.HandV

end
-- ==== Proof.Val.Mlp.lean ====
/- The head: thirty-two tiles of 256 hidden units, sixteen per core, each tile's contribution accumulated, the two
   cores' sums added — against the reference's two whole matrix products. -/
import proofs.«416509_j46643344834924_3_alg».proof.Proof.Val.Defs
import Idealize.ShloMosaic.Lib.ValueLayout
import Mathlib.Data.Fintype.BigOperators
import Mathlib.Logic.Equiv.Fin.Basic
import Mathlib.Algebra.BigOperators.Fin

set_option maxRecDepth 16384

noncomputable section

namespace Cert.KernelIdeal.HandV

open Cert.KernelIdeal Cert.KernelIdeal.Gen Cert.KernelIdeal.Hand
open Cert.ReferenceIdeal.ReadP
open Idealize.ShloMosaic Idealize.ShloMosaic.TcCoe Idealize.ShloMosaic.ValueIdx
open Idealize.SL.Sem
open scoped BigOperators

/-! ## The head as a sum over hidden units -/

/-- Hidden unit `n`: the rectified affine image of the pooled features (a row), the bias given as a row. -/
def hid (g : Arr S1x8192 .f32) (W1 : Arr S8192x8192 .f32) (b1 : Arr S1x8192 .f32) (n : Fin 8192) : EReal :=
  max (∑ p : Fin 8192, g (ix2 (0 : Fin 1) p) * W1 (ix2 p n) + b1 (ix2 (0 : Fin 1) n)) 0

/-- What hidden unit `n` adds to logit `j`. -/
def contrib (g : Arr S1x8192 .f32) (W1 : Arr S8192x8192 .f32) (b1 : Arr S1x8192 .f32) (W2 : Arr S8192x729 .f32)
    (j : Fin 729) (n : Fin 8192) : EReal :=
  hid g W1 b1 n * W2 (ix2 n j)

/-- What tile `t` (hidden units 256 t … 256 t + 255) adds to logit `j`; nothing past the thirty-second tile. -/
def tileSum (g : Arr S1x8192 .f32) (W1 : Arr S8192x8192 .f32) (b1 : Arr S1x8192 .f32) (W2 : Arr S8192x729 .f32)
    (j : Fin 729) (t : ℕ) : EReal :=
  if h : t < 32 then ∑ q : Fin 256, contrib g W1 b1 W2 j ⟨256 * t + q.val, by have := q.isLt; omega⟩ else 0

/-- A sum over the 8192 hidden units is the sum over the thirty-two tiles of the sums over a tile's 256 units. -/
theorem sum_tiles (f : Fin 8192 → EReal) :
    ∑ n : Fin 8192, f n
      = ∑ t ∈ Finset.range 32, (if h : t < 32 then ∑ q : Fin 256, f ⟨256 * t + q.val, by have := q.isLt; omega⟩ else 0) := by
  rw [← Fin.sum_univ_eq_sum_range (fun t => if h : t < 32 then ∑ q : Fin 256, f ⟨256 * t + q.val, by have := q.isLt; omega⟩ else 0) 32]
  refine ((Equiv.sum_comp (finProdFinEquiv (m := 32) (n := 256)) f).symm.trans ?_)
  rw [Fintype.sum_prod_type]
  refine Finset.sum_congr rfl fun t _ => ?_
  rw [dif_pos t.isLt]
  refine Finset.sum_congr rfl fun q _ => ?_
  refine congrArg f (Fin.ext ?_)
  show q.val + 256 * t.val = 256 * t.val + q.val
  omega

/-! ## The two products of the kernel's body read at an index -/

theorem lhs_mm1_0 (i : S1x256.Idx) (q : dot_S1x8192_S8192x256_S1x256_1_0_0_1_n_n.contr.Idx) :
    (dot_S1x8192_S8192x256_S1x256_1_0_0_1_n_n.lhsIdx i q 0).val = (i 0).val := by
  unfold DotDims.lhsIdx
  rw [dif_neg (show ¬(0 : Fin S1x8192.rank) ∈ dot_S1x8192_S8192x256_S1x256_1_0_0_1_n_n.lhsBatch by decide), dif_pos (show (0 : Fin S1x8192.rank) ∈ dot_S1x8192_S8192x256_S1x256_1_0_0_1_n_n.lhsNonContracting by decide)]
  rfl
theorem lhs_mm1_1 (i : S1x256.Idx) (q : dot_S1x8192_S8192x256_S1x256_1_0_0_1_n_n.contr.Idx) :
    (dot_S1x8192_S8192x256_S1x256_1_0_0_1_n_n.lhsIdx i q 1).val = (q ⟨0, by decide⟩).val :=
  dot_S1x8192_S8192x256_S1x256_1_0_0_1_n_n.lhsIdx_val_of_single rfl i q
theorem rhs_mm1_0 (i : S1x256.Idx) (q : dot_S1x8192_S8192x256_S1x256_1_0_0_1_n_n.contr.Idx) :
    (dot_S1x8192_S8192x256_S1x256_1_0_0_1_n_n.rhsIdx i q 0).val = (q ⟨0, by decide⟩).val :=
  dot_S1x8192_S8192x256_S1x256_1_0_0_1_n_n.rhsIdx_val_of_single rfl i q
theorem rhs_mm1_1 (i : S1x256.Idx) (q : dot_S1x8192_S8192x256_S1x256_1_0_0_1_n_n.contr.Idx) :
    (dot_S1x8192_S8192x256_S1x256_1_0_0_1_n_n.rhsIdx i q 1).val = (i 1).val := by
  unfold DotDims.rhsIdx
  rw [dif_neg (show ¬(1 : Fin S8192x256.rank) ∈ dot_S1x8192_S8192x256_S1x256_1_0_0_1_n_n.rhsBatch by decide), dif_pos (show (1 : Fin S8192x256.rank) ∈ dot_S1x8192_S8192x256_S1x256_1_0_0_1_n_n.rhsNonContracting by decide)]
  rfl

/-- The first product (features times a tile's 256 columns of the first layer) at a column: the sum over the 8192 features. -/
theorem mm1_apply (g : FVec Ideal S1x8192 .bf16) (w : FVec Ideal S8192x256 .bf16) (q : Fin 256) :
    matmul dot_S1x8192_S8192x256_S1x256_1_0_0_1_n_n none g w (constant (F := Ideal) S1x256 .f32 0x00000000#32) (ix2 (0 : Fin 1) q)
      = ∑ p : Fin 8192, g (ix2 (0 : Fin 1) p) * w (ix2 p q) := by
  refine (Ideal.matmul_constant_zero_apply dot_S1x8192_S8192x256_S1x256_1_0_0_1_n_n none g w (ix2 (0 : Fin 1) q)).trans ?_
  rw [← Equiv.sum_comp (ValueIdx.contrEquiv1 dot_S1x8192_S8192x256_S1x256_1_0_0_1_n_n 8192 rfl rfl).symm]
  refine Finset.sum_congr rfl fun k _ => ?_
  have hk := ValueIdx.contrEquiv1_symm_val dot_S1x8192_S8192x256_S1x256_1_0_0_1_n_n 8192 rfl rfl k
  have el : dot_S1x8192_S8192x256_S1x256_1_0_0_1_n_n.lhsIdx (ix2 (0 : Fin 1) q) ((ValueIdx.contrEquiv1 dot_S1x8192_S8192x256_S1x256_1_0_0_1_n_n 8192 rfl rfl).symm k) = ix2 (0 : Fin 1) k := funext fun a => Fin.ext (by
    match a with
    | ⟨0, _⟩ => exact lhs_mm1_0 _ _
    | ⟨1, _⟩ => exact (lhs_mm1_1 _ _).trans hk)
  have er : dot_S1x8192_S8192x256_S1x256_1_0_0_1_n_n.rhsIdx (ix2 (0 : Fin 1) q) ((ValueIdx.contrEquiv1 dot_S1x8192_S8192x256_S1x256_1_0_0_1_n_n 8192 rfl rfl).symm k) = ix2 k q := funext fun a => Fin.ext (by
    match a with
    | ⟨0, _⟩ => exact (rhs_mm1_0 _ _).trans hk
    | ⟨1, _⟩ => exact rhs_mm1_1 _ _)
  rw [el, er]

theorem lhs_mm2_0 (i : S1x729.Idx) (q : dot_S1x256_S256x729_S1x729_1_0_0_1_n_n.contr.Idx) :
    (dot_S1x256_S256x729_S1x729_1_0_0_1_n_n.lhsIdx i q 0).val = (i 0).val := by
  unfold DotDims.lhsIdx
  rw [dif_neg (show ¬(0 : Fin S1x256.rank) ∈ dot_S1x256_S256x729_S1x729_1_0_0_1_n_n.lhsBatch by decide), dif_pos (show (0 : Fin S1x256.rank) ∈ dot_S1x256_S256x729_S1x729_1_0_0_1_n_n.lhsNonContracting by decide)]
  rfl
theorem lhs_mm2_1 (i : S1x729.Idx) (q : dot_S1x256_S256x729_S1x729_1_0_0_1_n_n.contr.Idx) :
    (dot_S1x256_S256x729_S1x729_1_0_0_1_n_n.lhsIdx i q 1).val = (q ⟨0, by decide⟩).val :=
  dot_S1x256_S256x729_S1x729_1_0_0_1_n_n.lhsIdx_val_of_single rfl i q
theorem rhs_mm2_0 (i : S1x729.Idx) (q : dot_S1x256_S256x729_S1x729_1_0_0_1_n_n.contr.Idx) :
    (dot_S1x256_S256x729_S1x729_1_0_0_1_n_n.rhsIdx i q 0).val = (q ⟨0, by decide⟩).val :=
  dot_S1x256_S256x729_S1x729_1_0_0_1_n_n.rhsIdx_val_of_single rfl i q
theorem rhs_mm2_1 (i : S1x729.Idx) (q : dot_S1x256_S256x729_S1x729_1_0_0_1_n_n.contr.Idx) :
    (dot_S1x256_S256x729_S1x729_1_0_0_1_n_n.rhsIdx i q 1).val = (i 1).val := by
  unfold DotDims.rhsIdx
  rw [dif_neg (show ¬(1 : Fin S256x729.rank) ∈ dot_S1x256_S256x729_S1x729_1_0_0_1_n_n.rhsBatch by decide), dif_pos (show (1 : Fin S256x729.rank) ∈ dot_S1x256_S256x729_S1x729_1_0_0_1_n_n.rhsNonContracting by decide)]
  rfl

/-- The second product (a tile's 256 hidden units times its 256 rows of the second layer) at a logit: the sum over the tile. -/
theorem mm2_apply (h : FVec Ideal S1x256 .bf16) (w : FVec Ideal S256x729 .bf16) (j : Fin 729) :
    matmul dot_S1x256_S256x729_S1x729_1_0_0_1_n_n none h w (constant (F := Ideal) S1x729 .f32 0x00000000#32) (ix2 (0 : Fin 1) j)
      = ∑ q : Fin 256, h (ix2 (0 : Fin 1) q) * w (ix2 q j) := by
  refine (Ideal.matmul_constant_zero_apply dot_S1x256_S256x729_S1x729_1_0_0_1_n_n none h w (ix2 (0 : Fin 1) j)).trans ?_
  rw [← Equiv.sum_comp (ValueIdx.contrEquiv1 dot_S1x256_S256x729_S1x729_1_0_0_1_n_n 256 rfl rfl).symm]
  refine Finset.sum_congr rfl fun k _ => ?_
  have hk := ValueIdx.contrEquiv1_symm_val dot_S1x256_S256x729_S1x729_1_0_0_1_n_n 256 rfl rfl k
  have el : dot_S1x256_S256x729_S1x729_1_0_0_1_n_n.lhsIdx (ix2 (0 : Fin 1) j) ((ValueIdx.contrEquiv1 dot_S1x256_S256x729_S1x729_1_0_0_1_n_n 256 rfl rfl).symm k) = ix2 (0 : Fin 1) k := funext fun a => Fin.ext (by
    match a with
    | ⟨0, _⟩ => exact lhs_mm2_0 _ _
    | ⟨1, _⟩ => exact (lhs_mm2_1 _ _).trans hk)
  have er : dot_S1x256_S256x729_S1x729_1_0_0_1_n_n.rhsIdx (ix2 (0 : Fin 1) j) ((ValueIdx.contrEquiv1 dot_S1x256_S256x729_S1x729_1_0_0_1_n_n 256 rfl rfl).symm k) = ix2 k j := funext fun a => Fin.ext (by
    match a with
    | ⟨0, _⟩ => exact (rhs_mm2_0 _ _).trans hk
    | ⟨1, _⟩ => exact rhs_mm2_1 _ _)
  rw [el, er]

/-- The cleared accumulator holds zero. -/
theorem pay1_apply (j : Fin 729) : (k1_pay1 (F := Ideal)) (ix2 (0 : Fin 1) j) = 0 := by
  unfold k1_pay1
  rw [shapeCast_self]
  exact Ideal.ofBits_zero_f32

/-- ONE TILE'S STEP at a logit: what the accumulator held plus, over the tile's 256 hidden units, the rectified
    affine image of the features times the second layer's row. -/
theorem pay2_apply (g : FVec Ideal S1x8192 .f32) (w1 : FVec Ideal S8192x256 .f32) (b : FVec Ideal S1x256 .f32)
    (w2 : FVec Ideal S256x729 .f32) (s : FVec Ideal S1x729 .f32) (j : Fin 729) :
    k1_pay2 g w1 b w2 s (ix2 (0 : Fin 1) j)
      = s (ix2 (0 : Fin 1) j) + ∑ q : Fin 256, max (∑ p : Fin 8192, g (ix2 (0 : Fin 1) p) * w1 (ix2 p q) + b (ix2 (0 : Fin 1) q)) 0 * w2 (ix2 q j) := by
  unfold k1_pay2
  simp only [shapeCast_self]
  rw [addf_apply, mm2_apply]
  refine congrArg (s (ix2 (0 : Fin 1) j) + ·) (Finset.sum_congr rfl fun q _ => ?_)
  rw [truncf_apply, truncf_apply, maximumf_apply, addf_apply, mm1_apply, broadcast_apply]
  show max ((∑ p : Fin 8192, g (ix2 (0 : Fin 1) p) * w1 (ix2 p q)) + b (ix2 (0 : Fin 1) q)) (Ideal.ofBits .f32 0x00000000#32) * w2 (ix2 q j) = _
  rw [Ideal.ofBits_zero_f32]

/-! ## The blocks the body loads, read off their arrays -/

section Blocks
variable (V : (c : Dev nD) → (b : Ref sig .tc) → Buf (Elt Ideal) ((c : Thread nD τ).loc b)) (c : Dev nD)

/-- The four blocks the body loads at position `t`, at their literal types. -/
abbrev gBlk (t : Fin cfg1.N) : FVec Ideal S1x8192 .f32 := iblk1 (F := Ideal) V c 0 t
abbrev w1Blk (t : Fin cfg1.N) : FVec Ideal S8192x256 .f32 := iblk1 (F := Ideal) V c 1 t
abbrev b1Blk (t : Fin cfg1.N) : FVec Ideal S1x256 .f32 := iblk1 (F := Ideal) V c 2 t
abbrev w2Blk (t : Fin cfg1.N) : FVec Ideal S256x729 .f32 := iblk1 (F := Ideal) V c 3 t
/-- The four arrays they are cut from, as the region finds them. -/
abbrev gArr : Arr S1x8192 .f32 := V c main_v53
abbrev w1Arr : Arr S8192x8192 .f32 := V c main_arg6
abbrev b1Arr : Arr S1x8192 .f32 := V c main_v54
abbrev w2Arr : Arr S8192x729 .f32 := V c main_arg8

/-- The printed index maps over the grid: the features' block never moves; at position `t` the first layer's and the
    bias row's blocks are column block `t`, the second layer's is row block `t`. -/
theorem idx1_facts : ∀ t : Fin cfg1.N, win1_0.index t (0 : Fin 2) = 0 ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = t.val
    ∧ win1_3.index t (0 : Fin 2) = t.val ∧ win1_3.index t (1 : Fin 2) = 0 :=
  (by decide +kernel : ∀ t : Fin grid1.N, _)

theorem gBlk_apply (t : Fin cfg1.N) (p : Fin 8192) : gBlk V c t (ix2 (0 : Fin 1) p) = gArr V c (ix2 (0 : Fin 1) p) := by
  obtain ⟨e00, e01, -⟩ := idx1_facts t
  show V c main_v53 (((cfg1.win 0).blk t).view.emb (ix2 (0 : Fin 1) p)) = V c main_v53 (ix2 (0 : Fin 1) p)
  refine congrArg _ (funext fun a => Fin.ext ?_)
  match a with
  | ⟨0, _⟩ => show win1_0.index t (0 : Fin 2) * 1 + 1 * 0 = 0; omega
  | ⟨1, _⟩ => show win1_0.index t (1 : Fin 2) * 8192 + 1 * p.val = p.val; omega

theorem w1Blk_apply (t : Fin cfg1.N) (p : Fin 8192) (q : Fin 256) (n : Fin 8192) (hn : n.val = 256 * t.val + q.val) :
    w1Blk V c t (ix2 p q) = w1Arr V c (ix2 p n) := by
  obtain ⟨-, -, e10, e11, -⟩ := idx1_facts t
  show V c main_arg6 (((cfg1.win 1).blk t).view.emb (ix2 p q)) = V c main_arg6 (ix2 p n)
  refine congrArg _ (funext fun a => Fin.ext ?_)
  match a with
  | ⟨0, _⟩ => show win1_1.index t (0 : Fin 2) * 8192 + 1 * p.val = p.val; omega
  | ⟨1, _⟩ => show win1_1.index t (1 : Fin 2) * 256 + 1 * q.val = n.val; omega

theorem b1Blk_apply (t : Fin cfg1.N) (q : Fin 256) (n : Fin 8192) (hn : n.val = 256 * t.val + q.val) :
    b1Blk V c t (ix2 (0 : Fin 1) q) = b1Arr V c (ix2 (0 : Fin 1) n) := by
  obtain ⟨-, -, -, -, e20, e21, -⟩ := idx1_facts t
  show V c main_v54 (((cfg1.win 2).blk t).view.emb (ix2 (0 : Fin 1) q)) = V c main_v54 (ix2 (0 : Fin 1) n)
  refine congrArg _ (funext fun a => Fin.ext ?_)
  match a with
  | ⟨0, _⟩ => show win1_2.index t (0 : Fin 2) * 1 + 1 * 0 = 0; omega
  | ⟨1, _⟩ => show win1_2.index t (1 : Fin 2) * 256 + 1 * q.val = n.val; omega

theorem w2Blk_apply (t : Fin cfg1.N) (q : Fin 256) (j : Fin 729) (n : Fin 8192) (hn : n.val = 256 * t.val + q.val) :
    w2Blk V c t (ix2 q j) = w2Arr V c (ix2 n j) := by
  obtain ⟨-, -, -, -, -, -, e30, e31⟩ := idx1_facts t
  show V c main_arg8 (((cfg1.win 3).blk t).view.emb (ix2 q j)) = V c main_arg8 (ix2 n j)
  refine congrArg _ (funext fun a => Fin.ext ?_)
  match a with
  | ⟨0, _⟩ => show win1_3.index t (0 : Fin 2) * 256 + 1 * q.val = n.val; omega
  | ⟨1, _⟩ => show win1_3.index t (1 : Fin 2) * 729 + 1 * j.val = j.val; omega

/-! ## The accumulator along a core's sixteen tiles -/

/-- The body at position `t` adds tile `t`'s sum to what the accumulator held. -/
theorem step_apply (t : Fin cfg1.N) (s : FVec Ideal S1x729 .f32) (j : Fin 729) :
    k1_pay2 (iblk1 (F := Ideal) V c 0 t) (iblk1 (F := Ideal) V c 1 t) (iblk1 (F := Ideal) V c 2 t) (iblk1 (F := Ideal) V c 3 t) s (ix2 (0 : Fin 1) j)
      = s (ix2 (0 : Fin 1) j) + tileSum (gArr V c) (w1Arr V c) (b1Arr V c) (w2Arr V c) j t.val := by
  have hN : cfg1.N = 32 := N_1
  have ht : t.val < 32 := by have := t.isLt; omega
  refine (pay2_apply (gBlk V c t) (w1Blk V c t) (b1Blk V c t) (w2Blk V c t) s j).trans ?_
  unfold tileSum
  rw [dif_pos ht]
  refine congrArg (s (ix2 (0 : Fin 1) j) + ·) (Finset.sum_congr rfl fun q _ => ?_)
  unfold contrib hid
  rw [b1Blk_apply V c t q ⟨256 * t.val + q.val, by have := q.isLt; omega⟩ rfl, w2Blk_apply V c t q j ⟨256 * t.val + q.val, by have := q.isLt; omega⟩ rfl]
  refine congrArg (fun z => max (z + _) 0 * _) (Finset.sum_congr rfl fun p _ => ?_)
  rw [gBlk_apply, w1Blk_apply V c t p q ⟨256 * t.val + q.val, by have := q.isLt; omega⟩ rfl]

/-- After the body at position `n` the accumulator holds the sums of the tiles of `n`'s core up to `n`. -/
theorem acc_apply (j : Fin 729) : ∀ (n : ℕ) (hn : n < cfg1.N),
    accAt1 (F := Ideal) V c n hn (ix2 (0 : Fin 1) j)
      = ∑ k ∈ Finset.range (n % 16 + 1), tileSum (gArr V c) (w1Arr V c) (b1Arr V c) (w2Arr V c) j (16 * (n / 16) + k) := by
  intro n
  induction n with
  | zero =>
    intro hn
    show k1_pay2 (iblk1 (F := Ideal) V c 0 ⟨0, hn⟩) (iblk1 (F := Ideal) V c 1 ⟨0, hn⟩) (iblk1 (F := Ideal) V c 2 ⟨0, hn⟩) (iblk1 (F := Ideal) V c 3 ⟨0, hn⟩) (k1_pay1 (F := Ideal)) (ix2 (0 : Fin 1) j) = _
    refine (step_apply V c ⟨0, hn⟩ _ j).trans ?_
    rw [pay1_apply, zero_add]
    show _ = ∑ k ∈ Finset.range 1, tileSum (gArr V c) (w1Arr V c) (b1Arr V c) (w2Arr V c) j (16 * (0 / 16) + k)
    rw [Finset.sum_range_one]
  | succ n ih =>
    intro hn
    show k1_pay2 (iblk1 (F := Ideal) V c 0 ⟨n + 1, hn⟩) (iblk1 (F := Ideal) V c 1 ⟨n + 1, hn⟩) (iblk1 (F := Ideal) V c 2 ⟨n + 1, hn⟩) (iblk1 (F := Ideal) V c 3 ⟨n + 1, hn⟩)
      (if (n + 1) % 16 = 0 then k1_pay1 (F := Ideal) else accAt1 (F := Ideal) V c n (Nat.lt_of_succ_lt hn)) (ix2 (0 : Fin 1) j) = _
    refine (step_apply V c ⟨n + 1, hn⟩ _ j).trans ?_
    show _ + tileSum (gArr V c) (w1Arr V c) (b1Arr V c) (w2Arr V c) j (n + 1) = _
    by_cases h0 : (n + 1) % 16 = 0
    · rw [if_pos h0, pay1_apply, zero_add]
      have e1 : (n + 1) % 16 + 1 = 1 := by omega
      have e2 : 16 * ((n + 1) / 16) + 0 = n + 1 := by omega
      rw [e1, Finset.sum_range_one, e2]
    · rw [if_neg h0, ih]
      have e1 : (n + 1) % 16 + 1 = (n % 16 + 1) + 1 := by omega
      have e2 : 16 * ((n + 1) / 16) = 16 * (n / 16) := by omega
      have e3 : 16 * (n / 16) + (n % 16 + 1) = n + 1 := by omega
      rw [e1, e2, Finset.sum_range_succ _ (n % 16 + 1), e3]

/-- Core `cc`'s row of the kernel's output: the sum of its sixteen tiles. -/
theorem outK_apply (cc : Fin 2) (j : Fin 729) :
    outK V c (ix3 cc (0 : Fin 1) j)
      = ∑ k ∈ Finset.range 16, tileSum (gArr V c) (w1Arr V c) (b1Arr V c) (w2Arr V c) j (16 * cc.val + k) := by
  have hN : cfg1.N = 32 := N_1
  have hcc := cc.isLt
  have h := acc_apply V c j (16 * cc.val + 15) (by omega)
  have e1 : (16 * cc.val + 15) % 16 + 1 = 16 := by omega
  have e2 : 16 * ((16 * cc.val + 15) / 16) = 16 * cc.val := by omega
  rw [e1, e2] at h
  exact h

end Blocks

/-! ## The logits of the kernel's output, the reference's logits, the two joined -/

/-- The logits at `j`: the two cores' entries and the output bias. -/
theorem logitsK_apply (o : Arr S2x1x729 .f32) (x9 : Arr S729 .f32) (j : Fin 729) :
    logitsK o x9 (ix2 (0 : Fin 1) j) = o (ix3 (0 : Fin 2) (0 : Fin 1) j) + o (ix3 (1 : Fin 2) (0 : Fin 1) j) + x9 (ix1 j) := by
  unfold logitsK
  rw [shapeCast_a_1a_apply, addf_apply, addf_apply]
  have row : ∀ (y : Arr S1x1x729 .f32), (shapeCast S729 y shapeCasts_S1x1x729_S729 : Arr S729 .f32) (ix1 j) = y (ix3 (0 : Fin 1) (0 : Fin 1) j) := fun y =>
    shapeCast_apply y shapeCasts_S1x1x729_S729 (ix1 j) (ix3 (0 : Fin 1) (0 : Fin 1) j) (by
      rw [Shape.rowMajor_val_three, Shape.rowMajor_val_one]
      show (0 * 1 + 0) * 729 + j.val = j.val
      omega)
  rw [row, row]
  rw [extractStridedSlice_apply ![0, 0, 0] o slices_S2x1x729_S1x1x729_0_0_0 (ix3 (0 : Fin 1) (0 : Fin 1) j) (ix3 (0 : Fin 2) (0 : Fin 1) j) (fun a => by
        match a with
        | ⟨0, _⟩ => rfl
        | ⟨1, _⟩ => rfl
        | ⟨2, _⟩ => exact (Nat.zero_add _).symm),
      extractStridedSlice_apply ![1, 0, 0] o slices_S2x1x729_S1x1x729_1_0_0 (ix3 (0 : Fin 1) (0 : Fin 1) j) (ix3 (1 : Fin 2) (0 : Fin 1) j) (fun a => by
        match a with
        | ⟨0, _⟩ => rfl
        | ⟨1, _⟩ => rfl
        | ⟨2, _⟩ => exact (Nat.zero_add _).symm)]

/-- The bias row at a column is the bias vector there. -/
theorem rs1_apply (x : Arr S8192 .f32) (n : Fin 8192) : rs1 x (ix2 (0 : Fin 1) n) = x (ix1 n) := by
  unfold rs1
  exact shapeCast_a_1a_apply x shapeCasts_S8192_S1x8192 0 n

/-- The reference's logits at `j`: the sum over the 8192 hidden units, and the output bias. -/
theorem ref_apply (x0 : Arr S81x10 .f32) (x1 : IArr S2x1620 32) (x2 : Arr S10x8192 .f32) (x3 x4 x5 : Arr S8192 .f32)
    (x6 : Arr S8192x8192 .f32) (x7 : Arr S8192 .f32) (x8 : Arr S8192x729 .f32) (x9 : Arr S729 .f32) (j : Fin 729) :
    val_main_v90 (F := Ideal) x0 x1 x2 x3 x4 x5 x6 x7 x8 x9 (ix2 (0 : Fin 1) j)
      = ∑ n : Fin 8192, contrib (val_main_v83 (F := Ideal) x0 x1 x2 x3 x4 x5) x6 (rs1 x7) x8 j n + x9 (ix1 j) := by
  rw [val_main_v90_apply, val_main_v88_apply, val_main_v89_apply]
  have i89 : idx_main_v89 (ix2 (0 : Fin 1) j) = ix1 j := funext fun a => by match a with | ⟨0, _⟩ => rfl
  rw [i89]
  refine congrArg (· + x9 (ix1 j)) (Finset.sum_congr rfl fun n _ => ?_)
  have il : lidx_main_v88 (ix2 (0 : Fin 1) j) n = ix2 (0 : Fin 1) n := funext fun a => by match a with | ⟨0, _⟩ => rfl | ⟨1, _⟩ => rfl
  have ir : ridx_main_v88 (ix2 (0 : Fin 1) j) n = ix2 n j := funext fun a => by match a with | ⟨0, _⟩ => rfl | ⟨1, _⟩ => rfl
  have i85 : idx_main_v85 (ix2 (0 : Fin 1) n) = ix1 n := funext fun a => by match a with | ⟨0, _⟩ => rfl
  rw [il, ir, val_main_v87_apply, val_main_v86_apply, val_main_v84_apply, val_main_v85_apply, val_main_call2_v0_apply, val_main_call2_cst_apply, i85]
  unfold contrib hid
  rw [rs1_apply]
  show max ((∑ k : Fin 8192, _) + x7 (ix1 n)) (Ideal.ofBits .f32 0x00000000#32) * x8 (ix2 n j) = _
  rw [Ideal.ofBits_zero_f32]
  refine congrArg (fun z => max (z + _) 0 * _) (Finset.sum_congr rfl fun p _ => ?_)
  have jl : lidx_main_v84 (ix2 (0 : Fin 1) n) p = ix2 (0 : Fin 1) p := funext fun a => by match a with | ⟨0, _⟩ => rfl | ⟨1, _⟩ => rfl
  have jr : ridx_main_v84 (ix2 (0 : Fin 1) n) p = ix2 p n := funext fun a => by match a with | ⟨0, _⟩ => rfl | ⟨1, _⟩ => rfl
  rw [jl, jr]

/-- The two cores' sixteen tiles each are the thirty-two tiles. -/
theorem sum_two_cores (T : ℕ → EReal) :
    ∑ k ∈ Finset.range 16, T (16 * 0 + k) + ∑ k ∈ Finset.range 16, T (16 * 1 + k) = ∑ t ∈ Finset.range 32, T t := by
  have h := Finset.sum_range_add T 16 16
  simp only [Nat.mul_zero, Nat.zero_add, Nat.mul_one]
  exact h.symm

/-- Whatever pooled features `g` the second kernel is entered with (beside the first layer's weights, its bias as a
    row, and the second layer's weights), the logits made of its output are the reference's logits of those features:
    the sum over the 8192 hidden units, split as 2 x 16 x 256. -/
theorem mlp_eq (V : (c : Dev nD) → (b : Ref sig .tc) → Buf (Elt Ideal) ((c : Thread nD τ).loc b)) (c : Dev nD) (x0 : Arr S81x10 .f32) (x1 : IArr S2x1620 32) (x2 : Arr S10x8192 .f32) (x3 x4 x5 : Arr S8192 .f32) (x6 : Arr S8192x8192 .f32) (x7 : Arr S8192 .f32) (x8 : Arr S8192x729 .f32) (x9 : Arr S729 .f32)
    (h0 : (V c main_v53 : Arr S1x8192 .f32) = val_main_v83 (F := Ideal) x0 x1 x2 x3 x4 x5)
    (h1 : (V c main_arg6 : Arr S8192x8192 .f32) = x6) (h2 : (V c main_v54 : Arr S1x8192 .f32) = rs1 x7)
    (h3 : (V c main_arg8 : Arr S8192x729 .f32) = x8) :
    logitsK (outK V c) x9 = val_main_v90 (F := Ideal) x0 x1 x2 x3 x4 x5 x6 x7 x8 x9 := by
  funext i
  obtain ⟨u, j, rfl⟩ : ∃ (u : Fin 1) (j : Fin 729), i = ix2 u j := ⟨i 0, i 1, eq_ix2 i⟩
  obtain rfl : u = 0 := Subsingleton.elim _ _
  rw [logitsK_apply, ref_apply, sum_tiles]
  refine congrArg (· + x9 (ix1 j)) ?_
  refine (congrArg₂ (· + ·) (outK_apply V c 0 j) (outK_apply V c 1 j)).trans ?_
  rw [show gArr V c = _ from h0, show w1Arr V c = _ from h1, show b1Arr V c = _ from h2, show w2Arr V c = _ from h3]
  exact sum_two_cores (tileSum (val_main_v83 (F := Ideal) x0 x1 x2 x3 x4 x5) x6 (rs1 x7) x8 j)

end Cert.KernelIdeal.HandV

end
-- ==== Proof.Val.Agg.lean ====
/- The aggregate: the kernel multiplies a dense adjacency, built by adding each edge's weight at (target, source),
   into the transformed features; the reference gathers each edge's source row, scales it by the edge's weight and adds it
   into the target row. Over real numbers and node indices in range the two are one double sum. -/
import proofs.«416509_j46643344834924_3_alg».proof.Proof.Val.Defs
import Idealize.ShloMosaic.Lib.StableHlo.Predicate

set_option maxRecDepth 16384

noncomputable section

namespace Cert.KernelIdeal.HandV

open Cert.KernelIdeal Cert.KernelIdeal.Gen Cert.KernelIdeal.Hand
open Cert.ReferenceIdeal.ReadP
open Idealize.ShloMosaic Idealize.ShloMosaic.TcCoe Idealize.ShloMosaic.ValueIdx
open Idealize.SL.Sem
open scoped BigOperators

/-! ## Real numbers among the extended reals -/

theorem coe_sum_real {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of real numbers is a real number. -/
theorem real_sum {ι : Type} (s : Finset ι) (f : ι → EReal) (hf : ∀ i ∈ s, ∃ r : ℝ, f i = (r : EReal)) :
    ∃ r : ℝ, ∑ i ∈ s, f i = (r : EReal) := by
  classical
  choose! g hg using hf
  exact ⟨∑ i ∈ s, g i, by rw [← coe_sum_real]; exact Finset.sum_congr rfl hg⟩

/-- The word of the number one denotes a real number. -/
theorem one_word_real : ∃ r : ℝ, Ideal.ofBits .f32 0x3F800000#32 = (r : EReal) := by
  dsimp only [Ideal.ofBits, Ideal.ieee]
  rw [if_neg (by decide), if_neg (by decide)]
  exact ⟨_, rfl⟩

/-- The number of edges into a node is a real number. -/
theorem v16_real (x1 : IArr S2x1620 32) (k : S81.Idx) : ∃ r : ℝ, val_main_v16 (F := Ideal) x1 k = (r : EReal) := by
  have key : ∀ S : Finset S1701.Idx, ∃ r : ℝ, val_main_v8 (F := Ideal) k + ∑ j ∈ S, val_main_v15 (F := Ideal) j = (r : EReal) := by
    intro S
    obtain ⟨o, ho⟩ := one_word_real
    obtain ⟨b, hb⟩ := real_sum S (val_main_v15 (F := Ideal)) (fun j _ => ⟨o, by
      rw [val_main_v15_apply, val_main_cst_1_apply]; exact ho⟩)
    refine ⟨0 + b, ?_⟩
    rw [hb, val_main_v8_apply, val_main_cst_apply, EReal.coe_add]
    show Ideal.ofBits .f32 0x00000000#32 + _ = _
    rw [Ideal.ofBits_zero_f32, EReal.coe_zero]
  exact key _

/-- The inverse square root of the degree, zero where the degree is not positive, is a real number. -/
theorem v20_real (x1 : IArr S2x1620 32) (k : S81.Idx) : ∃ r : ℝ, val_main_v20 (F := Ideal) x1 k = (r : EReal) := by
  obtain ⟨r, hr⟩ := v16_real x1 k
  rw [val_main_v20_apply]
  by_cases hc : val_main_v18 (F := Ideal) x1 k = 1#1
  · rw [hc, select_one, val_main_v19_apply, hr]
    rw [val_main_v18_apply, hr, val_main_v17_apply, val_main_cst_2_apply] at hc
    have hpos : (0 : EReal) < (r : EReal) := by
      have : BitVec.ofBool (decide (Ideal.ofBits .f32 0x00000000#32 < (r : EReal))) = 1#1 := hc
      rw [Ideal.ofBits_zero_f32] at this
      by_contra hn
      rw [decide_eq_false hn] at this
      exact absurd this (by decide)
    have hr0 : 0 < r := by exact_mod_cast hpos
    refine ⟨(Real.sqrt r)⁻¹, ?_⟩
    show Ideal.rsqrt (r : EReal) = _
    rw [Ideal.rsqrt_coe, if_neg (not_lt.mpr hr0.le), if_neg hr0.ne']
  · rw [eq_zero_of_ne_one hc, select_zero, val_main_call0_v1_apply, val_main_call0_v0_apply, val_main_cst_3_apply]
    exact ⟨0, by show Ideal.ofBits .f32 0x00000000#32 = _; rw [Ideal.ofBits_zero_f32, EReal.coe_zero]⟩

/-- Each edge's weight is a real number. -/
theorem v35_real (x1 : IArr S2x1620 32) (e : S1701.Idx) : ∃ r : ℝ, val_main_v35 (F := Ideal) x1 e = (r : EReal) := by
  have e27 : val_main_v27 (F := Ideal) x1 e = val_main_v20 (F := Ideal) x1
      (Cert.ReferenceIdeal.gather_S81_S1701x1_S1701_n_0_n_n_0_1_1.operandIdx e (val_main_v26 (F := Ideal) x1)) := rfl
  have e34 : val_main_v34 (F := Ideal) x1 e = val_main_v20 (F := Ideal) x1
      (Cert.ReferenceIdeal.gather_S81_S1701x1_S1701_n_0_n_n_0_1_1.operandIdx e (val_main_v33 (F := Ideal) x1)) := rfl
  obtain ⟨a, ha⟩ := v20_real x1 (Cert.ReferenceIdeal.gather_S81_S1701x1_S1701_n_0_n_n_0_1_1.operandIdx e (val_main_v26 (F := Ideal) x1))
  obtain ⟨b, hb⟩ := v20_real x1 (Cert.ReferenceIdeal.gather_S81_S1701x1_S1701_n_0_n_n_0_1_1.operandIdx e (val_main_v33 (F := Ideal) x1))
  rw [← e27] at ha
  rw [← e34] at hb
  exact ⟨a * b, by rw [val_main_v35_apply, ha, hb, EReal.coe_mul]; rfl⟩

/-- Each transformed feature is a real number. -/
theorem v7_real (x0 : Arr S81x10 .f32) (x2 : Arr S10x8192 .f32)
    (hx0 : ∀ i, ∃ r : ℝ, x0 i = (r : EReal)) (hx2 : ∀ i, ∃ r : ℝ, x2 i = (r : EReal)) (i : S81x8192.Idx) :
    ∃ r : ℝ, val_main_v7 (F := Ideal) x0 x2 i = (r : EReal) := by
  rw [val_main_v7_apply]
  refine real_sum _ _ (fun k _ => ?_)
  obtain ⟨a, ha⟩ := hx0 (lidx_main_v7 i k)
  obtain ⟨b, hb⟩ := hx2 (ridx_main_v7 i k)
  exact ⟨a * b, by rw [ha, hb, EReal.coe_mul]⟩

/-! ## The double sum -/

/-- THE DOUBLE SUM. Weights `n e` on edges `e` with target `D e` and source `S e`; features `h j` on nodes. Adding, over the
    sources `j`, the total weight of the edges from `j` into `i` times `h j` is adding, over the edges into `i`, the
    feature of the edge's source times its weight. -/
theorem dense_eq_edges {E N : Type} [Fintype E] [Fintype N] [DecidableEq N] (D S : E → N) (n : E → ℝ) (h : N → ℝ) (i : N) :
    ∑ j : N, ((0 : EReal) + ∑ e ∈ Finset.univ.filter (fun e => D e = i ∧ S e = j), ((n e : ℝ) : EReal)) * ((h j : ℝ) : EReal)
      = (0 : EReal) + ∑ e ∈ Finset.univ.filter (fun e => D e = i), ((h (S e) : ℝ) : EReal) * ((n e : ℝ) : EReal) := by
  have hL : ∀ j : N, ((0 : EReal) + ∑ e ∈ Finset.univ.filter (fun e => D e = i ∧ S e = j), ((n e : ℝ) : EReal)) * ((h j : ℝ) : EReal)
      = (((∑ e ∈ Finset.univ.filter (fun e => D e = i ∧ S e = j), n e) * h j : ℝ) : EReal) := by
    intro j
    rw [zero_add, coe_sum_real, ← EReal.coe_mul]
  have hR : ∀ e : E, ((h (S e) : ℝ) : EReal) * ((n e : ℝ) : EReal) = ((h (S e) * n e : ℝ) : EReal) := fun e => (EReal.coe_mul _ _).symm
  simp only [hL, hR]
  rw [zero_add, coe_sum_real, coe_sum_real]
  congr 1
  rw [← Finset.sum_fiberwise (Finset.univ.filter (fun e => D e = i)) S (fun e => h (S e) * n e)]
  refine Finset.sum_congr rfl fun j _ => ?_
  rw [Finset.sum_mul, Finset.filter_filter]
  refine Finset.sum_congr rfl fun e he => ?_
  rw [(Finset.mem_filter.1 he).2.2, mul_comm]

/-! ## Where an update lands; which entry a gather reads -/

theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · next h =>
    constructor
    · intro e a
      have e' := congrFun (Option.some.inj e) a
      have := h a
      rw [← e']
      show _ = ((Int.toNat _ : Nat) : Int)
      omega
    · intro e
      congr 1
      funext a
      refine Fin.ext ?_
      have := e a
      show Int.toNat _ = _
      omega
  · next h =>
    constructor
    · intro e; cases e
    · intro e
      exfalso
      apply h
      intro a
      have := e a
      have := (i a).isLt
      omega

/-- The accumulating scatter at an index, its landing condition restated: the operand's entry plus the updates that
    land there. -/
theorem scatterAdd_apply {s si su : Shape} (d : ScatterDims s si su) {w : Nat} (x : s.Idx → EReal) (idx : IVec si w)
    (upd : su.Idx → EReal) (i : s.Idx) (P : su.Idx → Prop) [DecidablePred P]
    (hP : ∀ j, d.resultIdx? j idx = some i ↔ P j) :
    Ideal.hostScatterAdd d x idx upd i = x i + ∑ j ∈ Finset.univ.filter P, upd j := by
  unfold Ideal.hostScatterAdd
  refine congrArg (x i + ·) (Finset.sum_congr (Finset.ext fun j => ?_) (fun _ _ => rfl))
  rw [Finset.mem_filter, Finset.mem_filter, hP]

theorem adj_start0 (e : S1701.Idx) (idx : IVec S1701x2 32) :
    scatter_S81x81_S1701x2_S1701_n_01_01_1.start e idx 0 = (idx (ix2 (e 0) (0 : Fin 2))).toInt := by
  unfold ScatterDims.start
  rw [dif_pos (show (0 : Fin S81x81.rank) ∈ scatter_S81x81_S1701x2_S1701_n_01_01_1.scatterDimsToOperandDims by decide)]
  congr 2
  funext b; refine Fin.ext ?_
  match b with
  | ⟨0, _⟩ => rfl
  | ⟨1, _⟩ => rfl

theorem adj_start1 (e : S1701.Idx) (idx : IVec S1701x2 32) :
    scatter_S81x81_S1701x2_S1701_n_01_01_1.start e idx 1 = (idx (ix2 (e 0) (1 : Fin 2))).toInt := by
  unfold ScatterDims.start
  rw [dif_pos (show (1 : Fin S81x81.rank) ∈ scatter_S81x81_S1701x2_S1701_n_01_01_1.scatterDimsToOperandDims by decide)]
  congr 2
  funext b; refine Fin.ext ?_
  match b with
  | ⟨0, _⟩ => rfl
  | ⟨1, _⟩ => rfl

theorem adj_window (e : S1701.Idx) (a : Fin S81x81.rank) :
    scatter_S81x81_S1701x2_S1701_n_01_01_1.window e a = 0 := by
  unfold ScatterDims.window
  rw [dif_neg]
  intro h
  revert h
  revert a
  decide

theorem ref_start0 (u : Cert.ReferenceIdeal.S1701x8192.Idx) (idx : IVec S1701x1 32) :
    Cert.ReferenceIdeal.scatter_S81x8192_S1701x1_S1701x8192_1_0_0_1.start u idx 0 = (idx (ix2 (u 0) (0 : Fin 1))).toInt := by
  unfold ScatterDims.start
  rw [dif_pos (show (0 : Fin S81x8192.rank) ∈ Cert.ReferenceIdeal.scatter_S81x8192_S1701x1_S1701x8192_1_0_0_1.scatterDimsToOperandDims by decide)]
  congr 2
  funext b; refine Fin.ext ?_
  match b with
  | ⟨0, _⟩ => rfl
  | ⟨1, _⟩ => rfl

theorem ref_start1 (u : Cert.ReferenceIdeal.S1701x8192.Idx) (idx : IVec S1701x1 32) :
    Cert.ReferenceIdeal.scatter_S81x8192_S1701x1_S1701x8192_1_0_0_1.start u idx 1 = 0 := by
  unfold ScatterDims.start
  rw [dif_neg (show ¬ (1 : Fin S81x8192.rank) ∈ Cert.ReferenceIdeal.scatter_S81x8192_S1701x1_S1701x8192_1_0_0_1.scatterDimsToOperandDims by decide)]

theorem ref_window0 (u : Cert.ReferenceIdeal.S1701x8192.Idx) :
    Cert.ReferenceIdeal.scatter_S81x8192_S1701x1_S1701x8192_1_0_0_1.window u 0 = 0 := by
  unfold ScatterDims.window
  rw [dif_neg (show ¬ (0 : Fin S81x8192.rank) ∈ Cert.ReferenceIdeal.scatter_S81x8192_S1701x1_S1701x8192_1_0_0_1.sKept by decide)]

theorem ref_window1 (u : Cert.ReferenceIdeal.S1701x8192.Idx) :
    Cert.ReferenceIdeal.scatter_S81x8192_S1701x1_S1701x8192_1_0_0_1.window u 1 = (u 1).val := by
  unfold ScatterDims.window
  rw [dif_pos (show (1 : Fin S81x8192.rank) ∈ Cert.ReferenceIdeal.scatter_S81x8192_S1701x1_S1701x8192_1_0_0_1.sKept by decide)]
  rfl

theorem gat_idx0 (u : Cert.ReferenceIdeal.S1701x8192.Idx) (idx : IVec S1701x1 32) :
    (Cert.ReferenceIdeal.gather_S81x8192_S1701x1_S1701x8192_1_0_n_n_0_1_18192.operandIdx u idx 0).val
      = min (idx (ix2 (u 0) (0 : Fin 1))).toInt.toNat 80 := by
  show Cert.ReferenceIdeal.gather_S81x8192_S1701x1_S1701x8192_1_0_n_n_0_1_18192.start u idx 0
    + Cert.ReferenceIdeal.gather_S81x8192_S1701x1_S1701x8192_1_0_n_n_0_1_18192.batchCoord u 0
    + Cert.ReferenceIdeal.gather_S81x8192_S1701x1_S1701x8192_1_0_n_n_0_1_18192.offCoord u 0 = _
  rw [GatherDims.batchCoord_eq_zero _ _ _ List.not_mem_nil,
    GatherDims.offCoord_eq_zero _ _ _ (show ¬ (0 : Fin S81x8192.rank) ∈ Cert.ReferenceIdeal.gather_S81x8192_S1701x1_S1701x8192_1_0_n_n_0_1_18192.sKept by decide)]
  simp only [Nat.add_zero]
  unfold GatherDims.start
  rw [dif_pos (show (0 : Fin S81x8192.rank) ∈ Cert.ReferenceIdeal.gather_S81x8192_S1701x1_S1701x8192_1_0_n_n_0_1_18192.startIndexMap by decide)]
  show min (idx _).toInt.toNat 80 = _
  congr 4
  funext b; refine Fin.ext ?_
  match b with
  | ⟨0, _⟩ => rfl
  | ⟨1, _⟩ => rfl

theorem gat_idx1 (u : Cert.ReferenceIdeal.S1701x8192.Idx) (idx : IVec S1701x1 32) :
    (Cert.ReferenceIdeal.gather_S81x8192_S1701x1_S1701x8192_1_0_n_n_0_1_18192.operandIdx u idx 1).val = (u 1).val := by
  show Cert.ReferenceIdeal.gather_S81x8192_S1701x1_S1701x8192_1_0_n_n_0_1_18192.start u idx 1
    + Cert.ReferenceIdeal.gather_S81x8192_S1701x1_S1701x8192_1_0_n_n_0_1_18192.batchCoord u 1
    + Cert.ReferenceIdeal.gather_S81x8192_S1701x1_S1701x8192_1_0_n_n_0_1_18192.offCoord u 1 = _
  rw [GatherDims.batchCoord_eq_zero _ _ _ List.not_mem_nil]
  unfold GatherDims.start
  rw [dif_neg (show ¬ (1 : Fin S81x8192.rank) ∈ Cert.ReferenceIdeal.gather_S81x8192_S1701x1_S1701x8192_1_0_n_n_0_1_18192.startIndexMap by decide)]
  unfold GatherDims.offCoord
  rw [dif_pos (show (1 : Fin S81x8192.rank) ∈ Cert.ReferenceIdeal.gather_S81x8192_S1701x1_S1701x8192_1_0_n_n_0_1_18192.sKept by decide)]
  simp only [Nat.zero_add, Nat.add_zero]
  rfl

/-! ## The edge endpoints are node indices -/

/-- A word whose signed value is not negative is not below zero, so wrapping it leaves it as it is. -/
theorem wrap_id (a b : BitVec 32) (h : 0 ≤ a.toInt) : Scalar.select (IntOp.cmpi .slt a 0#32) b a = a := by
  have hc : IntOp.cmpi .slt a 0#32 = 0#1 := by
    show BitVec.ofBool (a.slt 0#32) = 0#1
    have : a.slt 0#32 = false := by
      simp only [BitVec.slt, BitVec.toInt_zero, decide_eq_false_iff_not, not_lt]
      exact h
    rw [this]; rfl
  rw [hc]; exact select_zero _ _

/-- The targets: the second row of the edge list, then the nodes themselves. Each is a node index. -/
theorem v6_range (x1 : IArr S2x1620 32) (hx1 : ∀ i, 0 ≤ (x1 i).toInt ∧ (x1 i).toInt < 81) (e : S1701.Idx) :
    0 ≤ (val_main_v6 (F := Ideal) x1 e).toInt ∧ (val_main_v6 (F := Ideal) x1 e).toInt < 81 := by
  unfold val_main_v6
  by_cases hlt : (e 0).val < 1620
  · rw [concatenate_pair_apply_left (t := S1701) (s₁ := S1620) (s₂ := S81) (0 : Fin S1701.rank) _ _ _ e rfl (ix1 (⟨(e 0).val, hlt⟩ : Fin 1620))
      (fun b => match b with | ⟨0, _⟩ => rfl)]
    rw [val_main_v5_apply, val_main_v4_apply]
    exact hx1 _
  · have h0 : (e 0).val < 1701 := (e 0).isLt
    have hq : (e 0).val - 1620 < 81 := by omega
    rw [concatenate_pair_apply_right (t := S1701) (s₁ := S1620) (s₂ := S81) (0 : Fin S1701.rank) _ _ _ e rfl rfl (ix1 (⟨(e 0).val - 1620, hq⟩ : Fin 81))
      (fun b hb => absurd (Subsingleton.elim _ _) hb)
      (by show (e 0).val - 1620 + 1620 = (e 0).val; omega)]
    rw [val_main_v0_apply]
    rw [Idealize.ShloMosaic.StableHlo.Predicate.toInt_ofNat_small _ (by show (e 0).val - 1620 < 2 ^ 31; omega)]
    show (0 : Int) ≤ (((e 0).val - 1620 : Nat) : Int) ∧ (((e 0).val - 1620 : Nat) : Int) < 81
    omega

/-- The sources: the first row of the edge list, then the nodes themselves. Each is a node index. -/
theorem v3_range (x1 : IArr S2x1620 32) (hx1 : ∀ i, 0 ≤ (x1 i).toInt ∧ (x1 i).toInt < 81) (e : S1701.Idx) :
    0 ≤ (val_main_v3 (F := Ideal) x1 e).toInt ∧ (val_main_v3 (F := Ideal) x1 e).toInt < 81 := by
  unfold val_main_v3
  by_cases hlt : (e 0).val < 1620
  · rw [concatenate_pair_apply_left (t := S1701) (s₁ := S1620) (s₂ := S81) (0 : Fin S1701.rank) _ _ _ e rfl (ix1 (⟨(e 0).val, hlt⟩ : Fin 1620))
      (fun b => match b with | ⟨0, _⟩ => rfl)]
    rw [val_main_v2_apply, val_main_v1_apply]
    exact hx1 _
  · have h0 : (e 0).val < 1701 := (e 0).isLt
    have hq : (e 0).val - 1620 < 81 := by omega
    rw [concatenate_pair_apply_right (t := S1701) (s₁ := S1620) (s₂ := S81) (0 : Fin S1701.rank) _ _ _ e rfl rfl (ix1 (⟨(e 0).val - 1620, hq⟩ : Fin 81))
      (fun b hb => absurd (Subsingleton.elim _ _) hb)
      (by show (e 0).val - 1620 + 1620 = (e 0).val; omega)]
    rw [val_main_v0_apply]
    rw [Idealize.ShloMosaic.StableHlo.Predicate.toInt_ofNat_small _ (by show (e 0).val - 1620 < 2 ^ 31; omega)]
    show (0 : Int) ≤ (((e 0).val - 1620 : Nat) : Int) ∧ (((e 0).val - 1620 : Nat) : Int) < 81
    omega

/-- A target in range is its own wrapped form. -/
theorem v51_eq (x1 : IArr S2x1620 32) (hx1 : ∀ i, 0 ≤ (x1 i).toInt ∧ (x1 i).toInt < 81) (e : S1701.Idx) :
    val_main_v51 (F := Ideal) x1 e = val_main_v6 (F := Ideal) x1 e := by
  rw [val_main_v51_apply, val_main_v48_apply, val_main_v47_apply, val_main_c_11_apply]
  exact wrap_id _ _ (v6_range x1 hx1 e).1

/-- A source in range is its own wrapped form. -/
theorem v40_eq (x1 : IArr S2x1620 32) (hx1 : ∀ i, 0 ≤ (x1 i).toInt ∧ (x1 i).toInt < 81) (e : S1701.Idx) :
    val_main_v40 (F := Ideal) x1 e = val_main_v3 (F := Ideal) x1 e := by
  rw [val_main_v40_apply, val_main_v37_apply, val_main_v36_apply, val_main_c_8_apply]
  exact wrap_id _ _ (v3_range x1 hx1 e).1

/-- The pairs (target, source) the dense adjacency is scattered at. -/
abbrev idxA (x1 : IArr S2x1620 32) : IVec S1701x2 32 :=
  concatenate S1701x2 1
      [⟨S1701x1, broadcastInDim S1701x1 ![0] bcast_S1701_S1701x1_0 (val_main_v51 (F := Ideal) x1)⟩,
       ⟨S1701x1, broadcastInDim S1701x1 ![0] bcast_S1701_S1701x1_0 (val_main_v40 (F := Ideal) x1)⟩]
      concatenates_S1701x1_S1701x1_S1701x2_d1

theorem idxA_0 (x1 : IArr S2x1620 32) (e : S1701.Idx) :
    idxA x1 (ix2 (e 0) (0 : Fin 2)) = val_main_v51 (F := Ideal) x1 e := by
  unfold idxA
  rw [concatenate_pair_apply_left (t := S1701x2) (s₁ := S1701x1) (s₂ := S1701x1) (1 : Fin S1701x2.rank) _ _ _
    (ix2 (e 0) (0 : Fin 2)) rfl (ix2 (e 0) (0 : Fin 1)) (fun b => match b with | ⟨0, _⟩ => rfl | ⟨1, _⟩ => rfl)]
  refine (val_main_v52_apply (F := Ideal) x1 (ix2 (e 0) (0 : Fin 1))).trans (congrArg _ ?_)
  funext a
  match a with
  | ⟨0, _⟩ => rfl

theorem idxA_1 (x1 : IArr S2x1620 32) (e : S1701.Idx) :
    idxA x1 (ix2 (e 0) (1 : Fin 2)) = val_main_v40 (F := Ideal) x1 e := by
  unfold idxA
  rw [concatenate_pair_apply_right (t := S1701x2) (s₁ := S1701x1) (s₂ := S1701x1) (1 : Fin S1701x2.rank) _ _ _
    (ix2 (e 0) (1 : Fin 2)) rfl rfl (ix2 (e 0) (0 : Fin 1))
    (fun b => match b with | ⟨0, _⟩ => fun _ => rfl | ⟨1, _⟩ => fun h => absurd rfl h) rfl]
  refine (val_main_v41_apply (F := Ideal) x1 (ix2 (e 0) (0 : Fin 1))).trans (congrArg _ ?_)
  funext a
  match a with
  | ⟨0, _⟩ => rfl

/-- THE DENSE ADJACENCY AT (i, j): the weights of the edges whose wrapped target is i and wrapped source is j. -/
theorem adjK_apply (x1 : IArr S2x1620 32) (i j : Fin 81) :
    adjK x1 (ix2 i j) = 0 + ∑ e ∈ Finset.univ.filter (fun e : S1701.Idx =>
        (val_main_v51 (F := Ideal) x1 e).toInt = (i.val : Int) ∧ (val_main_v40 (F := Ideal) x1 e).toInt = (j.val : Int)),
      val_main_v35 (F := Ideal) x1 e := by
  show Ideal.hostScatterAdd scatter_S81x81_S1701x2_S1701_n_01_01_1 _ (idxA x1) (val_main_v35 (F := Ideal) x1) (ix2 i j) = _
  rw [scatterAdd_apply scatter_S81x81_S1701x2_S1701_n_01_01_1 _ (idxA x1) (val_main_v35 (F := Ideal) x1) (ix2 i j)
    (fun e : S1701.Idx => (val_main_v51 (F := Ideal) x1 e).toInt = (i.val : Int) ∧ (val_main_v40 (F := Ideal) x1 e).toInt = (j.val : Int))
    (fun e => by
      rw [resultIdx?_eq_some_iff]
      refine ⟨fun h => ⟨?_, ?_⟩, fun h a => ?_⟩
      · have := h 0
        rw [adj_start0, adj_window, idxA_0] at this
        simpa using this
      · have := h 1
        rw [adj_start1, adj_window, idxA_1] at this
        simpa using this
      · match a with
        | ⟨0, _⟩ =>
          show scatter_S81x81_S1701x2_S1701_n_01_01_1.start e (idxA x1) 0 + ((scatter_S81x81_S1701x2_S1701_n_01_01_1.window e 0 : Nat) : Int) = (i.val : Int)
          rw [adj_start0, adj_window, idxA_0, h.1]; simp
        | ⟨1, _⟩ =>
          show scatter_S81x81_S1701x2_S1701_n_01_01_1.start e (idxA x1) 1 + ((scatter_S81x81_S1701x2_S1701_n_01_01_1.window e 1 : Nat) : Int) = (j.val : Int)
          rw [adj_start1, adj_window, idxA_1, h.2]; simp)]
  show Ideal.ofBits .f32 0x00000000#32 + _ = _
  rw [Ideal.ofBits_zero_f32]

/-! ## The reference's aggregate at an index -/

/-- The gathered features at (e, c): the transformed features of the edge's source, column c. -/
theorem v42_at (x0 : Arr S81x10 .f32) (x1 : IArr S2x1620 32) (x2 : Arr S10x8192 .f32) (e : S1701.Idx) (c : Fin 8192)
    (s : Fin 81) (hs : (val_main_v40 (F := Ideal) x1 e).toInt = (s.val : Int)) :
    val_main_v42 (F := Ideal) x0 x1 x2 (ix2 (e 0) c) = val_main_v7 (F := Ideal) x0 x2 (ix2 s c) := by
  show val_main_v7 (F := Ideal) x0 x2 (Cert.ReferenceIdeal.gather_S81x8192_S1701x1_S1701x8192_1_0_n_n_0_1_18192.operandIdx
    (ix2 (e 0) c) (val_main_v41 (F := Ideal) x1)) = _
  congr 1
  funext a
  refine Fin.ext ?_
  have e41 : val_main_v41 (F := Ideal) x1 (ix2 (e 0) (0 : Fin 1)) = val_main_v40 (F := Ideal) x1 e :=
    (val_main_v41_apply (F := Ideal) x1 _).trans (congrArg _ (funext fun a => match a with | ⟨0, _⟩ => rfl))
  match a with
  | ⟨0, _⟩ =>
    refine (gat_idx0 (ix2 (e 0) c) (val_main_v41 (F := Ideal) x1)).trans ?_
    show min (val_main_v41 (F := Ideal) x1 (ix2 (e 0) (0 : Fin 1))).toInt.toNat 80 = s.val
    rw [e41, hs, Int.toNat_natCast]
    have := s.isLt
    omega
  | ⟨1, _⟩ => exact gat_idx1 (ix2 (e 0) c) (val_main_v41 (F := Ideal) x1)

/-- The scaled gathered features at (e, c). -/
theorem v45_at (x0 : Arr S81x10 .f32) (x1 : IArr S2x1620 32) (x2 : Arr S10x8192 .f32) (e : S1701.Idx) (c : Fin 8192)
    (s : Fin 81) (hs : (val_main_v40 (F := Ideal) x1 e).toInt = (s.val : Int)) :
    val_main_v45 (F := Ideal) x0 x1 x2 (ix2 (e 0) c) = val_main_v7 (F := Ideal) x0 x2 (ix2 s c) * val_main_v35 (F := Ideal) x1 e := by
  rw [val_main_v45_apply, Ideal.mulf_def, val_main_v44_apply, val_main_v43_apply, v42_at x0 x1 x2 e c s hs]
  refine congrArg (_ * val_main_v35 (F := Ideal) x1 ·) ?_
  funext a
  match a with
  | ⟨0, _⟩ => rfl

/-- THE REFERENCE'S AGGREGATE AT (i, c): the update entries (e, c') whose wrapped target is i and whose column is c. -/
theorem v53_apply (x0 : Arr S81x10 .f32) (x1 : IArr S2x1620 32) (x2 : Arr S10x8192 .f32) (i : Fin 81) (c : Fin 8192) :
    val_main_v53 (F := Ideal) x0 x1 x2 (ix2 i c) = 0 + ∑ u ∈ Finset.univ.filter (fun u : Cert.ReferenceIdeal.S1701x8192.Idx =>
        (val_main_v51 (F := Ideal) x1 (ix1 (u 0))).toInt = (i.val : Int) ∧ (u 1).val = c.val),
      val_main_v45 (F := Ideal) x0 x1 x2 u := by
  show Ideal.hostScatterAdd Cert.ReferenceIdeal.scatter_S81x8192_S1701x1_S1701x8192_1_0_0_1 _ (val_main_v52 (F := Ideal) x1)
    (val_main_v45 (F := Ideal) x0 x1 x2) (ix2 i c) = _
  rw [scatterAdd_apply Cert.ReferenceIdeal.scatter_S81x8192_S1701x1_S1701x8192_1_0_0_1 _ (val_main_v52 (F := Ideal) x1)
    (val_main_v45 (F := Ideal) x0 x1 x2) (ix2 i c)
    (fun u : Cert.ReferenceIdeal.S1701x8192.Idx => (val_main_v51 (F := Ideal) x1 (ix1 (u 0))).toInt = (i.val : Int) ∧ (u 1).val = c.val)
    (fun u => by
      have e52 : val_main_v52 (F := Ideal) x1 (ix2 (u 0) (0 : Fin 1)) = val_main_v51 (F := Ideal) x1 (ix1 (u 0)) :=
        (val_main_v52_apply (F := Ideal) x1 _).trans (congrArg _ (funext fun a => match a with | ⟨0, _⟩ => rfl))
      rw [resultIdx?_eq_some_iff]
      refine ⟨fun h => ⟨?_, ?_⟩, fun h a => ?_⟩
      · have := h 0
        rw [ref_start0, ref_window0, e52] at this
        simpa using this
      · have := h 1
        rw [ref_start1, ref_window1] at this
        have h2 : (((u 1).val : Nat) : Int) = ((c.val : Nat) : Int) := by simpa using this
        exact_mod_cast h2
      · match a with
        | ⟨0, _⟩ =>
          show Cert.ReferenceIdeal.scatter_S81x8192_S1701x1_S1701x8192_1_0_0_1.start u (val_main_v52 (F := Ideal) x1) 0
            + ((Cert.ReferenceIdeal.scatter_S81x8192_S1701x1_S1701x8192_1_0_0_1.window u 0 : Nat) : Int) = (i.val : Int)
          rw [ref_start0, ref_window0, e52, h.1]; simp
        | ⟨1, _⟩ =>
          show Cert.ReferenceIdeal.scatter_S81x8192_S1701x1_S1701x8192_1_0_0_1.start u (val_main_v52 (F := Ideal) x1) 1
            + ((Cert.ReferenceIdeal.scatter_S81x8192_S1701x1_S1701x8192_1_0_0_1.window u 1 : Nat) : Int) = (c.val : Int)
          rw [ref_start1, ref_window1, h.2]; simp)]
  show Ideal.ofBits .f32 0x00000000#32 + _ = _
  rw [Ideal.ofBits_zero_f32]

/-- … which is a sum over the edges into i. -/
theorem v53_edges (x0 : Arr S81x10 .f32) (x1 : IArr S2x1620 32) (x2 : Arr S10x8192 .f32) (i : Fin 81) (c : Fin 8192) :
    val_main_v53 (F := Ideal) x0 x1 x2 (ix2 i c) = 0 + ∑ e ∈ Finset.univ.filter (fun e : S1701.Idx =>
        (val_main_v51 (F := Ideal) x1 e).toInt = (i.val : Int)),
      val_main_v45 (F := Ideal) x0 x1 x2 (ix2 (e 0) c) := by
  rw [v53_apply]
  refine congrArg ((0 : EReal) + ·) ?_
  refine Finset.sum_nbij' (fun u => ix1 (u 0)) (fun e => ix2 (e 0) c) ?_ ?_ ?_ ?_ ?_
  · intro u hu
    exact Finset.mem_filter.2 ⟨Finset.mem_univ _, (Finset.mem_filter.1 hu).2.1⟩
  · intro e he
    refine Finset.mem_filter.2 ⟨Finset.mem_univ _, ?_, rfl⟩
    have : ix1 ((ix2 (e 0) c : Cert.ReferenceIdeal.S1701x8192.Idx) 0) = e := (eq_ix1 e).symm
    exact (congrArg (fun z => (val_main_v51 (F := Ideal) x1 z).toInt) this).trans (Finset.mem_filter.1 he).2
  · intro u hu
    have h1 : u 1 = c := Fin.ext (Finset.mem_filter.1 hu).2.2
    refine ((eq_ix2 u).trans ?_).symm
    rw [h1]
    rfl
  · intro e _
    exact (eq_ix1 e).symm
  · intro u hu
    have h1 : u 1 = c := Fin.ext (Finset.mem_filter.1 hu).2.2
    refine congrArg _ ((eq_ix2 u).trans ?_)
    rw [h1]
    rfl

/-! ## The kernel's aggregate at an index -/

theorem lhs_agg_0 (i : S81x8192.Idx) (q : dot_S81x81_S81x8192_S81x8192_1_0_0_1_n_n.contr.Idx) :
    (dot_S81x81_S81x8192_S81x8192_1_0_0_1_n_n.lhsIdx i q 0).val = (i 0).val := by
  unfold DotDims.lhsIdx
  rw [dif_neg (show ¬(0 : Fin S81x81.rank) ∈ dot_S81x81_S81x8192_S81x8192_1_0_0_1_n_n.lhsBatch by decide), dif_pos (show (0 : Fin S81x81.rank) ∈ dot_S81x81_S81x8192_S81x8192_1_0_0_1_n_n.lhsNonContracting by decide)]
  rfl
theorem lhs_agg_1 (i : S81x8192.Idx) (q : dot_S81x81_S81x8192_S81x8192_1_0_0_1_n_n.contr.Idx) :
    (dot_S81x81_S81x8192_S81x8192_1_0_0_1_n_n.lhsIdx i q 1).val = (q ⟨0, by decide⟩).val :=
  dot_S81x81_S81x8192_S81x8192_1_0_0_1_n_n.lhsIdx_val_of_single rfl i q
theorem rhs_agg_0 (i : S81x8192.Idx) (q : dot_S81x81_S81x8192_S81x8192_1_0_0_1_n_n.contr.Idx) :
    (dot_S81x81_S81x8192_S81x8192_1_0_0_1_n_n.rhsIdx i q 0).val = (q ⟨0, by decide⟩).val :=
  dot_S81x81_S81x8192_S81x8192_1_0_0_1_n_n.rhsIdx_val_of_single rfl i q
theorem rhs_agg_1 (i : S81x8192.Idx) (q : dot_S81x81_S81x8192_S81x8192_1_0_0_1_n_n.contr.Idx) :
    (dot_S81x81_S81x8192_S81x8192_1_0_0_1_n_n.rhsIdx i q 1).val = (i 1).val := by
  unfold DotDims.rhsIdx
  rw [dif_neg (show ¬(1 : Fin S81x8192.rank) ∈ dot_S81x81_S81x8192_S81x8192_1_0_0_1_n_n.rhsBatch by decide), dif_pos (show (1 : Fin S81x8192.rank) ∈ dot_S81x81_S81x8192_S81x8192_1_0_0_1_n_n.rhsNonContracting by decide)]
  rfl

/-- The kernel's product of features and weights into zero is the reference's transformed features. -/
theorem inner_eq (x0 : Arr S81x10 .f32) (x2 : Arr S10x8192 .f32) (q : S81x8192.Idx) :
    matmul dot_S81x10_S10x8192_S81x8192_1_0_0_1_n_n none (truncf .bf16 x0 bitsLt_bf16_f32) (truncf .bf16 x2 bitsLt_bf16_f32)
      (constant S81x8192 .f32 0x00000000#32) q = val_main_v7 (F := Ideal) x0 x2 q := by
  show FloatOps.matmul _ none _ _ (constant S81x8192 .f32 0x00000000#32) q = _
  rw [Ideal.matmul_constant_zero_apply]
  unfold val_main_v7
  simp only [Host.dotGeneral]
  rw [Ideal.dotGeneral_apply]
  rfl

/-- THE KERNEL'S AGGREGATE AT (i, c): the adjacency's row i against column c of the transformed features. -/
theorem aggK_apply (x0 : Arr S81x10 .f32) (x1 : IArr S2x1620 32) (x2 : Arr S10x8192 .f32) (i : Fin 81) (c : Fin 8192) :
    aggK x0 x1 x2 (ix2 i c) = ∑ j : Fin 81, adjK x1 (ix2 i j) * val_main_v7 (F := Ideal) x0 x2 (ix2 j c) := by
  unfold aggK
  show FloatOps.matmul dot_S81x81_S81x8192_S81x8192_1_0_0_1_n_n none _ _ (constant S81x8192 .f32 0x00000000#32) (ix2 i c) = _
  rw [Ideal.matmul_constant_zero_apply, ← Equiv.sum_comp (contrEquiv1 dot_S81x81_S81x8192_S81x8192_1_0_0_1_n_n 81 rfl rfl).symm]
  refine Finset.sum_congr rfl fun j _ => ?_
  have hk := contrEquiv1_symm_val dot_S81x81_S81x8192_S81x8192_1_0_0_1_n_n 81 rfl rfl j
  have el : dot_S81x81_S81x8192_S81x8192_1_0_0_1_n_n.lhsIdx (ix2 i c) ((contrEquiv1 dot_S81x81_S81x8192_S81x8192_1_0_0_1_n_n 81 rfl rfl).symm j) = ix2 i j := funext fun a => Fin.ext (by
    match a with
    | ⟨0, _⟩ => exact lhs_agg_0 _ _
    | ⟨1, _⟩ => exact (lhs_agg_1 _ _).trans hk)
  have er : dot_S81x81_S81x8192_S81x8192_1_0_0_1_n_n.rhsIdx (ix2 i c) ((contrEquiv1 dot_S81x81_S81x8192_S81x8192_1_0_0_1_n_n 81 rfl rfl).symm j) = ix2 j c := funext fun a => Fin.ext (by
    match a with
    | ⟨0, _⟩ => exact (rhs_agg_0 _ _).trans hk
    | ⟨1, _⟩ => exact rhs_agg_1 _ _)
  rw [el, er, truncf_apply, truncf_apply, shapeCast_self]
  exact congrArg (adjK x1 (ix2 i j) * ·) (inner_eq x0 x2 (ix2 j c))

/-! ## The two aggregates -/

/-- An edge's target, as a node. -/
def dstN (x1 : IArr S2x1620 32) (hx1 : ∀ i, 0 ≤ (x1 i).toInt ∧ (x1 i).toInt < 81) (e : S1701.Idx) : Fin 81 :=
  ⟨(val_main_v6 (F := Ideal) x1 e).toInt.toNat, by have := v6_range x1 hx1 e; omega⟩

/-- An edge's source, as a node. -/
def srcN (x1 : IArr S2x1620 32) (hx1 : ∀ i, 0 ≤ (x1 i).toInt ∧ (x1 i).toInt < 81) (e : S1701.Idx) : Fin 81 :=
  ⟨(val_main_v3 (F := Ideal) x1 e).toInt.toNat, by have := v3_range x1 hx1 e; omega⟩

theorem dstN_iff (x1 : IArr S2x1620 32) (hx1 : ∀ i, 0 ≤ (x1 i).toInt ∧ (x1 i).toInt < 81) (e : S1701.Idx) (k : Fin 81) :
    (val_main_v51 (F := Ideal) x1 e).toInt = (k.val : Int) ↔ dstN x1 hx1 e = k := by
  rw [v51_eq x1 hx1 e]
  have := v6_range x1 hx1 e
  constructor
  · intro h
    exact Fin.ext (by show (val_main_v6 (F := Ideal) x1 e).toInt.toNat = k.val; omega)
  · intro h
    have h' : (val_main_v6 (F := Ideal) x1 e).toInt.toNat = k.val := congrArg Fin.val h
    omega

theorem srcN_iff (x1 : IArr S2x1620 32) (hx1 : ∀ i, 0 ≤ (x1 i).toInt ∧ (x1 i).toInt < 81) (e : S1701.Idx) (k : Fin 81) :
    (val_main_v40 (F := Ideal) x1 e).toInt = (k.val : Int) ↔ srcN x1 hx1 e = k := by
  rw [v40_eq x1 hx1 e]
  have := v3_range x1 hx1 e
  constructor
  · intro h
    exact Fin.ext (by show (val_main_v3 (F := Ideal) x1 e).toInt.toNat = k.val; omega)
  · intro h
    have h' : (val_main_v3 (F := Ideal) x1 e).toInt.toNat = k.val := congrArg Fin.val h
    omega

/-- With real features and weights and every edge endpoint a node index, the kernel's aggregate is the reference's. -/
theorem agg_eq (x0 : Arr S81x10 .f32) (x1 : IArr S2x1620 32) (x2 : Arr S10x8192 .f32)
    (hx0 : ∀ i, ∃ r : ℝ, x0 i = (r : EReal)) (hx2 : ∀ i, ∃ r : ℝ, x2 i = (r : EReal))
    (hx1 : ∀ i, 0 ≤ (x1 i).toInt ∧ (x1 i).toInt < 81) :
    aggK x0 x1 x2 = val_main_v53 (F := Ideal) x0 x1 x2 := by
  funext q
  obtain ⟨i, c, rfl⟩ : ∃ (i : Fin 81) (c : Fin 8192), q = ix2 i c := ⟨q 0, q 1, eq_ix2 q⟩
  choose n hn using v35_real x1
  choose h hh using fun j : Fin 81 => v7_real x0 x2 hx0 hx2 (ix2 j c)
  have eL : ∀ j : Fin 81, adjK x1 (ix2 i j) * val_main_v7 (F := Ideal) x0 x2 (ix2 j c)
      = ((0 : EReal) + ∑ e ∈ Finset.univ.filter (fun e => dstN x1 hx1 e = i ∧ srcN x1 hx1 e = j), ((n e : ℝ) : EReal)) * ((h j : ℝ) : EReal) := by
    intro j
    rw [adjK_apply, hh j]
    refine congrArg (fun z => ((0 : EReal) + z) * ((h j : ℝ) : EReal)) ?_
    exact Finset.sum_congr (Finset.filter_congr fun e _ => and_congr (dstN_iff x1 hx1 e i) (srcN_iff x1 hx1 e j)) (fun e _ => hn e)
  have eR : ∑ e ∈ Finset.univ.filter (fun e : S1701.Idx => (val_main_v51 (F := Ideal) x1 e).toInt = (i.val : Int)),
        val_main_v45 (F := Ideal) x0 x1 x2 (ix2 (e 0) c)
      = ∑ e ∈ Finset.univ.filter (fun e => dstN x1 hx1 e = i), ((h (srcN x1 hx1 e) : ℝ) : EReal) * ((n e : ℝ) : EReal) := by
    refine Finset.sum_congr (Finset.filter_congr fun e _ => dstN_iff x1 hx1 e i) (fun e _ => ?_)
    rw [v45_at x0 x1 x2 e c (srcN x1 hx1 e) ((srcN_iff x1 hx1 e _).2 rfl), hh, hn]
  rw [aggK_apply, v53_edges, Finset.sum_congr rfl (fun j _ => eL j), eR]
  exact dense_eq_edges (dstN x1 hx1) (srcN x1 hx1) n h i

end Cert.KernelIdeal.HandV

end
-- ==== Proof.Val.Pool.lean ====
/- After the aggregate the two programs apply the same operations under different names: bias, rectifier, the row's
   mean and variance, the inverse square root, scale and shift, the column sums. -/
import proofs.«416509_j46643344834924_3_alg».proof.Proof.Val.Defs
import Idealize.ShloMosaic.Lib.ValueLayout

set_option maxRecDepth 16384

noncomputable section

namespace Cert.KernelIdeal.HandV

open Cert.KernelIdeal Cert.KernelIdeal.Gen Cert.KernelIdeal.Hand
open Cert.ReferenceIdeal.ReadP
open Idealize.ShloMosaic Idealize.ShloMosaic.TcCoe Idealize.ShloMosaic.ValueIdx
open Idealize.SL.Sem
open scoped BigOperators

/-! ## Column forms of a cast and a broadcast -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Layout

/-! ## The mathematics both programs compute from an aggregate `a` -/

/-- The aggregate plus the bias, rectified, at row `r` and column `c`. -/
def relu (a : S81x8192.Idx → EReal) (bg : S8192.Idx → EReal) (r : Fin 81) (c : Fin 8192) : EReal :=
  max (a (ix2 r c) + bg (ix1 c)) (Ideal.ofBits .f32 0x00000000#32)

/-- The mean of row `r`: the row's sum over 8192. -/
def mean (a : S81x8192.Idx → EReal) (bg : S8192.Idx → EReal) (r : Fin 81) : EReal :=
  Ideal.div (∑ c : Fin 8192, relu a bg r c) (Ideal.ofBits .f32 0x46000000#32)

/-- The inverse deviation of row `r`: the inverse square root of the row's mean squared distance to its mean, plus ε. -/
def idev (a : S81x8192.Idx → EReal) (bg : S8192.Idx → EReal) (r : Fin 81) : EReal :=
  Ideal.rsqrt (Ideal.div (∑ c : Fin 8192, (relu a bg r c - mean a bg r) * (relu a bg r c - mean a bg r))
    (Ideal.ofBits .f32 0x46000000#32) + Ideal.ofBits .f32 0x3727C5AC#32)

/-- The normalised entry, scaled and shifted. -/
def entry (a : S81x8192.Idx → EReal) (bg lg lb : S8192.Idx → EReal) (r : Fin 81) (c : Fin 8192) : EReal :=
  (relu a bg r c - mean a bg r) * idev a bg r * lg (ix1 c) + lb (ix1 c)

/-- The pooled feature of column `c`: the sum of the column's 81 entries. -/
def pooled (a : S81x8192.Idx → EReal) (bg lg lb : S8192.Idx → EReal) (c : Fin 8192) : EReal :=
  ∑ r : Fin 81, entry a bg lg lb r c

/-! ## The first kernel's arithmetic after the aggregate, in stages -/

/-- Bias and rectifier. -/
def reluK (a : FVec Ideal S81x8192 .f32) (v10 : Vec Ideal S1x8192 .f32) : FVec Ideal S81x8192 .f32 :=
  maximumf (addf a (broadcastTo S81x8192 (shapeCast S1x8192 v10 shapeCasts_S1x8192_S1x8192) broadcasts_S1x8192_S81x8192))
    (broadcast S81x8192 (Scalar.ofBits .f32 0x00000000#32))

/-- The rows' means, as a column. -/
def meanK (u : FVec Ideal S81x8192 .f32) : FVec Ideal S81x1 .f32 :=
  divf (shapeCast S81x1 (multiReduction .add [1] S81 u 0x00000000#32 reduces_S81x8192_S81 (.inl rfl) rfl) shapeCasts_S81_S81x1)
    (broadcast S81x1 (Scalar.ofBits .f32 0x46000000#32))

/-- Every entry minus its row's mean. -/
def cenK (u : FVec Ideal S81x8192 .f32) : FVec Ideal S81x8192 .f32 :=
  subf u (broadcastTo S81x8192 (meanK u) broadcasts_S81x1_S81x8192)

/-- The rows' inverse deviations, as a column. -/
def idevK (u : FVec Ideal S81x8192 .f32) : FVec Ideal S81x1 .f32 :=
  rsqrt (addf
    (divf (shapeCast S81x1 (multiReduction .add [1] S81 (mulf (cenK u) (cenK u)) 0x00000000#32 reduces_S81x8192_S81 (.inl rfl) rfl)
        shapeCasts_S81_S81x1)
      (broadcast S81x1 (Scalar.ofBits .f32 0x46000000#32)))
    (broadcast S81x1 (Scalar.ofBits .f32 0x3727C5AC#32)))

/-- What the first kernel makes of the aggregate `a` before the shift: bias, rectifier, row normalisation, scale. -/
def rest (a : FVec Ideal S81x8192 .f32) (v10 v34 : Vec Ideal S1x8192 .f32) : FVec Ideal S81x8192 .f32 :=
  mulf (mulf (cenK (reluK a v10)) (broadcastTo S81x8192 (idevK (reluK a v10)) broadcasts_S81x1_S81x8192))
    (broadcastTo S81x8192 (shapeCast S1x8192 v34 shapeCasts_S1x8192_S1x8192) broadcasts_S1x8192_S81x8192)

/-- The kernel's normalised block is `rest` of the aggregate. -/
theorem pay2_eq_rest (x0 : Arr S81x10 .f32) (x1 : IArr S2x1620 32) (x2 : Arr S10x8192 .f32) (bg lg : Vec Ideal S1x8192 .f32) :
    k0_pay2 (F := Ideal) x0 x2 (adjK x1) bg lg = rest (aggK x0 x1 x2) bg lg := rfl

/-! ## The kernel's stages read at an index -/

/-- A vector of 8192 entries read as one row, at column `c`. -/
theorem pool_rs1_apply (x : Arr S8192 .f32) (c : Fin 8192) : rs1 x (ix2 (0 : Fin 1) c) = x (ix1 c) := by
  unfold rs1
  exact shapeCast_a_1a_apply x shapeCasts_S8192_S1x8192 0 c

/-- A row, cast to its own shape and broadcast over the 81 rows, at `(r, c)`. -/
theorem rowBcast_apply (v : Vec Ideal S1x8192 .f32) (r : Fin 81) (c : Fin 8192) :
    broadcastTo S81x8192 (shapeCast S1x8192 v shapeCasts_S1x8192_S1x8192) broadcasts_S1x8192_S81x8192 (ix2 r c)
      = v (ix2 (0 : Fin 1) c) := by
  rw [shapeCast_self]
  exact broadcastTo_1b_ab_apply v broadcasts_S1x8192_S81x8192 r c

/-- A column broadcast over the 8192 columns, at `(r, c)`. -/
theorem colBcast_apply (v : FVec Ideal S81x1 .f32) (r : Fin 81) (c : Fin 8192) :
    broadcastTo S81x8192 v broadcasts_S81x1_S81x8192 (ix2 r c) = v (ix2 r (0 : Fin 1)) :=
  broadcastTo_a1_ab_apply v broadcasts_S81x1_S81x8192 r c

/-- A row sum, kept as a column, at row `r`. -/
theorem rowSum_apply (u : FVec Ideal S81x8192 .f32) (hφ : FKind.Formats .f32) (hacc : (0x00000000#32 : BitVec 32) = 0x00000000#32)
    (r : Fin 81) :
    shapeCast S81x1 (multiReduction .add [1] S81 u 0x00000000#32 reduces_S81x8192_S81 hφ hacc) shapeCasts_S81_S81x1 (ix2 r (0 : Fin 1))
      = ∑ c : Fin 8192, u (ix2 r c) := by
  refine (shapeCast_a_a1_apply _ shapeCasts_S81_S81x1 r 0).trans ?_
  refine (Ideal.multiReduction_add_single u 0x00000000#32 reduces_S81x8192_S81 hφ hacc (ix1 r)).trans ?_
  refine Finset.sum_congr rfl fun k _ => ?_
  exact congrArg u (funext fun a => Fin.ext (by match a with | ⟨0, _⟩ => rfl | ⟨1, _⟩ => rfl))

theorem reluK_apply (a : FVec Ideal S81x8192 .f32) (x3 : Arr S8192 .f32) (r : Fin 81) (c : Fin 8192) :
    reluK a (rs1 x3) (ix2 r c) = relu a x3 r c := by
  unfold reluK relu
  rw [maximumf_apply, addf_apply, broadcast_apply, rowBcast_apply, pool_rs1_apply]
  rfl

theorem meanK_apply (u : FVec Ideal S81x8192 .f32) (r : Fin 81) :
    meanK u (ix2 r (0 : Fin 1)) = Ideal.div (∑ c : Fin 8192, u (ix2 r c)) (Ideal.ofBits .f32 0x46000000#32) := by
  unfold meanK
  rw [divf_apply, broadcast_apply, rowSum_apply]
  rfl

theorem cenK_apply (u : FVec Ideal S81x8192 .f32) (r : Fin 81) (c : Fin 8192) :
    cenK u (ix2 r c) = u (ix2 r c) - meanK u (ix2 r (0 : Fin 1)) := by
  unfold cenK
  rw [subf_apply, colBcast_apply]

theorem idevK_apply (u : FVec Ideal S81x8192 .f32) (r : Fin 81) :
    idevK u (ix2 r (0 : Fin 1))
      = Ideal.rsqrt (Ideal.div (∑ c : Fin 8192, cenK u (ix2 r c) * cenK u (ix2 r c)) (Ideal.ofBits .f32 0x46000000#32)
          + Ideal.ofBits .f32 0x3727C5AC#32) := by
  unfold idevK
  show Ideal.rsqrt (Ideal.div (shapeCast S81x1 _ shapeCasts_S81_S81x1 (ix2 r (0 : Fin 1))) (Ideal.ofBits .f32 0x46000000#32)
      + Ideal.ofBits .f32 0x3727C5AC#32) = _
  rw [rowSum_apply]
  rfl

theorem rest_apply (a : FVec Ideal S81x8192 .f32) (x3 x4 : Arr S8192 .f32) (r : Fin 81) (c : Fin 8192) :
    rest a (rs1 x3) (rs1 x4) (ix2 r c) = (relu a x3 r c - mean a x3 r) * idev a x3 r * x4 (ix1 c) := by
  have hu : ∀ c' : Fin 8192, cenK (reluK a (rs1 x3)) (ix2 r c') = relu a x3 r c' - mean a x3 r := fun c' => by
    rw [cenK_apply, meanK_apply, reluK_apply]
    unfold mean
    simp only [reluK_apply]
  unfold rest
  rw [mulf_apply, mulf_apply, colBcast_apply, rowBcast_apply, pool_rs1_apply, idevK_apply, hu]
  unfold idev
  simp only [hu]

/-- A column sum, read as one row, at column `c`. -/
theorem colSum_apply (u : FVec Ideal S81x8192 .f32) (hφ : FKind.Formats .f32) (hacc : (0x00000000#32 : BitVec 32) = 0x00000000#32)
    (c : Fin 8192) :
    shapeCast S1x8192 (multiReduction .add [0] S8192 u 0x00000000#32 reduces_S81x8192_S8192 hφ hacc) shapeCasts_S8192_S1x8192
        (ix2 (0 : Fin 1) c)
      = ∑ r : Fin 81, u (ix2 r c) := by
  refine (shapeCast_a_1a_apply _ shapeCasts_S8192_S1x8192 0 c).trans ?_
  refine (Ideal.multiReduction_add_single u 0x00000000#32 reduces_S81x8192_S8192 hφ hacc (ix1 c)).trans ?_
  refine Finset.sum_congr rfl fun k _ => ?_
  exact congrArg u (funext fun a => Fin.ext (by match a with | ⟨0, _⟩ => rfl | ⟨1, _⟩ => rfl))

/-- The column sums of the shifted block, at column `c`. -/
theorem pool_pay1_apply (v37 : FVec Ideal S81x8192 .f32) (x5 : Arr S8192 .f32) (c : Fin 8192) :
    k0_pay1 (F := Ideal) v37 (rs1 x5) (ix2 (0 : Fin 1) c) = ∑ r : Fin 81, (v37 (ix2 r c) + x5 (ix1 c)) := by
  unfold k0_pay1
  refine (colSum_apply _ _ _ c).trans ?_
  refine Finset.sum_congr rfl fun r _ => ?_
  rw [addf_apply, rowBcast_apply, pool_rs1_apply]

/-- The kernel's pooled features at column `c`. -/
theorem gK_apply (x0 : Arr S81x10 .f32) (x1 : IArr S2x1620 32) (x2 : Arr S10x8192 .f32) (x3 x4 x5 : Arr S8192 .f32) (c : Fin 8192) :
    gK x0 x1 x2 x3 x4 x5 (ix2 (0 : Fin 1) c) = pooled (aggK x0 x1 x2) x3 x4 x5 c := by
  unfold gK out0_6
  rw [pay2_eq_rest, pool_pay1_apply]
  unfold pooled entry
  simp only [rest_apply]

/-! ## The reference's stages read at an index -/

section Ref
variable (x0 : Arr S81x10 .f32) (x1 : IArr S2x1620 32) (x2 : Arr S10x8192 .f32) (x3 x4 x5 : Arr S8192 .f32)

theorem ref_relu (r : Fin 81) (c : Fin 8192) :
    val_main_v57 (F := Ideal) x0 x1 x2 x3 (ix2 r c) = relu (val_main_v53 (F := Ideal) x0 x1 x2) x3 r c := by
  rw [val_main_v57_apply, val_main_v56_apply, val_main_v55_apply, val_main_v54_apply, val_main_call1_v0_apply,
    val_main_call1_cst_apply]
  have e : idx_main_v54 (idx_main_v55 (ix2 r c)) = ix1 c := funext fun a => Fin.ext (by match a with | ⟨0, _⟩ => rfl)
  rw [e]
  rfl

theorem ref_mean (r : Fin 81) :
    val_main_v61 (F := Ideal) x0 x1 x2 x3 (ix2 r (0 : Fin 1)) = mean (val_main_v53 (F := Ideal) x0 x1 x2) x3 r := by
  rw [val_main_v61_apply, val_main_v59_apply, val_main_v58_apply, val_main_v60_apply, val_main_cst_14_apply,
    val_main_cst_13_apply]
  unfold mean
  show Ideal.div (Ideal.ofBits .f32 0x00000000#32 + _) _ = _
  rw [Ideal.ofBits_zero_f32, zero_add]
  refine congrArg (Ideal.div · _) (Finset.sum_congr rfl fun k _ => ?_)
  rw [← ref_relu]
  exact congrArg _ (funext fun a => Fin.ext (by match a with | ⟨0, _⟩ => rfl | ⟨1, _⟩ => rfl))

theorem ref_cen (r : Fin 81) (c : Fin 8192) :
    val_main_v63 (F := Ideal) x0 x1 x2 x3 (ix2 r c)
      = relu (val_main_v53 (F := Ideal) x0 x1 x2) x3 r c - mean (val_main_v53 (F := Ideal) x0 x1 x2) x3 r := by
  rw [val_main_v63_apply, val_main_v62_apply, ref_relu]
  have e : idx_main_v62 (ix2 r c) = ix2 r (0 : Fin 1) :=
    funext fun a => Fin.ext (by match a with | ⟨0, _⟩ => rfl | ⟨1, _⟩ => rfl)
  rw [e, ref_mean]
  rfl

theorem ref_cen' (r : Fin 81) (c : Fin 8192) :
    val_main_v70 (F := Ideal) x0 x1 x2 x3 (ix2 r c)
      = relu (val_main_v53 (F := Ideal) x0 x1 x2) x3 r c - mean (val_main_v53 (F := Ideal) x0 x1 x2) x3 r := by
  rw [val_main_v70_apply, val_main_v69_apply, ref_relu]
  have e : idx_main_v69 (ix2 r c) = ix2 r (0 : Fin 1) :=
    funext fun a => Fin.ext (by match a with | ⟨0, _⟩ => rfl | ⟨1, _⟩ => rfl)
  rw [e, ref_mean]
  rfl

theorem ref_idev (r : Fin 81) :
    val_main_v73 (F := Ideal) x0 x1 x2 x3 (ix2 r (0 : Fin 1)) = idev (val_main_v53 (F := Ideal) x0 x1 x2) x3 r := by
  rw [val_main_v73_apply, val_main_v72_apply, val_main_v68_apply, val_main_v66_apply, val_main_v65_apply, val_main_v67_apply,
    val_main_cst_16_apply, val_main_v71_apply, val_main_cst_17_apply, val_main_cst_15_apply]
  unfold idev
  show Ideal.rsqrt (Ideal.div (Ideal.ofBits .f32 0x00000000#32 + _) _ + _) = _
  rw [Ideal.ofBits_zero_f32, zero_add]
  refine congrArg (fun t => Ideal.rsqrt (Ideal.div t _ + _)) (Finset.sum_congr rfl fun k _ => ?_)
  have e : idx_main_v65 (idx_main_v66 (ix2 r (0 : Fin 1))) k = ix2 r k :=
    funext fun a => Fin.ext (by match a with | ⟨0, _⟩ => rfl | ⟨1, _⟩ => rfl)
  rw [e, val_main_v64_apply, ref_cen]
  rfl

theorem ref_entry (r : Fin 81) (c : Fin 8192) :
    val_main_v81 (F := Ideal) x0 x1 x2 x3 x4 x5 (ix2 r c) = entry (val_main_v53 (F := Ideal) x0 x1 x2) x3 x4 x5 r c := by
  rw [val_main_v81_apply, val_main_v80_apply, val_main_v79_apply, val_main_v78_apply, val_main_v77_apply, val_main_v76_apply,
    val_main_v75_apply, val_main_v74_apply, ref_cen']
  have e1 : idx_main_v74 (ix2 r c) = ix2 r (0 : Fin 1) :=
    funext fun a => Fin.ext (by match a with | ⟨0, _⟩ => rfl | ⟨1, _⟩ => rfl)
  have e2 : idx_main_v76 (idx_main_v77 (ix2 r c)) = ix1 c := funext fun a => Fin.ext (by match a with | ⟨0, _⟩ => rfl)
  have e3 : idx_main_v79 (idx_main_v80 (ix2 r c)) = ix1 c := funext fun a => Fin.ext (by match a with | ⟨0, _⟩ => rfl)
  rw [e1, e2, e3, ref_idev]
  rfl

theorem ref_pooled (c : Fin 8192) :
    val_main_v83 (F := Ideal) x0 x1 x2 x3 x4 x5 (ix2 (0 : Fin 1) c) = pooled (val_main_v53 (F := Ideal) x0 x1 x2) x3 x4 x5 c := by
  rw [val_main_v83_apply, val_main_v82_apply, val_main_cst_18_apply]
  unfold pooled
  show Ideal.ofBits .f32 0x00000000#32 + _ = _
  rw [Ideal.ofBits_zero_f32, zero_add]
  refine Finset.sum_congr rfl fun k _ => ?_
  have e : idx_main_v82 (idx_main_v83 (ix2 (0 : Fin 1) c)) k = ix2 k c :=
    funext fun a => Fin.ext (by match a with | ⟨0, _⟩ => rfl | ⟨1, _⟩ => rfl)
  rw [e, ref_entry]

end Ref

/-- Given equal aggregates, the pooled features the first kernel writes are the reference's. -/
theorem g_of_agg (x0 : Arr S81x10 .f32) (x1 : IArr S2x1620 32) (x2 : Arr S10x8192 .f32) (x3 x4 x5 : Arr S8192 .f32)
    (h : aggK x0 x1 x2 = val_main_v53 (F := Ideal) x0 x1 x2) :
    gK x0 x1 x2 x3 x4 x5 = val_main_v83 (F := Ideal) x0 x1 x2 x3 x4 x5 := by
  funext i
  obtain ⟨u, c, rfl⟩ : ∃ (u : Fin 1) (c : Fin 8192), i = ix2 u c := ⟨i 0, i 1, eq_ix2 i⟩
  obtain rfl : u = 0 := Subsingleton.elim _ _
  rw [gK_apply, h, ref_pooled]

end Cert.KernelIdeal.HandV

end
-- ==== Proof.Val.Bridge.lean ====
/- The kernel's result is the reference's: the stages joined. -/
import proofs.«416509_j46643344834924_3_alg».proof.Proof.Val.Pre
import proofs.«416509_j46643344834924_3_alg».proof.Proof.Val.Host
import proofs.«416509_j46643344834924_3_alg».proof.Proof.Val.Arrays
import proofs.«416509_j46643344834924_3_alg».proof.Proof.Val.Mlp
import proofs.«416509_j46643344834924_3_alg».proof.Proof.Val.Agg
import proofs.«416509_j46643344834924_3_alg».proof.Proof.Val.Pool

set_option maxRecDepth 16384

noncomputable section

namespace Cert.KernelIdeal.HandV

open Cert.KernelIdeal Cert.KernelIdeal.Gen Cert.KernelIdeal.Hand
open Cert.ReferenceIdeal.ReadP
open Idealize.ShloMosaic Idealize.ShloMosaic.TcCoe Idealize.ShloMosaic.ValueIdx
open Idealize.SL.Sem

variable [hPre : Cert.Pre_finite_inputs.Facts]

/-- Under the precondition the program's result array is the reference's result of the same arguments. -/
theorem kernel_value (m : (ℓ : Loc nD τ sig) → Buf (Elt Ideal) ℓ) (hp : Cert.Pre_KernelIdeal m) (c : Dev nD) :
    (W8 m c main_v63 : Arr S1x729 .f32) = val_main_v91 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [tailK, tailR]
  congr 1
  rw [r1_arr]
  refine mlp_eq (E1 m) c _ _ _ _ _ _ _ _ _ _ ?_ (E1_W1 m c) (E1_b1 m c) (E1_W2 m c)
  rw [E1_g, r0_arr, E0_arg0, E0_adj, E0_arg2, E0_bg, E0_lg, E0_lb]
  exact g_of_agg _ _ _ _ _ _ (agg_eq _ _ _ (pre_x0 m hp c) (pre_x2 m hp c) (pre_x1 m hp c))

end Cert.KernelIdeal.HandV

end
-- ==== Proof.lean ====
/- A graph-network head: a dense-adjacency graph convolution with row normalisation and pooling in one kernel, a fused
   two-layer head accumulated tile by tile on two cores in a second, and a log-softmax — against the plain reference,
   which aggregates by gather and scatter-add over the edge list. Over finite inputs and edge endpoints that are node
   indices the two programs compute one function at the exact instance: the dense adjacency times the transformed
   features is the reference's edge sum regrouped by source (distributivity over the reals), the tiled accumulation is
   the whole matrix products with the sum over the hidden units split as 2 x 16 x 256, and everything else is the same
   operations under different names. The three frames: each program runs to the end, faults nowhere, and leaves its
   arguments as they were. -/
import proofs.«416509_j46643344834924_3_alg».proof.Defs
import proofs.«416509_j46643344834924_3_alg».proof.Proof.Gen.Kernel
import proofs.«416509_j46643344834924_3_alg».proof.Proof.Gen.KernelIdeal
import proofs.«416509_j46643344834924_3_alg».proof.Proof.Gen.ReferenceIdeal
import proofs.«416509_j46643344834924_3_alg».proof.Proof.Gen.Pre_finite_inputs
import proofs.«416509_j46643344834924_3_alg».proof.Proof.K.Run
import proofs.«416509_j46643344834924_3_alg».proof.Proof.KI.Run
import proofs.«416509_j46643344834924_3_alg».proof.Proof.Val.Bridge
import proofs.«416509_j46643344834924_3_alg».proof.Proof.Ref.RunEq
import Idealize.ShloMosaic.Adequacy
import Idealize.ShloMosaic.Init

noncomputable section

namespace Cert.Proof

open Idealize.ShloMosaic Idealize.ShloMosaic.TcCoe Idealize.SL.Sem

instance : Cert.Pre_finite_inputs.Facts := Cert.Pre_finite_inputs.Gen.facts
instance : Cert.Kernel.Facts := Cert.Kernel.Gen.facts
instance : Cert.KernelIdeal.Facts := Cert.KernelIdeal.Gen.facts
instance : Cert.ReferenceIdeal.Facts := Cert.ReferenceIdeal.Gen.facts

/-- The word-level program runs and leaves its arguments unchanged. -/
theorem frame_k : Cert.frame_Kernel := fun m ρ _ => Cert.Kernel.Hand.frame m ρ

/-- So does the program read at the exact instance. -/
theorem frame_ki : Cert.frame_KernelIdeal := fun m ρ _ => Cert.KernelIdeal.Hand.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the same result array: the kernel's last
    boundary contents at its result, which under the precondition is the reference's term of the same arguments. -/
theorem algebraic : Cert.algebraic_KernelIdeal_ReferenceIdeal := by
  intro m ρ m' ρ' hpre hagree
  refine ⟨fun c => Cert.KernelIdeal.Hand.W8 m c Cert.KernelIdeal.main_v63, ?_, ?_⟩
  · refine (θ_run Cert.KernelIdeal.defs _ _).mono (fun r h c => ?_) (Cert.KernelIdeal.Hand.run_all m ρ)
    exact ⟨h c _ (Cert.KernelIdeal.Hand.mem_uc Cert.KernelIdeal.main_v63 (by decide)),
      (h c _ (Cert.KernelIdeal.Hand.mem_uc Cert.KernelIdeal.main_arg0 (by decide))).trans (Cert.KernelIdeal.Hand.W8_arg m c Cert.KernelIdeal.main_arg0 (by decide)),
      (h c _ (Cert.KernelIdeal.Hand.mem_uc Cert.KernelIdeal.main_arg1 (by decide))).trans (Cert.KernelIdeal.Hand.W8_arg m c Cert.KernelIdeal.main_arg1 (by decide)),
      (h c _ (Cert.KernelIdeal.Hand.mem_uc Cert.KernelIdeal.main_arg2 (by decide))).trans (Cert.KernelIdeal.Hand.W8_arg m c Cert.KernelIdeal.main_arg2 (by decide)),
      (h c _ (Cert.KernelIdeal.Hand.mem_uc Cert.KernelIdeal.main_arg3 (by decide))).trans (Cert.KernelIdeal.Hand.W8_arg m c Cert.KernelIdeal.main_arg3 (by decide)),
      (h c _ (Cert.KernelIdeal.Hand.mem_uc Cert.KernelIdeal.main_arg4 (by decide))).trans (Cert.KernelIdeal.Hand.W8_arg m c Cert.KernelIdeal.main_arg4 (by decide)),
      (h c _ (Cert.KernelIdeal.Hand.mem_uc Cert.KernelIdeal.main_arg5 (by decide))).trans (Cert.KernelIdeal.Hand.W8_arg m c Cert.KernelIdeal.main_arg5 (by decide)),
      (h c _ (Cert.KernelIdeal.Hand.mem_uc Cert.KernelIdeal.main_arg6 (by decide))).trans (Cert.KernelIdeal.Hand.W8_arg m c Cert.KernelIdeal.main_arg6 (by decide)),
      (h c _ (Cert.KernelIdeal.Hand.mem_uc Cert.KernelIdeal.main_arg7 (by decide))).trans (Cert.KernelIdeal.Hand.W8_arg m c Cert.KernelIdeal.main_arg7 (by decide)),
      (h c _ (Cert.KernelIdeal.Hand.mem_uc Cert.KernelIdeal.main_arg8 (by decide))).trans (Cert.KernelIdeal.Hand.W8_arg m c Cert.KernelIdeal.main_arg8 (by decide)),
      (h c _ (Cert.KernelIdeal.Hand.mem_uc Cert.KernelIdeal.main_arg9 (by decide))).trans (Cert.KernelIdeal.Hand.W8_arg m c Cert.KernelIdeal.main_arg9 (by decide))⟩
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v91_eq]
    obtain ⟨h0, h1, h2, h3, h4, h5, h6, h7, h8, h9⟩ := hagree c
    rw [h0, h1, h2, h3, h4, h5, h6, h7, h8, h9]
    exact (Cert.KernelIdeal.HandV.kernel_value m hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
